-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S4096x8192 : Shape := ⟨2, ![4096, 8192]⟩
abbrev S8192x256 : Shape := ⟨2, ![8192, 256]⟩
abbrev S8192 : Shape := ⟨1, ![8192]⟩
abbrev S512 : Shape := ⟨1, ![512]⟩
abbrev S512x256 : Shape := ⟨2, ![512, 256]⟩
abbrev S257x512 : Shape := ⟨2, ![257, 512]⟩
abbrev S257 : Shape := ⟨1, ![257]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S4096x8192 : S_.BroadcastsInDim S4096x8192 (![] : Fin 0 → Fin S4096x8192.rank)
  reducesTo_S4096x8192_S_d0_1 : S4096x8192.ReducesTo [0, 1] S_
  bcast_S_S8192x256 : S_.BroadcastsInDim S8192x256 (![] : Fin 0 → Fin S8192x256.rank)
  reducesTo_S8192x256_S_d0_1 : S8192x256.ReducesTo [0, 1] S_
  bcast_S_S512x256 : S_.BroadcastsInDim S512x256 (![] : Fin 0 → Fin S512x256.rank)
  reducesTo_S512x256_S_d0_1 : S512x256.ReducesTo [0, 1] S_
  bcast_S_S512 : S_.BroadcastsInDim S512 (![] : Fin 0 → Fin S512.rank)
  reducesTo_S512_S_d0 : S512.ReducesTo [0] S_
  bcast_S_S257x512 : S_.BroadcastsInDim S257x512 (![] : Fin 0 → Fin S257x512.rank)
  reducesTo_S257x512_S_d0_1 : S257x512.ReducesTo [0, 1] S_
  bcast_S_S257 : S_.BroadcastsInDim S257 (![] : Fin 0 → Fin S257.rank)
  reducesTo_S257_S_d0 : S257.ReducesTo [0] S_

variable [Facts]

def fn_part2 {F : FTy → Type} [FloatOps F] (main_arg4 : IVec S512 32) (main_v33 : IVec S_ 1) : IVec S_ 1 :=
  let main_c_12 : IVec S_ 32 := constantI S_ 32 4294959104#32
  let main_v34 : IVec S512 32 := broadcastInDim S512 ![] bcast_S_S512 main_c_12
  let main_v35 : IVec S512 1 := cmpi .sge main_arg4 main_v34
  let main_c_13 : IVec S_ 32 := constantI S_ 32 8192#32
  let main_v36 : IVec S512 32 := broadcastInDim S512 ![] bcast_S_S512 main_c_13
  let main_v37 : IVec S512 1 := cmpi .slt main_arg4 main_v36
  let main_v38 : IVec S512 1 := andi main_v35 main_v37
  let main_c_14 : IVec S_ 1 := constantI S_ 1 1#1
  let main_v39 : IVec S_ 1 := (fun x v => Host.reduce IntOp.andi x v reducesTo_S512_S_d0 h_S_) main_v38 main_c_14
  let main_v40 : IVec S_ 1 := andi main_v33 main_v39
  main_v40

def fn_part1 {F : FTy → Type} [FloatOps F] (main_arg4 : IVec S512 32) (main_arg6 : FVec F S512 .f32) (main_arg7 : FVec F S257x512 .f32) (main_arg8 : FVec F S257 .f32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S512 .f32 := Host.absf main_arg6
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S257x512 .f32 := Host.absf main_arg7
  let main_cst_8 : FVec F S_ .f32 := constant S_ .f32 0x7F800000#32
  let main_v25 : FVec F S257x512 .f32 := broadcastInDim S257x512 ![] bcast_S_S257x512 main_cst_8
  let main_v26 : IVec S257x512 1 := cmpf .olt main_v24 main_v25
  let main_c_9 : IVec S_ 1 := constantI S_ 1 1#1
  let main_v27 : IVec S_ 1 := (fun x v => Host.reduce IntOp.andi x v reducesTo_S257x512_S_d0_1 h_S_) main_v26 main_c_9
  let main_v28 : IVec S_ 1 := andi main_v23 main_v27
  let main_v29 : FVec F S257 .f32 := Host.absf main_arg8
  let main_cst_10 : FVec F S_ .f32 := constant S_ .f32 0x7F800000#32
  let main_v30 : FVec F S257 .f32 := broadcastInDim S257 ![] bcast_S_S257 main_cst_10
  let main_v31 : IVec S257 1 := cmpf .olt main_v29 main_v30
  let main_c_11 : IVec S_ 1 := constantI S_ 1 1#1
  let main_v32 : IVec S_ 1 := (fun x v => Host.reduce IntOp.andi x v reducesTo_S257_S_d0 h_S_) main_v31 main_c_11
  let main_v33 : IVec S_ 1 := andi main_v28 main_v32
  fn_part2 (F := F) main_arg4 main_v33

def fn {F : FTy → Type} [FloatOps F] (main_arg0 : FVec F S4096x256 .f32) (main_arg1 : FVec F S4096x8192 .f32) (main_arg2 : FVec F S8192x256 .f32) (main_arg3 : IVec S8192 1) (main_arg4 : IVec S512 32) (main_arg5 : FVec F S512x256 .f32) (main_arg6 : FVec F S512 .f32) (main_arg7 : FVec F S257x512 .f32) (main_arg8 : FVec F S257 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x8192 .f32 := Host.absf main_arg1
  let main_cst_0 : FVec F S_ .f32 := constant S_ .f32 0x7F800000#32
  let main_v5 : FVec F S4096x8192 .f32 := broadcastInDim S4096x8192 ![] bcast_S_S4096x8192 main_cst_0
  let main_v6 : IVec S4096x8192 1 := cmpf .olt main_v4 main_v5
  let main_c_1 : IVec S_ 1 := constantI S_ 1 1#1
  let main_v7 : IVec S_ 1 := (fun x v => Host.reduce IntOp.andi x v reducesTo_S4096x8192_S_d0_1 h_S_) main_v6 main_c_1
  let main_v8 : IVec S_ 1 := andi main_v3 main_v7
  let main_v9 : FVec F S8192x256 .f32 := Host.absf main_arg2
  let main_cst_2 : FVec F S_ .f32 := constant S_ .f32 0x7F800000#32
  let main_v10 : FVec F S8192x256 .f32 := broadcastInDim S8192x256 ![] bcast_S_S8192x256 main_cst_2
  let main_v11 : IVec S8192x256 1 := cmpf .olt main_v9 main_v10
  let main_c_3 : IVec S_ 1 := constantI S_ 1 1#1
  let main_v12 : IVec S_ 1 := (fun x v => Host.reduce IntOp.andi x v reducesTo_S8192x256_S_d0_1 h_S_) main_v11 main_c_3
  let main_v13 : IVec S_ 1 := andi main_v8 main_v12
  let main_v14 : FVec F S512x256 .f32 := Host.absf main_arg5
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg4 main_arg6 main_arg7 main_arg8 main_v13 main_v16
-- ==== Kernel.lean ====
abbrev S4096x256 : Shape := ⟨2, ![4096, 256]⟩
abbrev S4096x8192 : Shape := ⟨2, ![4096, 8192]⟩
abbrev S8192x256 : Shape := ⟨2, ![8192, 256]⟩
abbrev S8192 : Shape := ⟨1, ![8192]⟩
abbrev S512 : Shape := ⟨1, ![512]⟩
abbrev S512x256 : Shape := ⟨2, ![512, 256]⟩
abbrev S257x512 : Shape := ⟨2, ![257, 512]⟩
abbrev S257 : Shape := ⟨1, ![257]⟩
abbrev S_ : Shape := ⟨0, ![]⟩
abbrev S4096x1 : Shape := ⟨2, ![4096, 1]⟩
abbrev S4096x257 : Shape := ⟨2, ![4096, 257]⟩
abbrev S8192x257 : Shape := ⟨2, ![8192, 257]⟩
abbrev S1024x1024 : Shape := ⟨2, ![1024, 1024]⟩
abbrev S1024x257 : Shape := ⟨2, ![1024, 257]⟩
abbrev S8192x1 : Shape := ⟨2, ![8192, 1]⟩
abbrev S512x1 : Shape := ⟨2, ![512, 1]⟩
abbrev S1 : Shape := ⟨1, ![1]⟩
abbrev S1x1 : Shape := ⟨2, ![1, 1]⟩
abbrev S512x257 : Shape := ⟨2, ![512, 257]⟩
abbrev S512x512 : Shape := ⟨2, ![512, 512]⟩
abbrev S1x512 : Shape := ⟨2, ![1, 512]⟩
abbrev S1x257 : Shape := ⟨2, ![1, 257]⟩
abbrev S1024x256 : Shape := ⟨2, ![1024, 256]⟩
abbrev S1024 : Shape := ⟨1, ![1024]⟩
abbrev S1x1024 : Shape := ⟨2, ![1, 1024]⟩

abbrev nBuf : Space → Nat
  | .hbm => 66
  | .vmem => 24
  | .smem => 0
  | _ => 0

abbrev bufTy : (tb : Table) → Fin (tcTables nBuf tb) → BufTy
  | .hbm, ⟨0, _⟩ => ⟨S4096x256, .f32⟩
  | .hbm, ⟨1, _⟩ => ⟨S4096x8192, .f32⟩
  | .hbm, ⟨2, _⟩ => ⟨S8192x256, .f32⟩
  | .hbm, ⟨3, _⟩ => ⟨S8192, .i1⟩
  | .hbm, ⟨4, _⟩ => ⟨S512, .i32⟩
  | .hbm, ⟨5, _⟩ => ⟨S512x256, .f32⟩
  | .hbm, ⟨6, _⟩ => ⟨S512, .f32⟩
  | .hbm, ⟨7, _⟩ => ⟨S257x512, .f32⟩
  | .hbm, ⟨8, _⟩ => ⟨S257, .f32⟩
  | .hbm, ⟨9, _⟩ => ⟨S_, .f32⟩
  | .hbm, ⟨10, _⟩ => ⟨S4096x1, .f32⟩
  | .hbm, ⟨11, _⟩ => ⟨S4096x257, .f32⟩
  | .hbm, ⟨12, _⟩ => ⟨S8192x257, .f32⟩
  | .hbm, ⟨13, _⟩ => ⟨S8192x256, .f32⟩
  | .hbm, ⟨14, _⟩ => ⟨S8192x1, .f32⟩
  | .hbm, ⟨15, _⟩ => ⟨S8192, .f32⟩
  | .hbm, ⟨16, _⟩ => ⟨S_, .f32⟩
  | .hbm, ⟨17, _⟩ => ⟨S8192, .f32⟩
  | .hbm, ⟨18, _⟩ => ⟨S8192, .f32⟩
  | .hbm, ⟨19, _⟩ => ⟨S8192x1, .f32⟩
  | .hbm, ⟨20, _⟩ => ⟨S8192x256, .f32⟩
  | .hbm, ⟨21, _⟩ => ⟨S8192x256, .f32⟩
  | .hbm, ⟨22, _⟩ => ⟨S_, .f32⟩
  | .hbm, ⟨23, _⟩ => ⟨S8192, .f32⟩
  | .hbm, ⟨24, _⟩ => ⟨S8192, .i1⟩
  | .hbm, ⟨25, _⟩ => ⟨S8192x1, .i1⟩
  | .hbm, ⟨26, _⟩ => ⟨S8192x1, .i1⟩
  | .hbm, ⟨27, _⟩ => ⟨S_, .f32⟩
  | .hbm, ⟨28, _⟩ => ⟨S8192x256, .f32⟩
  | .hbm, ⟨29, _⟩ => ⟨S8192x256, .f32⟩
  | .hbm, ⟨30, _⟩ => ⟨S_, .f32⟩
  | .hbm, ⟨31, _⟩ => ⟨S8192x256, .f32⟩
  | .hbm, ⟨32, _⟩ => ⟨S8192x256, .f32⟩
  | .hbm, ⟨33, _⟩ => ⟨S8192x256, .f32⟩
  | .hbm, ⟨34, _⟩ => ⟨S8192x256, .i1⟩
  | .hbm, ⟨35, _⟩ => ⟨S8192x256, .f32⟩
  | .hbm, ⟨36, _⟩ => ⟨S8192x256, .i1⟩
  | .hbm, ⟨37, _⟩ => ⟨S8192x256, .f32⟩
  | .hbm, ⟨38, _⟩ => ⟨S_, .i32⟩
  | .hbm, ⟨39, _⟩ => ⟨S512, .i32⟩
  | .hbm, ⟨40, _⟩ => ⟨S512, .i1⟩
  | .hbm, ⟨41, _⟩ => ⟨S_, .i32⟩
  | .hbm, ⟨42, _⟩ => ⟨S512, .i32⟩
  | .hbm, ⟨43, _⟩ => ⟨S512, .i32⟩
  | .hbm, ⟨44, _⟩ => ⟨S512, .i32⟩
  | .hbm, ⟨45, _⟩ => ⟨S512x1, .i32⟩
  | .hbm, ⟨46, _⟩ => ⟨S1, .i32⟩
  | .hbm, ⟨47, _⟩ => ⟨S_, .i32⟩
  | .hbm, ⟨48, _⟩ => ⟨S512x1, .i32⟩
  | .hbm, ⟨49, _⟩ => ⟨S512x1, .i1⟩
  | .hbm, ⟨50, _⟩ => ⟨S1x1, .i32⟩
  | .hbm, ⟨51, _⟩ => ⟨S512x1, .i32⟩
  | .hbm, ⟨52, _⟩ => ⟨S512x1, .i1⟩
  | .hbm, ⟨53, _⟩ => ⟨S512x1, .i1⟩
  | .hbm, ⟨54, _⟩ => ⟨S_, .i1⟩
  | .hbm, ⟨55, _⟩ => ⟨S512, .i1⟩
  | .hbm, ⟨56, _⟩ => ⟨S512x256, .f32⟩
  | .hbm, ⟨57, _⟩ => ⟨S512x256, .i1⟩
  | .hbm, ⟨58, _⟩ => ⟨S_, .f32⟩
  | .hbm, ⟨59, _⟩ => ⟨S512x256, .f32⟩
  | .hbm, ⟨60, _⟩ => ⟨S512x256, .f32⟩
  | .hbm, ⟨61, _⟩ => ⟨S8192x257, .f32⟩
  | .hbm, ⟨62, _⟩ => ⟨S8192x256, .f32⟩
  | .hbm, ⟨63, _⟩ => ⟨S8192x1, .f32⟩
  | .hbm, ⟨64, _⟩ => ⟨S8192, .f32⟩
  | .hbm, ⟨65, _⟩ => ⟨S4096x8192, .f32⟩
  | .local _ .vmem, ⟨0, _⟩ => ⟨S1024x1024, .f32⟩
  | .local _ .vmem, ⟨1, _⟩ => ⟨S1024x1024, .f32⟩
  | .local _ .vmem, ⟨2, _⟩ => ⟨S1024x257, .f32⟩
  | .local _ .vmem, ⟨3, _⟩ => ⟨S1024x257, .f32⟩
  | .local _ .vmem, ⟨4, _⟩ => ⟨S1024x257, .f32⟩
  | .local _ .vmem, ⟨5, _⟩ => ⟨S1024x257, .f32⟩
  | .local _ .vmem, ⟨6, _⟩ => ⟨S1024x257, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512, .f32⟩
  | .local _ .vmem, ⟨12, _⟩ => ⟨S257x512, .f32⟩
  | .local _ .vmem, ⟨13, _⟩ => ⟨S257, .f32⟩
  | .local _ .vmem, ⟨14, _⟩ => ⟨S512x257, .f32⟩
  | .local _ .vmem, ⟨15, _⟩ => ⟨S512x257, .f32⟩
  | .local _ .vmem, ⟨16, _⟩ => ⟨S1024x256, .f32⟩
  | .local _ .vmem, ⟨17, _⟩ => ⟨S1024x256, .f32⟩
  | .local _ .vmem, ⟨18, _⟩ => ⟨S1024x256, .f32⟩
  | .local _ .vmem, ⟨19, _⟩ => ⟨S1024x256, .f32⟩
  | .local _ .vmem, ⟨20, _⟩ => ⟨S1024, .f32⟩
  | .local _ .vmem, ⟨21, _⟩ => ⟨S1024, .f32⟩
  | .local _ .vmem, ⟨22, _⟩ => ⟨S1024x1024, .f32⟩
  | .local _ .vmem, ⟨23, _⟩ => ⟨S1024x1024, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_call0_v0 : Ref sig .tc := ⟨.hbm, 34, rfl⟩
abbrev main_v20 : Ref sig .tc := ⟨.hbm, 35, rfl⟩
abbrev main_call1_v0 : Ref sig .tc := ⟨.hbm, 36, rfl⟩
abbrev main_v21 : Ref sig .tc := ⟨.hbm, 37, rfl⟩
abbrev main_call2_c : Ref sig .tc := ⟨.hbm, 38, rfl⟩
abbrev main_call2_v0 : Ref sig .tc := ⟨.hbm, 39, rfl⟩
abbrev main_call2_v1 : Ref sig .tc := ⟨.hbm, 40, rfl⟩
abbrev main_call2_c_0 : Ref sig .tc := ⟨.hbm, 41, rfl⟩
abbrev main_call2_v2 : Ref sig .tc := ⟨.hbm, 42, rfl⟩
abbrev main_call2_v3 : Ref sig .tc := ⟨.hbm, 43, rfl⟩
abbrev main_call2_v4 : Ref sig .tc := ⟨.hbm, 44, rfl⟩
abbrev main_call2_v5 : Ref sig .tc := ⟨.hbm, 45, rfl⟩
abbrev main_call2_c_1 : Ref sig .tc := ⟨.hbm, 46, rfl⟩
abbrev main_call2_c_2 : Ref sig .tc := ⟨.hbm, 47, rfl⟩
abbrev main_call2_v6 : Ref sig .tc := ⟨.hbm, 48, rfl⟩
abbrev main_call2_v7 : Ref sig .tc := ⟨.hbm, 49, rfl⟩
abbrev main_call2_v8 : Ref sig .tc := ⟨.hbm, 50, rfl⟩
abbrev main_call2_v9 : Ref sig .tc := ⟨.hbm, 51, rfl⟩
abbrev main_call2_v10 : Ref sig .tc := ⟨.hbm, 52, rfl⟩
abbrev main_call2_v11 : Ref sig .tc := ⟨.hbm, 53, rfl⟩
abbrev main_call2_c_3 : Ref sig .tc := ⟨.hbm, 54, rfl⟩
abbrev main_call2_v12 : Ref sig .tc := ⟨.hbm, 55, rfl⟩
abbrev main_call2_v13 : Ref sig .tc := ⟨.hbm, 56, rfl⟩
abbrev main_call2_v14 : Ref sig .tc := ⟨.hbm, 57, rfl⟩
abbrev main_call2_cst : Ref sig .tc := ⟨.hbm, 58, rfl⟩
abbrev main_call2_v15 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem6_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem3_1 : DmaSem sig := 22

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x257 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x257 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S512x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S257x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S257 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S512x257 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨2, ![4, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 1 → Nat :=
  let arg0 : BitVec 32 := BitVec.ofNat 32 (i 0).val
  let arg1 : BitVec 32 := BitVec.ofNat 32 (i 1).val
  let c0_i32 : BitVec 32 := 0#32
  ![arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S1024x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

class Facts₀ : Prop where
  bcast_S_S4096x1 : S_.BroadcastsInDim S4096x1 (![] : Fin 0 → Fin S4096x1.rank)
  concatenates_S4096x256_S4096x1_S4096x257_d1 : Shape.Concatenates [S4096x256, S4096x1] S4096x257 1
  inb_S1024x257_S1024x257_0_0 : ∀ a, (![0, 0] : Fin 2 → Nat) a + S1024x257.size a ≤ S1024x257.size a
  h_S1024x257 : 0 < S1024x257.numel
  shapeCasts_S1024x257_S1024x257 : S1024x257.ShapeCasts S1024x257
  inb_S1024x1024_S1024x1024_0_0 : ∀ a, (![0, 0] : Fin 2 → Nat) a + S1024x1024.size a ≤ S1024x1024.size a
  h_S1024x1024 : 0 < S1024x1024.numel
  natLt_1_32 : 1 < 32
  bitsLt_bf16_f32 : FTy.bits .bf16 < FTy.bits .f32
  slices_S8192x257_S8192x256_0_0 : S8192x257.Slices ![0, 0] S8192x256
  slices_S8192x257_S8192x1_0_256 : S8192x257.Slices ![0, 256] S8192x1
  shapeCasts_S8192x1_S8192 : S8192x1.ShapeCasts S8192
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x256_0_1 : S8192x1.BroadcastsInDim S8192x256 (![0, 1] : Fin 2 → Fin S8192x256.rank)
  bcast_S_S8192x256 : S_.BroadcastsInDim S8192x256 (![] : Fin 0 → Fin S8192x256.rank)
  bcast_S_S512 : S_.BroadcastsInDim S512 (![] : Fin 0 → Fin S512.rank)
  bcast_S512_S512x1_0 : S512.BroadcastsInDim S512x1 (![0] : Fin 1 → Fin S512x1.rank)
  bcast_S_S512x1 : S_.BroadcastsInDim S512x1 (![] : Fin 0 → Fin S512x1.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  reducesTo_S512x1_S512_d1 : S512x1.ReducesTo [1] S512
  h_S_ : 0 < S_.numel
  bcast_S512_S512x256_0 : S512.BroadcastsInDim S512x256 (![0] : Fin 1 → Fin S512x256.rank)
  bcast_S_S512x256 : S_.BroadcastsInDim S512x256 (![] : Fin 0 → Fin S512x256.rank)
  inb_S512x256_S512x256_0_0 : ∀ a, (![0, 0] : Fin 2 → Nat) a + S512x256.size a ≤ S512x256.size a
  h_S512x256 : 0 < S512x256.numel
  shapeCasts_S512x256_S512x256 : S512x256.ShapeCasts S512x256
  reduces_S512x512_S512 : S512x512.Reduces [1] S512
  shapeCasts_S512_S512x1 : S512.ShapeCasts S512x1
  broadcasts_S512x1_S512x512 : S512x1.Broadcasts S512x512
  inb_S512_S512_0 : ∀ a, (![0] : Fin 1 → Nat) a + S512.size a ≤ S512.size a
  h_S512 : 0 < S512.numel
  shapeCasts_S512_S1x512 : S512.ShapeCasts S1x512
  broadcasts_S1x512_S512x512 : S1x512.Broadcasts S512x512
  inb_S257x512_S257x512_0_0 : ∀ a, (![0, 0] : Fin 2 → Nat) a + S257x512.size a ≤ S257x512.size a
  h_S257x512 : 0 < S257x512.numel
  inb_S257_S257_0 : ∀ a, (![0] : Fin 1 → Nat) a + S257.size a ≤ S257.size a
  h_S257 : 0 < S257.numel
  shapeCasts_S257_S1x257 : S257.ShapeCasts S1x257
  broadcasts_S1x257_S512x257 : S1x257.Broadcasts S512x257
  inb_S512x257_S512x257_0_0 : ∀ a, (![0, 0] : Fin 2 → Nat) a + S512x257.size a ≤ S512x257.size a
  h_S512x257 : 0 < S512x257.numel
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024_S1024_0 : ∀ a, (![0] : Fin 1 → Nat) a + S1024.size a ≤ S1024.size a
  h_S1024 : 0 < S1024.numel
  shapeCasts_S1024_S1024 : S1024.ShapeCasts S1024
  shapeCasts_S1024_S1x1024 : S1024.ShapeCasts S1x1024
  broadcasts_S1x1024_S1024x1024 : S1x1024.Broadcasts S1024x1024
  dot_S1024x1024_S1024x257_S1024x257_0_0_1_1_n_n_wf : DotDims.WF S1024x1024 S1024x257 S1024x257 [0] [0] [1] [1] [] []
  gather_S8192x256_S512x1_S512x256_1_0_n_n_0_1_1256_wf : GatherDims.WF S8192x256 S512x1 S512x256 [1] [0] [] [0] [] 1 ![1, 256]
  dot_S512x256_S512x256_S512x512_1_1_0_0_n_n_wf : DotDims.WF S512x256 S512x256 S512x512 [1] [1] [0] [0] [] []
  dot_S512x512_S512x256_S512x256_1_0_0_1_n_n_wf : DotDims.WF S512x512 S512x256 S512x256 [1] [0] [0] [1] [] []
  dot_S512x512_S257x512_S512x257_1_1_0_0_n_n_wf : DotDims.WF S512x512 S257x512 S512x257 [1] [1] [0] [0] [] []
  dot_S1024x256_S1024x256_S1024x1024_1_1_0_0_n_n_wf : DotDims.WF S1024x256 S1024x256 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x8192.size a
  hwx0_0 : ∀ i : grid0.Coords, EltTy.bits .f32 = 32 ∨ (Rect.block (s := S4096x8192) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x257.size a ≤ S4096x257.size a
  hwx0_1 : ∀ i : grid0.Coords, EltTy.bits .f32 = 32 ∨ (Rect.block (s := S4096x257) S1024x257.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x257.size a ≤ S8192x257.size a
  hwx0_2 : ∀ i : grid0.Coords, EltTy.bits .f32 = 32 ∨ (Rect.block (s := S8192x257) S1024x257.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x256.size a ≤ S8192x256.size a
  hwx1_0 : ∀ i : grid1.Coords, EltTy.bits .f32 = 32 ∨ (Rect.block (s := S8192x256) S512x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x256.size a ≤ S512x256.size a
  hwx1_1 : ∀ i : grid1.Coords, EltTy.bits .f32 = 32 ∨ (Rect.block (s := S512x256) S512x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x256.size a ≤ S512x256.size a
  hwx1_2 : ∀ i : grid1.Coords, EltTy.bits .f32 = 32 ∨ (Rect.block (s := S512x256) S512x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512.size a ≤ S512.size a
  hwx1_3 : ∀ i : grid1.Coords, EltTy.bits .f32 = 32 ∨ (Rect.block (s := S512) S512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S257x512.size a ≤ S257x512.size a
  hwx1_4 : ∀ i : grid1.Coords, EltTy.bits .f32 = 32 ∨ (Rect.block (s := S257x512) S257x512.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S257.size a ≤ S257.size a
  hwx1_5 : ∀ i : grid1.Coords, EltTy.bits .f32 = 32 ∨ (Rect.block (s := S257) S257.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S512x257.size a ≤ S8192x257.size a
  hwx1_6 : ∀ i : grid1.Coords, EltTy.bits .f32 = 32 ∨ (Rect.block (s := S8192x257) S512x257.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x256.size a ≤ S4096x256.size a
  hwx2_0 : ∀ i : grid2.Coords, EltTy.bits .f32 = 32 ∨ (Rect.block (s := S4096x256) S1024x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x256.size a ≤ S8192x256.size a
  hwx2_1 : ∀ i : grid2.Coords, EltTy.bits .f32 = 32 ∨ (Rect.block (s := S8192x256) S1024x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024.size a ≤ S8192.size a
  hwx2_2 : ∀ i : grid2.Coords, EltTy.bits .f32 = 32 ∨ (Rect.block (s := S8192) S1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S4096x8192.size a
  hwx2_3 : ∀ i : grid2.Coords, EltTy.bits .f32 = 32 ∨ (Rect.block (s := S4096x8192) S1024x1024.size (cc2_transform_3 i) (hinb2_3 i)).WholeWords (EltTy.packing .f32)

variable [Facts₀]

def dot_S1024x1024_S1024x257_S1024x257_0_0_1_1_n_n : DotDims S1024x1024 S1024x257 S1024x257 where
  lhsContracting := [0]
  rhsContracting := [0]
  lhsNonContracting := [1]
  rhsNonContracting := [1]
  lhsBatch := []
  rhsBatch := []
  wf := dot_S1024x1024_S1024x257_S1024x257_0_0_1_1_n_n_wf
def gather_S8192x256_S512x1_S512x256_1_0_n_n_0_1_1256 : GatherDims S8192x256 S512x1 S512x256 where
  offsetDims := [1]
  collapsedSliceDims := [0]
  operandBatchingDims := []
  startIndicesBatchingDims := []
  startIndexMap := [0]
  indexVectorDim := 1
  sliceSizes := ![1, 256]
  wf := gather_S8192x256_S512x1_S512x256_1_0_n_n_0_1_1256_wf
def dot_S512x256_S512x256_S512x512_1_1_0_0_n_n : DotDims S512x256 S512x256 S512x512 where
  lhsContracting := [1]
  rhsContracting := [1]
  lhsNonContracting := [0]
  rhsNonContracting := [0]
  lhsBatch := []
  rhsBatch := []
  wf := dot_S512x256_S512x256_S512x512_1_1_0_0_n_n_wf
def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf
def dot_S512x512_S257x512_S512x257_1_1_0_0_n_n : DotDims S512x512 S257x512 S512x257 where
  lhsContracting := [1]
  rhsContracting := [1]
  lhsNonContracting := [0]
  rhsNonContracting := [0]
  lhsBatch := []
  rhsBatch := []
  wf := dot_S512x512_S257x512_S512x257_1_1_0_0_n_n_wf
def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf

abbrev win0_0 : Pipeline.Window sig grid0 :=
  Pipeline.Window.ofSpec (Memref.whole main_arg1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x257.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x257.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v21) S512x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S512x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S512x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S257x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S257.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v23) S512x257.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_arg0) S1024x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v24) S1024x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v26) S1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v27) S1024x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S4096x256 : Shape := ⟨2, ![4096, 256]⟩
abbrev S4096x8192 : Shape := ⟨2, ![4096, 8192]⟩
abbrev S8192x256 : Shape := ⟨2, ![8192, 256]⟩
abbrev S8192 : Shape := ⟨1, ![8192]⟩
abbrev S512 : Shape := ⟨1, ![512]⟩
abbrev S512x256 : Shape := ⟨2, ![512, 256]⟩
abbrev S257x512 : Shape := ⟨2, ![257, 512]⟩
abbrev S257 : Shape := ⟨1, ![257]⟩
abbrev S_ : Shape := ⟨0, ![]⟩
abbrev S8192x4096 : Shape := ⟨2, ![8192, 4096]⟩
abbrev S8192x1 : Shape := ⟨2, ![8192, 1]⟩
abbrev S512x1 : Shape := ⟨2, ![512, 1]⟩
abbrev S256x512 : Shape := ⟨2, ![256, 512]⟩
abbrev S8192x512 : Shape := ⟨2, ![8192, 512]⟩
abbrev S1x512 : Shape := ⟨2, ![1, 512]⟩
abbrev S512x257 : Shape := ⟨2, ![512, 257]⟩
abbrev S8192x257 : Shape := ⟨2, ![8192, 257]⟩
abbrev S1x257 : Shape := ⟨2, ![1, 257]⟩
abbrev S256x8192 : Shape := ⟨2, ![256, 8192]⟩
abbrev S1x8192 : Shape := ⟨2, ![1, 8192]⟩

abbrev nBuf : Space → Nat
  | .hbm => 91
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x8192, .f32⟩
  | .hbm, ⟨2, _⟩ => ⟨S8192x256, .f32⟩
  | .hbm, ⟨3, _⟩ => ⟨S8192, .i1⟩
  | .hbm, ⟨4, _⟩ => ⟨S512, .i32⟩
  | .hbm, ⟨5, _⟩ => ⟨S512x256, .f32⟩
  | .hbm, ⟨6, _⟩ => ⟨S512, .f32⟩
  | .hbm, ⟨7, _⟩ => ⟨S257x512, .f32⟩
  | .hbm, ⟨8, _⟩ => ⟨S257, .f32⟩
  | .hbm, ⟨9, _⟩ => ⟨S_, .f32⟩
  | .hbm, ⟨10, _⟩ => ⟨S4096x8192, .f32⟩
  | .hbm, ⟨11, _⟩ => ⟨S4096x8192, .i1⟩
  | .hbm, ⟨12, _⟩ => ⟨S4096x8192, .f32⟩
  | .hbm, ⟨13, _⟩ => ⟨S_, .f32⟩
  | .hbm, ⟨14, _⟩ => ⟨S8192, .f32⟩
  | .hbm, ⟨15, _⟩ => ⟨S8192x4096, .f32⟩
  | .hbm, ⟨16, _⟩ => ⟨S8192x256, .f32⟩
  | .hbm, ⟨17, _⟩ => ⟨S_, .f32⟩
  | .hbm, ⟨18, _⟩ => ⟨S8192, .f32⟩
  | .hbm, ⟨19, _⟩ => ⟨S8192, .f32⟩
  | .hbm, ⟨20, _⟩ => ⟨S8192x1, .f32⟩
  | .hbm, ⟨21, _⟩ => ⟨S8192x256, .f32⟩
  | .hbm, ⟨22, _⟩ => ⟨S8192x256, .f32⟩
  | .hbm, ⟨23, _⟩ => ⟨S_, .f32⟩
  | .hbm, ⟨24, _⟩ => ⟨S8192, .f32⟩
  | .hbm, ⟨25, _⟩ => ⟨S8192, .i1⟩
  | .hbm, ⟨26, _⟩ => ⟨S8192x1, .i1⟩
  | .hbm, ⟨27, _⟩ => ⟨S8192x1, .i1⟩
  | .hbm, ⟨28, _⟩ => ⟨S_, .f32⟩
  | .hbm, ⟨29, _⟩ => ⟨S8192x256, .f32⟩
  | .hbm, ⟨30, _⟩ => ⟨S8192x256, .f32⟩
  | .hbm, ⟨31, _⟩ => ⟨S_, .f32⟩
  | .hbm, ⟨32, _⟩ => ⟨S8192x256, .f32⟩
  | .hbm, ⟨33, _⟩ => ⟨S8192x256, .f32⟩
  | .hbm, ⟨34, _⟩ => ⟨S8192x256, .f32⟩
  | .hbm, ⟨35, _⟩ => ⟨S8192x256, .i1⟩
  | .hbm, ⟨36, _⟩ => ⟨S8192x256, .f32⟩
  | .hbm, ⟨37, _⟩ => ⟨S8192x256, .i1⟩
  | .hbm, ⟨38, _⟩ => ⟨S8192x256, .f32⟩
  | .hbm, ⟨39, _⟩ => ⟨S_, .i32⟩
  | .hbm, ⟨40, _⟩ => ⟨S512, .i32⟩
  | .hbm, ⟨41, _⟩ => ⟨S512, .i1⟩
  | .hbm, ⟨42, _⟩ => ⟨S_, .i32⟩
  | .hbm, ⟨43, _⟩ => ⟨S512, .i32⟩
  | .hbm, ⟨44, _⟩ => ⟨S512, .i32⟩
  | .hbm, ⟨45, _⟩ => ⟨S512, .i32⟩
  | .hbm, ⟨46, _⟩ => ⟨S512x1, .i32⟩
  | .hbm, ⟨47, _⟩ => ⟨S512x256, .f32⟩
  | .hbm, ⟨48, _⟩ => ⟨S256x512, .f32⟩
  | .hbm, ⟨49, _⟩ => ⟨S8192x512, .f32⟩
  | .hbm, ⟨50, _⟩ => ⟨S_, .f32⟩
  | .hbm, ⟨51, _⟩ => ⟨S_, .f32⟩
  | .hbm, ⟨52, _⟩ => ⟨S8192x512, .f32⟩
  | .hbm, ⟨53, _⟩ => ⟨S8192x512, .f32⟩
  | .hbm, ⟨54, _⟩ => ⟨S_, .f32⟩
  | .hbm, ⟨55, _⟩ => ⟨S8192, .f32⟩
  | .hbm, ⟨56, _⟩ => ⟨S_, .f32⟩
  | .hbm, ⟨57, _⟩ => ⟨S8192, .f32⟩
  | .hbm, ⟨58, _⟩ => ⟨S8192, .f32⟩
  | .hbm, ⟨59, _⟩ => ⟨S8192x1, .f32⟩
  | .hbm, ⟨60, _⟩ => ⟨S8192x512, .f32⟩
  | .hbm, ⟨61, _⟩ => ⟨S8192x512, .f32⟩
  | .hbm, ⟨62, _⟩ => ⟨S8192x512, .f32⟩
  | .hbm, ⟨63, _⟩ => ⟨S_, .f32⟩
  | .hbm, ⟨64, _⟩ => ⟨S8192, .f32⟩
  | .hbm, ⟨65, _⟩ => ⟨S8192x1, .f32⟩
  | .hbm, ⟨66, _⟩ => ⟨S8192x512, .f32⟩
  | .hbm, ⟨67, _⟩ => ⟨S8192x512, .f32⟩
  | .hbm, ⟨68, _⟩ => ⟨S8192x256, .f32⟩
  | .hbm, ⟨69, _⟩ => ⟨S8192x256, .f32⟩
  | .hbm, ⟨70, _⟩ => ⟨S256x512, .f32⟩
  | .hbm, ⟨71, _⟩ => ⟨S8192x512, .f32⟩
  | .hbm, ⟨72, _⟩ => ⟨S1x512, .f32⟩
  | .hbm, ⟨73, _⟩ => ⟨S8192x512, .f32⟩
  | .hbm, ⟨74, _⟩ => ⟨S8192x512, .f32⟩
  | .hbm, ⟨75, _⟩ => ⟨S_, .f32⟩
  | .hbm, ⟨76, _⟩ => ⟨S8192x512, .f32⟩
  | .hbm, ⟨77, _⟩ => ⟨S8192x512, .f32⟩
  | .hbm, ⟨78, _⟩ => ⟨S512x257, .f32⟩
  | .hbm, ⟨79, _⟩ => ⟨S8192x257, .f32⟩
  | .hbm, ⟨80, _⟩ => ⟨S1x257, .f32⟩
  | .hbm, ⟨81, _⟩ => ⟨S8192x257, .f32⟩
  | .hbm, ⟨82, _⟩ => ⟨S8192x257, .f32⟩
  | .hbm, ⟨83, _⟩ => ⟨S8192x256, .f32⟩
  | .hbm, ⟨84, _⟩ => ⟨S8192x1, .f32⟩
  | .hbm, ⟨85, _⟩ => ⟨S8192, .f32⟩
  | .hbm, ⟨86, _⟩ => ⟨S256x8192, .f32⟩
  | .hbm, ⟨87, _⟩ => ⟨S4096x8192, .f32⟩
  | .hbm, ⟨88, _⟩ => ⟨S1x8192, .f32⟩
  | .hbm, ⟨89, _⟩ => ⟨S4096x8192, .f32⟩
  | .hbm, ⟨90, _⟩ => ⟨S4096x8192, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_3 : Ref sig .tc := ⟨.hbm, 28, rfl⟩
abbrev main_v15 : Ref sig .tc := ⟨.hbm, 29, rfl⟩
abbrev main_v16 : Ref sig .tc := ⟨.hbm, 30, rfl⟩
abbrev main_cst_4 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_call0_v0 : Ref sig .tc := ⟨.hbm, 35, rfl⟩
abbrev main_v20 : Ref sig .tc := ⟨.hbm, 36, rfl⟩
abbrev main_call1_v0 : Ref sig .tc := ⟨.hbm, 37, rfl⟩
abbrev main_v21 : Ref sig .tc := ⟨.hbm, 38, rfl⟩
abbrev main_c : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_6 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_7 : Ref sig .tc := ⟨.hbm, 54, rfl⟩
abbrev main_v34 : Ref sig .tc := ⟨.hbm, 55, rfl⟩
abbrev main_cst_8 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_9 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_call2_cst : Ref sig .tc := ⟨.hbm, 75, rfl⟩
abbrev main_call2_v0 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩

abbrev nD : Nat := 1
abbrev τ : Topo := Topo.v7x

variable {F : FTy → Type} [FloatOps F]

class Facts₀ : Prop where
  bcast_S_S4096x8192 : S_.BroadcastsInDim S4096x8192 (![] : Fin 0 → Fin S4096x8192.rank)
  reducesTo_S4096x8192_S8192_d0 : S4096x8192.ReducesTo [0] S8192
  h_S_ : 0 < S_.numel
  transposes_S4096x8192_S8192x4096_1_0 : S4096x8192.Transposes [1, 0] S8192x4096
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x256_0_1 : S8192x1.BroadcastsInDim S8192x256 (![0, 1] : Fin 2 → Fin S8192x256.rank)
  bcast_S_S8192x256 : S_.BroadcastsInDim S8192x256 (![] : Fin 0 → Fin S8192x256.rank)
  bcast_S_S512 : S_.BroadcastsInDim S512 (![] : Fin 0 → Fin S512.rank)
  bcast_S512_S512x1_0 : S512.BroadcastsInDim S512x1 (![0] : Fin 1 → Fin S512x1.rank)
  transposes_S512x256_S256x512_1_0 : S512x256.Transposes [1, 0] S256x512
  bcast_S_S8192x512 : S_.BroadcastsInDim S8192x512 (![] : Fin 0 → Fin S8192x512.rank)
  reducesTo_S8192x512_S8192_d1 : S8192x512.ReducesTo [1] S8192
  bcast_S8192x1_S8192x512_0_1 : S8192x1.BroadcastsInDim S8192x512 (![0, 1] : Fin 2 → Fin S8192x512.rank)
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  transposes_S257x512_S512x257_1_0 : S257x512.Transposes [1, 0] S512x257
  bcast_S257_S1x257_1 : S257.BroadcastsInDim S1x257 (![1] : Fin 1 → Fin S1x257.rank)
  bcast_S1x257_S8192x257_0_1 : S1x257.BroadcastsInDim S8192x257 (![0, 1] : Fin 2 → Fin S8192x257.rank)
  slices_S8192x257_S8192x256_0_0 : S8192x257.Slices ![0, 0] S8192x256
  slices_S8192x257_S8192x1_0_256 : S8192x257.Slices ![0, 256] S8192x1
  shapeCasts_S8192x1_S8192 : S8192x1.ShapeCasts S8192
  transposes_S8192x256_S256x8192_1_0 : S8192x256.Transposes [1, 0] S256x8192
  bcast_S8192_S1x8192_1 : S8192.BroadcastsInDim S1x8192 (![1] : Fin 1 → Fin S1x8192.rank)
  bcast_S1x8192_S4096x8192_0_1 : S1x8192.BroadcastsInDim S4096x8192 (![0, 1] : Fin 2 → Fin S4096x8192.rank)
  dot_S8192x4096_S4096x256_S8192x256_1_0_0_1_n_n_wf : DotDims.WF S8192x4096 S4096x256 S8192x256 [1] [0] [0] [1] [] []
  gather_S8192x256_S512x1_S512x256_1_0_n_n_0_1_1256_wf : GatherDims.WF S8192x256 S512x1 S512x256 [1] [0] [] [0] [] 1 ![1, 256]
  dot_S8192x256_S256x512_S8192x512_1_0_0_1_n_n_wf : DotDims.WF S8192x256 S256x512 S8192x512 [1] [0] [0] [1] [] []
  dot_S8192x512_S512x256_S8192x256_1_0_0_1_n_n_wf : DotDims.WF S8192x512 S512x256 S8192x256 [1] [0] [0] [1] [] []
  dot_S8192x512_S512x257_S8192x257_1_0_0_1_n_n_wf : DotDims.WF S8192x512 S512x257 S8192x257 [1] [0] [0] [1] [] []
  dot_S4096x256_S256x8192_S4096x8192_1_0_0_1_n_n_wf : DotDims.WF S4096x256 S256x8192 S4096x8192 [1] [0] [0] [1] [] []

variable [Facts₀]

def dot_S8192x4096_S4096x256_S8192x256_1_0_0_1_n_n : DotDims S8192x4096 S4096x256 S8192x256 where
  lhsContracting := [1]
  rhsContracting := [0]
  lhsNonContracting := [0]
  rhsNonContracting := [1]
  lhsBatch := []
  rhsBatch := []
  wf := dot_S8192x4096_S4096x256_S8192x256_1_0_0_1_n_n_wf
def gather_S8192x256_S512x1_S512x256_1_0_n_n_0_1_1256 : GatherDims S8192x256 S512x1 S512x256 where
  offsetDims := [1]
  collapsedSliceDims := [0]
  operandBatchingDims := []
  startIndicesBatchingDims := []
  startIndexMap := [0]
  indexVectorDim := 1
  sliceSizes := ![1, 256]
  wf := gather_S8192x256_S512x1_S512x256_1_0_n_n_0_1_1256_wf
def dot_S8192x256_S256x512_S8192x512_1_0_0_1_n_n : DotDims S8192x256 S256x512 S8192x512 where
  lhsContracting := [1]
  rhsContracting := [0]
  lhsNonContracting := [0]
  rhsNonContracting := [1]
  lhsBatch := []
  rhsBatch := []
  wf := dot_S8192x256_S256x512_S8192x512_1_0_0_1_n_n_wf
def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def dot_S8192x512_S512x257_S8192x257_1_0_0_1_n_n : DotDims S8192x512 S512x257 S8192x257 where
  lhsContracting := [1]
  rhsContracting := [0]
  lhsNonContracting := [0]
  rhsNonContracting := [1]
  lhsBatch := []
  rhsBatch := []
  wf := dot_S8192x512_S512x257_S8192x257_1_0_0_1_n_n_wf
def dot_S4096x256_S256x8192_S4096x8192_1_0_0_1_n_n : DotDims S4096x256 S256x8192 S4096x8192 where
  lhsContracting := [1]
  rhsContracting := [0]
  lhsNonContracting := [0]
  rhsNonContracting := [1]
  lhsBatch := []
  rhsBatch := []
  wf := dot_S4096x256_S256x8192_S4096x8192_1_0_0_1_n_n_wf

class Facts : Prop extends Facts₀ where

variable [Facts]
-- ==== Proof.WdR0Runs.lean ====
/- Region 0 of the program (the first kernel launch): the segment sum.  The grid is 8 × 4; the second coordinate is the
   reduction axis.  At a grid point (ci, bi) the body reads a 1024 × 1024 block of labels and a 1024 × 257 block of
   augmented rows, and keeps a 1024 × 257 accumulator in a scratch buffer of its own that lives from one grid point to
   the next: at bi = 0 the accumulator is first reset to zero; at every point the product of the thresholded label block
   (contracted along its first axis) with the row block is added to it; and at every point the accumulator is copied
   into the output tile.  This module holds what the two control cases of the body share and the body's Hoare triple in
   each case: the branch condition in closed form, the staging and scratch memrefs, the region invariant with the
   scratch split off, and, per case, the pieces the body's stores leave in the output tile and in the scratch. -/
import proofs.«418715_j4389456576871_1_alg».proof.Proof.Gen.Kernel.Launch
import proofs.«418715_j4389456576871_1_alg».proof.Proof.Gen.Kernel.Skeleton
import proofs.«418715_j4389456576871_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window `w`'s block at grid point `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds that window's block at every grid point, whether the pipeline
    fetched it at this point or kept it from an earlier one (the block index did not move). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end Region0

/-! ## The body's branch condition -/

/-- The condition of the body's one conditional, from the grid coordinates: the reduction coordinate is zero. -/
abbrev cond0_0 (i : grid0.Coords) : Prop := (Scalar.cmpi .ne (Scalar.extui (Scalar.cmpi .eq (BitVec.ofNat 32 (i 1).val) 0#32)) 0#32) = 1#1
/-- It holds at the points ≡ 0 (mod 4): decided over the grid. -/
theorem hcond0_0 : ∀ t : Fin cfg0.N, cond0_0 (grid0.coords t) ↔ t.val % 4 = 0 :=
  (by decide +kernel : ∀ t : Fin grid0.N, cond0_0 (grid0.coords t) ↔ t.val % 4 = 0)

/-! ## The memrefs the body is called with -/

/-- One staging buffer of output window 2, through which its contents are stated (the choice does not matter). -/
abbrev VO0_2 : View sig .tc .vmem S1024x257 .f32 := (Memref.whole cc0_stg2_0 : Memref sig .tc .vmem S1024x257 .f32).view
/-- Each window's current staging memref at point `t`, spelled as the pipeline passes it, and its wholeness. -/
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x257 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x257 .f32 := win0_2.stage (cfg0.slots t 2)
abbrev hs0_2 (t : Fin cfg0.N) : (ms0_2 t).IsWhole := hstage0_2 ((cfg0.slots t 2).cast nbuf0_2)
/-- The scratch operand: a whole scoped buffer of the kernel's own, passed beside the windows. -/
abbrev scM0_0 : Memref sig .tc .vmem S1024x257 .f32 := Memref.whole cc0_scratch0
/-- The scratch the kernel carries between points, as a view: what it holds is stated through it. -/
abbrev VS0_0 : View sig .tc .vmem S1024x257 .f32 := scM0_0.view

/-! ## The region invariant with the scratch split off -/

/-- The region's invariant is the scratch at some contents, the core's other scoped buffers (the staging buffers of
    the other two launches) at some contents, and the generator register at some state. -/
theorem PhiA0_split (c : Dev nD) : ∃ R : sProp 𝕄,
    (Pipeline.ΦA spec0 c : sProp 𝕄)
      = iprop(iprop((∃ d, owns (c : Thread nD τ) scM0_0 fullShare d) ∗ R) ∗ (∃ r, prngReg c r)) := by
  unfold Pipeline.ΦA; rw [scopedRest0_eq]; simp only [scM0_0, owns_whole]; exact ⟨_, rfl⟩

/-- The core's scoped buffers other than the scratch, each at some contents: untouched by this region. -/
def rest0 (c : Dev nD) : sProp 𝕄 := Classical.choose (PhiA0_split (F := F) c)

theorem PhiA0_eq (c : Dev nD) :
    (Pipeline.ΦA spec0 c : sProp 𝕄)
      = iprop(iprop((∃ d, owns (c : Thread nD τ) scM0_0 fullShare d) ∗ rest0 (F := F) c) ∗ (∃ r, prngReg c r)) :=
  Classical.choose_spec (PhiA0_split (F := F) c)

/-! ## The body on any whole memrefs, case by case -/

set_option maxHeartbeats 1000000 in
/-- What the body's stores leave in the output tile's memref and in the scratch, as pieces (last first), AT A POINT WHERE
    THE REDUCTION COORDINATE IS ZERO, with the proof that on whole memrefs — the two inputs' at their contents, the output's
    and the scratch at anything — the body runs to the continuation holding the inputs' as they were and the output's and
    the scratch with those pieces written.  The pieces are found by running the body. -/
noncomputable def kernelRun0_A (c : Dev nD) (i : grid0.Coords) (arg2 : Memref sig .tc .vmem S1024x1024 .f32) (harg2 : arg2.IsWhole) (arg3 : Memref sig .tc .vmem S1024x257 .f32) (harg3 : arg3.IsWhole) (arg4 : Memref sig .tc .vmem S1024x257 .f32) (harg4 : arg4.IsWhole) (arg5 : Memref sig .tc .vmem S1024x257 .f32) (harg5 : arg5.IsWhole) (hc0 : cond0_0 i)
    (x0 : Vec F S1024x1024 .f32) (x1 : Vec F S1024x257 .f32) :
    Σ' (L2 : List (View.Piece (Elt F) S1024x257 .f32)), { LS0 : List (View.Piece (Elt F) S1024x257 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__segment_sum_kernel i arg2 harg2 arg3 harg3 arg4 harg4 arg5 harg5) K } := by
  refine ⟨?_, ?_, fun E K => ?run⟩
  case run =>
    simp only [cc0__segment_sum_kernel_eq_skeleton]; unfold cc0__segment_sum_kernel_skel
    unfold owns
    iintro ⟨⟨%f0, %hf0, H0⟩, ⟨%f1, %hf1, H1⟩, ⟨%d2, %f2, -, H2⟩, ⟨%ds0, %fs0, -, HS0⟩, Hk⟩
    obtain rfl := harg2.eq_unread hf0; obtain rfl := harg3.eq_unread hf1
    sl_exec (disch := exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

set_option maxHeartbeats 1000000 in
/-- The same AT A POINT WHERE THE REDUCTION COORDINATE IS NOT ZERO: the scratch is taken at the contents `xs0` the point
    before left in it, and the body adds onto them. -/
noncomputable def kernelRun0_B (c : Dev nD) (i : grid0.Coords) (arg2 : Memref sig .tc .vmem S1024x1024 .f32) (harg2 : arg2.IsWhole) (arg3 : Memref sig .tc .vmem S1024x257 .f32) (harg3 : arg3.IsWhole) (arg4 : Memref sig .tc .vmem S1024x257 .f32) (harg4 : arg4.IsWhole) (arg5 : Memref sig .tc .vmem S1024x257 .f32) (harg5 : arg5.IsWhole) (hc0 : ¬cond0_0 i)
    (x0 : Vec F S1024x1024 .f32) (x1 : Vec F S1024x257 .f32) (xs0 : Vec F S1024x257 .f32) :
    Σ' (L2 : List (View.Piece (Elt F) S1024x257 .f32)), { LS0 : List (View.Piece (Elt F) S1024x257 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__segment_sum_kernel i arg2 harg2 arg3 harg3 arg4 harg4 arg5 harg5) K } := by
  refine ⟨?_, ?_, fun E K => ?run⟩
  case run =>
    simp only [cc0__segment_sum_kernel_eq_skeleton]; unfold cc0__segment_sum_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.WdR0Frame.lean ====
/- Region 0 of the program (the first kernel launch), the segment sum: what the output tile and the scratch
   accumulator hold after each grid point, and the pipeline's proof data built on it.  In both control cases of the
   body (the reduction coordinate zero: reset, then accumulate; nonzero: accumulate onto what the point before left in
   the scratch) the body's stores cover the output tile and the scratch, so what each holds afterwards is its pieces
   read back.  `outsAt0` follows the two through the grid; the region invariant carries the scratch at `outsAt0`'s
   second component from one point to the next; the body obligation is the case's triple at every point.  Stated at
   any float instance and at ANY contents `V` of the core's buffers when the region is entered. -/
import proofs.«418715_j4389456576871_1_alg».proof.Proof.WdR0Runs
import proofs.«418715_j4389456576871_1_alg».proof.Proof.Gen.Kernel.Launch
import proofs.«418715_j4389456576871_1_alg».proof.Proof.Gen.Kernel.Skeleton
import proofs.«418715_j4389456576871_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves in the output tile and in the scratch -/

/-- The pieces the reset case stores into the output tile cover it. -/
theorem cover0_A_2 (c : Dev nD) (i : grid0.Coords) (arg2 : Memref sig .tc .vmem S1024x1024 .f32) (harg2 : arg2.IsWhole) (arg3 : Memref sig .tc .vmem S1024x257 .f32) (harg3 : arg3.IsWhole) (arg4 : Memref sig .tc .vmem S1024x257 .f32) (harg4 : arg4.IsWhole) (arg5 : Memref sig .tc .vmem S1024x257 .f32) (harg5 : arg5.IsWhole) (hc0 : cond0_0 i)
    (x0 : Vec F S1024x1024 .f32) (x1 : Vec F S1024x257 .f32) (y : S1024x257.Idx) :
    ∃ pc ∈ (kernelRun0_A c i arg2 harg2 arg3 harg3 arg4 harg4 arg5 harg5 hc0 x0 x1).1, y ∈ pc.1.set :=
  View.cover_of_tiledL (kernelRun0_A c i arg2 harg2 arg3 harg3 arg4 harg4 arg5 harg5 hc0 x0 x1).1 S1024x257.size (by sl_kernel_rfl) y

/-- What the reset case leaves in the output tile: its pieces read back (over contents that do not show). -/
def out0_A_2 (c : Dev nD) (i : grid0.Coords) (arg2 : Memref sig .tc .vmem S1024x1024 .f32) (harg2 : arg2.IsWhole) (arg3 : Memref sig .tc .vmem S1024x257 .f32) (harg3 : arg3.IsWhole) (arg4 : Memref sig .tc .vmem S1024x257 .f32) (harg4 : arg4.IsWhole) (arg5 : Memref sig .tc .vmem S1024x257 .f32) (harg5 : arg5.IsWhole) (hc0 : cond0_0 i)
    (x0 : Vec F S1024x1024 .f32) (x1 : Vec F S1024x257 .f32) : Vec F S1024x257 .f32 :=
  VO0_2.read (Elt F) (VO0_2.writes (Elt F) VO0_2.junk (kernelRun0_A c i arg2 harg2 arg3 harg3 arg4 harg4 arg5 harg5 hc0 x0 x1).1)

/-- The pieces the reset case stores into the scratch cover it. -/
theorem scover0_A_0 (c : Dev nD) (i : grid0.Coords) (arg2 : Memref sig .tc .vmem S1024x1024 .f32) (harg2 : arg2.IsWhole) (arg3 : Memref sig .tc .vmem S1024x257 .f32) (harg3 : arg3.IsWhole) (arg4 : Memref sig .tc .vmem S1024x257 .f32) (harg4 : arg4.IsWhole) (arg5 : Memref sig .tc .vmem S1024x257 .f32) (harg5 : arg5.IsWhole) (hc0 : cond0_0 i)
    (x0 : Vec F S1024x1024 .f32) (x1 : Vec F S1024x257 .f32) (y : S1024x257.Idx) :
    ∃ pc ∈ (kernelRun0_A c i arg2 harg2 arg3 harg3 arg4 harg4 arg5 harg5 hc0 x0 x1).2.1, y ∈ pc.1.set :=
  View.cover_of_tiledL (kernelRun0_A c i arg2 harg2 arg3 harg3 arg4 harg4 arg5 harg5 hc0 x0 x1).2.1 S1024x257.size (by sl_kernel_rfl) y

/-- What the reset case leaves in the scratch: its pieces read back. -/
def sout0_A_0 (c : Dev nD) (i : grid0.Coords) (arg2 : Memref sig .tc .vmem S1024x1024 .f32) (harg2 : arg2.IsWhole) (arg3 : Memref sig .tc .vmem S1024x257 .f32) (harg3 : arg3.IsWhole) (arg4 : Memref sig .tc .vmem S1024x257 .f32) (harg4 : arg4.IsWhole) (arg5 : Memref sig .tc .vmem S1024x257 .f32) (harg5 : arg5.IsWhole) (hc0 : cond0_0 i)
    (x0 : Vec F S1024x1024 .f32) (x1 : Vec F S1024x257 .f32) : Vec F S1024x257 .f32 :=
  VS0_0.read (Elt F) (VS0_0.writes (Elt F) VS0_0.junk (kernelRun0_A c i arg2 harg2 arg3 harg3 arg4 harg4 arg5 harg5 hc0 x0 x1).2.1)

/-- The pieces the accumulating case stores into the output tile cover it. -/
theorem cover0_B_2 (c : Dev nD) (i : grid0.Coords) (arg2 : Memref sig .tc .vmem S1024x1024 .f32) (harg2 : arg2.IsWhole) (arg3 : Memref sig .tc .vmem S1024x257 .f32) (harg3 : arg3.IsWhole) (arg4 : Memref sig .tc .vmem S1024x257 .f32) (harg4 : arg4.IsWhole) (arg5 : Memref sig .tc .vmem S1024x257 .f32) (harg5 : arg5.IsWhole) (hc0 : ¬cond0_0 i)
    (x0 : Vec F S1024x1024 .f32) (x1 : Vec F S1024x257 .f32) (xs0 : Vec F S1024x257 .f32) (y : S1024x257.Idx) :
    ∃ pc ∈ (kernelRun0_B c i arg2 harg2 arg3 harg3 arg4 harg4 arg5 harg5 hc0 x0 x1 xs0).1, y ∈ pc.1.set :=
  View.cover_of_tiledL (kernelRun0_B c i arg2 harg2 arg3 harg3 arg4 harg4 arg5 harg5 hc0 x0 x1 xs0).1 S1024x257.size (by sl_kernel_rfl) y

/-- What the accumulating case leaves in the output tile. -/
def out0_B_2 (c : Dev nD) (i : grid0.Coords) (arg2 : Memref sig .tc .vmem S1024x1024 .f32) (harg2 : arg2.IsWhole) (arg3 : Memref sig .tc .vmem S1024x257 .f32) (harg3 : arg3.IsWhole) (arg4 : Memref sig .tc .vmem S1024x257 .f32) (harg4 : arg4.IsWhole) (arg5 : Memref sig .tc .vmem S1024x257 .f32) (harg5 : arg5.IsWhole) (hc0 : ¬cond0_0 i)
    (x0 : Vec F S1024x1024 .f32) (x1 : Vec F S1024x257 .f32) (xs0 : Vec F S1024x257 .f32) : Vec F S1024x257 .f32 :=
  VO0_2.read (Elt F) (VO0_2.writes (Elt F) VO0_2.junk (kernelRun0_B c i arg2 harg2 arg3 harg3 arg4 harg4 arg5 harg5 hc0 x0 x1 xs0).1)

/-- The pieces the accumulating case stores into the scratch cover it. -/
theorem scover0_B_0 (c : Dev nD) (i : grid0.Coords) (arg2 : Memref sig .tc .vmem S1024x1024 .f32) (harg2 : arg2.IsWhole) (arg3 : Memref sig .tc .vmem S1024x257 .f32) (harg3 : arg3.IsWhole) (arg4 : Memref sig .tc .vmem S1024x257 .f32) (harg4 : arg4.IsWhole) (arg5 : Memref sig .tc .vmem S1024x257 .f32) (harg5 : arg5.IsWhole) (hc0 : ¬cond0_0 i)
    (x0 : Vec F S1024x1024 .f32) (x1 : Vec F S1024x257 .f32) (xs0 : Vec F S1024x257 .f32) (y : S1024x257.Idx) :
    ∃ pc ∈ (kernelRun0_B c i arg2 harg2 arg3 harg3 arg4 harg4 arg5 harg5 hc0 x0 x1 xs0).2.1, y ∈ pc.1.set :=
  View.cover_of_tiledL (kernelRun0_B c i arg2 harg2 arg3 harg3 arg4 harg4 arg5 harg5 hc0 x0 x1 xs0).2.1 S1024x257.size (by sl_kernel_rfl) y

/-- What the accumulating case leaves in the scratch. -/
def sout0_B_0 (c : Dev nD) (i : grid0.Coords) (arg2 : Memref sig .tc .vmem S1024x1024 .f32) (harg2 : arg2.IsWhole) (arg3 : Memref sig .tc .vmem S1024x257 .f32) (harg3 : arg3.IsWhole) (arg4 : Memref sig .tc .vmem S1024x257 .f32) (harg4 : arg4.IsWhole) (arg5 : Memref sig .tc .vmem S1024x257 .f32) (harg5 : arg5.IsWhole) (hc0 : ¬cond0_0 i)
    (x0 : Vec F S1024x1024 .f32) (x1 : Vec F S1024x257 .f32) (xs0 : Vec F S1024x257 .f32) : Vec F S1024x257 .f32 :=
  VS0_0.read (Elt F) (VS0_0.writes (Elt F) VS0_0.junk (kernelRun0_B c i arg2 harg2 arg3 harg3 arg4 harg4 arg5 harg5 hc0 x0 x1 xs0).2.1)

section Region0

variable (V : (c : Dev nD) → (b : Ref sig .tc) → Buf (Elt F) ((c : Thread nD τ).loc b))

/-! ## What the output tile and the scratch hold after each point -/

/-- THE ACCUMULATION.  What output window 2's staging buffer and the scratch hold after the body at position `n` (a pair,
    the output first): the case the point is in, run at the point's memrefs and input blocks — at a point whose reduction
    coordinate is not zero over what this leaves in the scratch at `n - 1`. -/
def outsAt0 (c : Dev nD) : (n : ℕ) → n < cfg0.N → Vec F S1024x257 .f32 × Vec F S1024x257 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (iblk0 V c 0 ⟨0, hn⟩) (iblk0 V c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (iblk0 V c 0 ⟨0, hn⟩) (iblk0 V c 1 ⟨0, hn⟩))
  | n + 1, hn =>
    if h0 : (n + 1) % 4 = 0 then
      (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (iblk0 V c 0 ⟨n + 1, hn⟩) (iblk0 V c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (iblk0 V c 0 ⟨n + 1, hn⟩) (iblk0 V c 1 ⟨n + 1, hn⟩))
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (iblk0 V c 0 ⟨n + 1, hn⟩) (iblk0 V c 1 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (iblk0 V c 0 ⟨n + 1, hn⟩) (iblk0 V c 1 ⟨n + 1, hn⟩) (outsAt0 c n (Nat.lt_of_succ_lt hn)).2)

/-- `outsAt0` at a point whose reduction coordinate is zero: the reset case's contents. -/
theorem outsAt0_A (c : Dev nD) (t : Fin cfg0.N) (h0 : t.val % 4 = 0) :
    outsAt0 V c t.val t.isLt = (out0_A_2 c (grid0.coords t) (ms0_0 t) (hs0_0 t) (ms0_1 t) (hs0_1 t) (ms0_2 t) (hs0_2 t) scM0_0 (Memref.isWhole_whole _) ((hcond0_0 t).mpr h0) (iblk0 V c 0 t) (iblk0 V c 1 t), sout0_A_0 c (grid0.coords t) (ms0_0 t) (hs0_0 t) (ms0_1 t) (hs0_1 t) (ms0_2 t) (hs0_2 t) scM0_0 (Memref.isWhole_whole _) ((hcond0_0 t).mpr h0) (iblk0 V c 0 t) (iblk0 V c 1 t)) := by
  obtain ⟨n, hn⟩ := t
  cases n with
  | zero => exact rfl
  | succ n => exact (dif_pos h0).trans rfl

/-- `outsAt0` at a point whose reduction coordinate is not zero: the accumulating case's contents, over what the point
    before left in the scratch. -/
theorem outsAt0_B (c : Dev nD) (t : Fin cfg0.N) (h0 : ¬t.val % 4 = 0) :
    outsAt0 V c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (iblk0 V c 0 t) (iblk0 V c 1 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) (fun h => h0 ((hcond0_0 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The region invariant -/

/-- The region invariant before position `n`: before the first point what the launch hands the region (the scratch at
    anything); afterwards the scratch at what the point before left in it, the core's other scoped buffers and the generator
    register as they were. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ rest0 (F := F) c) ∗ (∃ r, prngReg c r))

theorem PhiS0_zero (c : Dev nD) (n : ℕ) (h : n ≤ cfg0.N) (hz : n = 0) : PhiS0 V c n h = Pipeline.ΦA spec0 c := by
  subst hz; rfl

/-- After point `n` (before point `n + 1`): the scratch at that point's contents. -/
theorem PhiS0_succ (c : Dev nD) (n : ℕ) (hn : n < cfg0.N) :
    PhiS0 V c (n + 1) hn = iprop(iprop(owns (c : Thread nD τ) scM0_0 fullShare ((outsAt0 V c n hn).2) ∗ rest0 (F := F) c) ∗ (∃ r, prngReg c r)) := rfl

/-- Before a point that is not the first: the scratch at what the point before left. -/
theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ rest0 (F := F) c) ∗ (∃ r, prngReg c r)) := by
  cases n with
  | zero => exact absurd rfl hz
  | succ n => rfl

/-! ## The pipeline's proof data -/

/-- The proof data of this region's pipeline on core `c`: the arrays as the region finds them; after the body at point
    `t` each input's buffer still at its block and the output's at `outsAt0`'s first component; the invariant `PhiS0`;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

/-- The invariant at a point's start, restated at `t.val`. -/
theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t))

set_option maxHeartbeats 4800000 in
/-- The body at any point.  The inputs' memrefs hold their blocks; the point's reduction coordinate says which case it is
    in; the invariant hands the body the scratch — at anything at the first point, else at what the point before left — and
    takes it back at this point's contents; the output tile is taken at anything and handed back at this point's contents;
    the core's other buffers, the generator register and the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [after0_0, after0_1, after0_2]
  by_cases h0 : t.val % 4 = 0
  · rw [outsAt0_A V c t h0]
    unfold out0_A_2 sout0_A_0; (try dsimp only)
    by_cases hz : t.val = 0
    · rw [PhiS0_castSucc V c t, PhiS0_zero V c _ _ hz, PhiA0_eq]
      iintro ⟨⟨⟨HS0, Hr⟩, Hg⟩, Ho, ⟨%d0, H0⟩, ⟨%d1, H1⟩, ⟨%d2, H2⟩⟩
      iapply ((kernelRun0_A c (grid0.coords t) _ _ _ _ _ _ _ _ ((hcond0_0 t).mpr h0) (iblk0 V c 0 t) (iblk0 V c 1 t)).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_A_0 c _ _ _ _ _ _ _ _ _ _ _ _)
          iexact Hr
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_A_2 c _ _ _ _ _ _ _ _ _ _ _ _)
    · rw [PhiS0_castSucc V c t, PhiS0_pos V c _ _ hz]
      iintro ⟨⟨⟨HS0, Hr⟩, Hg⟩, Ho, ⟨%d0, H0⟩, ⟨%d1, H1⟩, ⟨%d2, H2⟩⟩
      iapply ((kernelRun0_A c (grid0.coords t) _ _ _ _ _ _ _ _ ((hcond0_0 t).mpr h0) (iblk0 V c 0 t) (iblk0 V c 1 t)).2.2 Set.univ _)
      isplitl [H0]; · iexact H0
      isplitl [H1]; · iexact H1
      isplitl [H2]; · iexists _; iexact H2
      isplitl [HS0]; · iexists _; iexact HS0
      iintro ⟨H0, H1, ⟨%e2, H2⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_A_0 c _ _ _ _ _ _ _ _ _ _ _ _)
          iexact Hr
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_A_2 c _ _ _ _ _ _ _ _ _ _ _ _)
  · have hz : t.val ≠ 0 := fun h => h0 (by rw [h])
    rw [outsAt0_B V c t h0]
    unfold out0_B_2 sout0_B_0; (try dsimp only)
    rw [PhiS0_castSucc V c t, PhiS0_pos V c _ _ hz]
    iintro ⟨⟨⟨HS0, Hr⟩, Hg⟩, Ho, ⟨%d0, H0⟩, ⟨%d1, H1⟩, ⟨%d2, H2⟩⟩
    iapply ((kernelRun0_B c (grid0.coords t) _ _ _ _ _ _ _ _ (fun h => h0 ((hcond0_0 t).mp h)) (iblk0 V c 0 t) (iblk0 V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover0_B_0 c _ _ _ _ _ _ _ _ _ _ _ _ _)
        iexact Hr
      iexact Hg
    isplitl [Ho]; · iexact Ho
    isplitl [H0]; · iexact H0
    isplitl [H1]; · iexact H1
    unfold owns; iexists _; isplitr
    swap; · iexact H2
    ipureintro; exact View.read_writes_of_cover _ _ _ _ _ (cover0_B_2 c _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the launch's back: the scratch's named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, Hr⟩, Hg⟩
  isplitl [HS0 Hr]
  · isplitl [HS0]
    · iexists _; iexact HS0
    iexact Hr
  iexact Hg

/-- The same after the last point. -/
theorem hout0 (c : Dev nD) : (dat0 V c).Φ (Fin.last cfg0.N) ⊢ Pipeline.ΦA spec0 c :=
  Phi_out0 V c _ (by rw [Fin.val_last]; have : cfg0.N = 32 := N_0; omega)

end Region0

end Cert.Kernel.Hand

end
-- ==== Proof.WdR1Frame.lean ====
/- Region 1 of the program (the second kernel launch): the prototype update.  At grid point ci the body reads a
   512 × 256 block of the prototypes P and, whole, the 512 head rows, the two weight matrices and the two biases; it
   computes attention scores of the block's rows against the head rows, their softmax, the attended rows added to the
   block, and a two-layer perceptron with a rectifier in between, and stores the 512 × 257 result block.  Nothing is
   carried from one grid point to the next.  Stated here, at any float instance and at ANY contents `V` of the core's
   buffers when the region is entered: what the body leaves in the output block as one pure function of the six input
   blocks, the body's Hoare triple, the pipeline's proof data, and the per-point body obligation. -/
import proofs.«418715_j4389456576871_1_alg».proof.Proof.Gen.Kernel.Launch
import proofs.«418715_j4389456576871_1_alg».proof.Proof.Gen.Kernel.Skeleton
import proofs.«418715_j4389456576871_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window `w`'s block at grid point `t`, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds that window's block at every grid point, whether the pipeline
    fetched it at this point or kept it from an earlier one (the block index did not move). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the body loads and stores through. -/
abbrev rP1 : Rect S512x256 := Rect.unit (s := S512x256) ![0, 0] S512x256.size inb_S512x256_S512x256_0_0
abbrev rB1 : Rect S512 := Rect.unit (s := S512) ![0] S512.size inb_S512_S512_0
abbrev rW1 : Rect S257x512 := Rect.unit (s := S257x512) ![0, 0] S257x512.size inb_S257x512_S257x512_0_0
abbrev rC1 : Rect S257 := Rect.unit (s := S257) ![0] S257.size inb_S257_S257_0
abbrev rO1 : Rect S512x257 := Rect.unit (s := S512x257) ![0, 0] S512x257.size inb_S512x257_S512x257_0_0

/-- What the body leaves in the output block, from the six input blocks: its single whole-block store. -/
def out1_6 (x0 : Vec F S512x256 .f32) (x1 : Vec F S512x256 .f32) (x2 : Vec F S512x256 .f32) (x3 : Vec F S512 .f32)
    (x4 : Vec F S257x512 .f32) (x5 : Vec F S257 .f32) : Vec F S512x257 .f32 :=
  View.canon [⟨rO1, k1_pay1 (k1_pay2 (View.ld x0 rP1) (View.ld x1 rP1) (View.ld x2 rP1) (View.ld x3 rB1) (View.ld x4 rW1)) (k1_pay3 (View.ld x5 rC1))⟩]

/-- That one store covers the block. -/
theorem cover1_6 (p0 : Vec F S512x257 .f32) (y : S512x257.Idx) :
    ∃ pc ∈ ([⟨rO1, p0⟩] : List (View.Piece (Elt F) S512x257 .f32)), y ∈ pc.1.set :=
  View.cover_of_tiled [⟨rO1, p0⟩] S512x257.size (by rfl) y

set_option maxHeartbeats 2000000 in
/-- The body's triple: on whole staging memrefs, the six inputs at contents `x0 … x5` and the output at anything, the
    body runs to its end leaving the inputs as they were and the output at `out1_6 x0 … x5`. -/
theorem sound_kernel1 (c : Dev nD) (E : Set ℕ) (i : grid1.Coords) (arg1 : Memref sig .tc .vmem S512x256 .f32) (harg1 : arg1.IsWhole)
    (arg2 : Memref sig .tc .vmem S512x256 .f32) (harg2 : arg2.IsWhole) (arg3 : Memref sig .tc .vmem S512x256 .f32) (harg3 : arg3.IsWhole)
    (arg4 : Memref sig .tc .vmem S512 .f32) (harg4 : arg4.IsWhole) (arg5 : Memref sig .tc .vmem S257x512 .f32) (harg5 : arg5.IsWhole)
    (arg6 : Memref sig .tc .vmem S257 .f32) (harg6 : arg6.IsWhole) (arg7 : Memref sig .tc .vmem S512x257 .f32) (harg7 : arg7.IsWhole)
    (x0 : Vec F S512x256 .f32) (x1 : Vec F S512x256 .f32) (x2 : Vec F S512x256 .f32) (x3 : Vec F S512 .f32)
    (x4 : Vec F S257x512 .f32) (x5 : Vec F S257 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out1_6 x0 x1 x2 x3 x4 x5)) -∗ K ⟨⟩))
      ⊢ wp frame (wpE (defs₀ (F := F)) Variants.none c none) E
          (cc1__proto_update_kernel i arg1 harg1 arg2 harg2 arg3 harg3 arg4 harg4 arg5 harg5 arg6 harg6 arg7 harg7) K := by
  simp only [cc1__proto_update_kernel_eq_skeleton]; unfold cc1__proto_update_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-- The proof data of this region's pipeline on core `c`: the arrays as the region finds them; after the body at point
    `t` each input's buffer still at its block and the output's at `out1_6` of the input blocks; the invariant is the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) :
    (dat1 V c).after 6 t = out1_6 (iblk1 V c 0 t) (iblk1 V c 1 t) (iblk1 V c 2 t) (iblk1 V c 3 t) (iblk1 V c 4 t) (iblk1 V c 5 t) := by
  dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' memrefs hold their blocks, so the triple applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.WdR2Frame.lean ====
/- Region 2 of the program (the third kernel launch): the logits tile.  At a grid point (bi, ci) the body reads a
   1024 × 256 block of z, a 1024 × 256 block of the weight rows W and a 1024-vector of the bias, and stores into its
   1024 × 1024 output tile the matrix product  z_blk · W_blkᵀ  plus the bias broadcast along rows.  Nothing is carried
   from one grid point to the next.  Stated here, at any float instance and at ANY contents `V` of the core's buffers
   when the region is entered: what the body leaves in the output tile as one pure function of the three input blocks,
   the body's Hoare triple, the pipeline's proof data, and the per-point body obligation. -/
import proofs.«418715_j4389456576871_1_alg».proof.Proof.Gen.Kernel.Launch
import proofs.«418715_j4389456576871_1_alg».proof.Proof.Gen.Kernel.Skeleton
import proofs.«418715_j4389456576871_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2

variable (V : (c : Dev nD) → (b : Ref sig .tc) → Buf (Elt F) ((c : Thread nD τ).loc b))

/-- Window `w`'s block at grid point `t`, read off the window's array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds that window's block at every grid point, whether the pipeline
    fetched it at this point or kept it from an earlier one (the block index did not move). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The whole-buffer rectangles the body loads and stores through. -/
abbrev rZ2 : Rect S1024x256 := Rect.unit (s := S1024x256) ![0, 0] S1024x256.size inb_S1024x256_S1024x256_0_0
abbrev rB2 : Rect S1024 := Rect.unit (s := S1024) ![0] S1024.size inb_S1024_S1024_0
abbrev rO2 : Rect S1024x1024 := Rect.unit (s := S1024x1024) ![0, 0] S1024x1024.size inb_S1024x1024_S1024x1024_0_0

/-- What the body leaves in the output tile, from the three input blocks: its single whole-tile store. -/
def out2_3 (x0 : Vec F S1024x256 .f32) (x1 : Vec F S1024x256 .f32) (x2 : Vec F S1024 .f32) : Vec F S1024x1024 .f32 :=
  View.canon [⟨rO2, k2_pay1 (View.ld x0 rZ2) (View.ld x1 rZ2) (View.ld x2 rB2)⟩]

/-- That one store covers the tile. -/
theorem cover2_3 (p0 : Vec F S1024x1024 .f32) (y : S1024x1024.Idx) :
    ∃ pc ∈ ([⟨rO2, p0⟩] : List (View.Piece (Elt F) S1024x1024 .f32)), y ∈ pc.1.set :=
  View.cover_of_tiled [⟨rO2, p0⟩] S1024x1024.size (by rfl) y

set_option maxHeartbeats 1000000 in
/-- The body's triple: on whole staging memrefs, the three inputs at contents `x0 x1 x2` and the output at anything, the
    body runs to its end leaving the inputs as they were and the output at `out2_3 x0 x1 x2`. -/
theorem sound_kernel2 (c : Dev nD) (E : Set ℕ) (i : grid2.Coords) (arg2 : Memref sig .tc .vmem S1024x256 .f32) (harg2 : arg2.IsWhole)
    (arg3 : Memref sig .tc .vmem S1024x256 .f32) (harg3 : arg3.IsWhole) (arg4 : Memref sig .tc .vmem S1024 .f32) (harg4 : arg4.IsWhole)
    (arg5 : Memref sig .tc .vmem S1024x1024 .f32) (harg5 : arg5.IsWhole)
    (x0 : Vec F S1024x256 .f32) (x1 : Vec F S1024x256 .f32) (x2 : Vec F S1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out2_3 x0 x1 x2)) -∗ K ⟨⟩))
      ⊢ wp frame (wpE (defs₀ (F := F)) Variants.none c none) E (cc2__logits_kernel i arg2 harg2 arg3 harg3 arg4 harg4 arg5 harg5) K := by
  simp only [cc2__logits_kernel_eq_skeleton]; unfold cc2__logits_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The proof data of this region's pipeline on core `c`: the arrays as the region finds them; after the body at point
    `t` each input's buffer still at its block and the output's at `out2_3` of the input blocks; the invariant is the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so the triple applies; the invariant and the core's
    dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Region2

end Cert.Kernel.Hand

end
-- ==== Proof.WdRun.lean ====
/- The run of the whole program, at any float instance: the main function is host operations, region 0, host
   operations, region 1, host operations, region 2.  The contents of the core's buffers are followed from the launch
   memory through every one of these nine items (a stretch of host operations applies its operations in order; a region
   leaves its input arrays as it found them and its output array at what the pipeline's write-backs fold into it), and
   every weakly fair execution is shown to terminate, faulting nowhere, with every unscoped buffer at the last of these
   contents.  Two readings of that last state follow: the nine argument arrays hold what they held at launch, and the
   result array holds what region 2's write-backs leave. -/
import proofs.«418715_j4389456576871_1_alg».proof.Proof.Gen.Kernel.Launch
import proofs.«418715_j4389456576871_1_alg».proof.Proof.Gen.Kernel.Skeleton
import proofs.«418715_j4389456576871_1_alg».proof.Proof.Gen.Kernel.Points
import proofs.«418715_j4389456576871_1_alg».proof.Proof.Gen.Kernel.Regions
import proofs.«418715_j4389456576871_1_alg».proof.Proof.WdR0Frame
import proofs.«418715_j4389456576871_1_alg».proof.Proof.WdR1Frame
import proofs.«418715_j4389456576871_1_alg».proof.Proof.WdR2Frame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- At launch. -/
abbrev W0 : Dev nD → Valuation τ sig (Elt F) := fun c b => m (c, b)
/-- After the first host stretch: region 0's entry. -/
abbrev W1 : Dev nD → Valuation τ sig (Elt F) := fun c => StableHlo.after hostOps0 (W0 m c)
abbrev U1 : (c : Dev nD) → (b : Ref sig .tc) → Buf (Elt F) ((c : Thread nD τ).loc b) := fun c b => W1 m c b

/-- At region 0's exit: its arrays at what the pipeline leaves (an input as entered, the output with its write-backs
    folded in), every other buffer as entered. -/
def W2 (c : Dev nD) : Valuation τ sig (Elt F) :=
  Pipeline.withArrays spec0 c (W1 m c) fun w => (dat0 (U1 m) c).arrAt w cfg0.N
theorem W2_arr (c : Dev nD) (w : Fin cfg0.W) :
    W2 m c (Proc.devRef .tc (Pipeline.arrRef spec0 w)) = (dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the core's references. -/
abbrev U2 : (c : Dev nD) → (b : Ref sig .tc) → Buf (Elt F) ((c : Thread nD τ).loc b) := fun c b => W2 m c b
theorem hF0 (c : Dev nD) (w : Fin cfg0.W) : (dat0 (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)

/-- After the four host stretches between regions 0 and 1 (the class means, the updated prototypes, the gathered head
    rows): region 1's entry. -/
abbrev W3 : Dev nD → Valuation τ sig (Elt F) := fun c => StableHlo.after hostOps1 (W2 m c)
abbrev W4 : Dev nD → Valuation τ sig (Elt F) := fun c => StableHlo.after hostOps1_1 (W3 m c)
abbrev W5 : Dev nD → Valuation τ sig (Elt F) := fun c => StableHlo.after hostOps1_2 (W4 m c)
abbrev W6 : Dev nD → Valuation τ sig (Elt F) := fun c => StableHlo.after hostOps1_3 (W5 m c)
abbrev U6 : (c : Dev nD) → (b : Ref sig .tc) → Buf (Elt F) ((c : Thread nD τ).loc b) := fun c b => W6 m c b

/-- At region 1's exit: its arrays at what the pipeline leaves (an input as entered, the output with its write-backs
    folded in), every other buffer as entered. -/
def W7 (c : Dev nD) : Valuation τ sig (Elt F) :=
  Pipeline.withArrays spec1 c (W6 m c) fun w => (dat1 (U6 m) c).arrAt w cfg1.N
theorem W7_arr (c : Dev nD) (w : Fin cfg1.W) :
    W7 m c (Proc.devRef .tc (Pipeline.arrRef spec1 w)) = (dat1 (U6 m) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m c (Proc.devRef .tc b) = W6 m c (Proc.devRef .tc b) := by
  unfold W7; exact Pipeline.withArrays_of_ne spec1 c _ _ b hb
/-- The same read at the core's references. -/
abbrev U7 : (c : Dev nD) → (b : Ref sig .tc) → Buf (Elt F) ((c : Thread nD τ).loc b) := fun c b => W7 m c b
theorem hF1 (c : Dev nD) (w : Fin cfg1.W) : (dat1 (U6 m) c).arrAt w cfg1.N = U7 m c (Pipeline.arrRef spec1 w) :=
  (W7_arr m c w).symm
theorem hrest1 (c : Dev nD) : ∀ b, b ∉ Finset.univ.image (Pipeline.arrRef spec1) → U7 m c b = U6 m c b :=
  fun b hb => W7_of_ne m c b fun w e => hb (Finset.mem_image.mpr ⟨w, Finset.mem_univ _, e⟩)

/-- After the host stretch between regions 1 and 2 (the weight columns and the bias column cut out): region 2's entry. -/
abbrev W8 : Dev nD → Valuation τ sig (Elt F) := fun c => StableHlo.after hostOps2 (W7 m c)
abbrev U8 : (c : Dev nD) → (b : Ref sig .tc) → Buf (Elt F) ((c : Thread nD τ).loc b) := fun c b => W8 m c b

/-- At region 2's exit: its arrays at what the pipeline leaves (an input as entered, the output with its write-backs
    folded in), every other buffer as entered. -/
def W9 (c : Dev nD) : Valuation τ sig (Elt F) :=
  Pipeline.withArrays spec2 c (W8 m c) fun w => (dat2 (U8 m) c).arrAt w cfg2.N
theorem W9_arr (c : Dev nD) (w : Fin cfg2.W) :
    W9 m c (Proc.devRef .tc (Pipeline.arrRef spec2 w)) = (dat2 (U8 m) c).arrAt w cfg2.N := by
  unfold W9; exact Pipeline.withArrays_arr spec2 launch2.win.arr_inj c _ _ w
theorem W9_of_ne (c : Dev nD) (b : Ref sig .tc) (hb : ∀ w, Pipeline.arrRef spec2 w ≠ b) :
    W9 m c (Proc.devRef .tc b) = W8 m c (Proc.devRef .tc b) := by
  unfold W9; exact Pipeline.withArrays_of_ne spec2 c _ _ b hb
/-- The same read at the core's references. -/
abbrev U9 : (c : Dev nD) → (b : Ref sig .tc) → Buf (Elt F) ((c : Thread nD τ).loc b) := fun c b => W9 m c b
theorem hF2 (c : Dev nD) (w : Fin cfg2.W) : (dat2 (U8 m) c).arrAt w cfg2.N = U9 m c (Pipeline.arrRef spec2 w) :=
  (W9_arr m c w).symm
theorem hrest2 (c : Dev nD) : ∀ b, b ∉ Finset.univ.image (Pipeline.arrRef spec2) → U9 m c b = U8 m c b :=
  fun b hb => W9_of_ne m c b fun w e => hb (Finset.mem_image.mpr ⟨w, Finset.mem_univ _, e⟩)

/-! ## A buffer no item writes keeps its launch contents -/

/-- A region changes only its output array: an input array is put back as found, any other buffer bypasses it. -/
theorem W2_keep (c : Dev nD) (b : Ref sig .tc) (hb : b ≠ main_v2) : W2 m c (Proc.devRef .tc b) = W1 m c (Proc.devRef .tc b) := by
  by_cases h0 : b = main_arg1
  · subst h0; exact (W2_arr m c 0).trans (((dat0 (U1 m) c).arrAt_in 0 rfl _).trans (A_eq0 (U1 m) c 0))
  by_cases h1 : b = main_v1
  · subst h1; exact (W2_arr m c 1).trans (((dat0 (U1 m) c).arrAt_in 1 rfl _).trans (A_eq0 (U1 m) c 1))
  exact W2_of_ne m c b fun w => by
    fin_cases w
    · exact Ne.symm h0
    · exact Ne.symm h1
    · exact Ne.symm hb
theorem W7_keep (c : Dev nD) (b : Ref sig .tc) (hb : b ≠ main_v23) : W7 m c (Proc.devRef .tc b) = W6 m c (Proc.devRef .tc b) := by
  by_cases h0 : b = main_v21
  · subst h0; exact (W7_arr m c 0).trans (((dat1 (U6 m) c).arrAt_in 0 rfl _).trans (A_eq1 (U6 m) c 0))
  by_cases h1 : b = main_v22
  · subst h1; exact (W7_arr m c 1).trans (((dat1 (U6 m) c).arrAt_in 1 rfl _).trans (A_eq1 (U6 m) c 1))
  by_cases h2 : b = main_arg5
  · subst h2; exact (W7_arr m c 2).trans (((dat1 (U6 m) c).arrAt_in 2 rfl _).trans (A_eq1 (U6 m) c 2))
  by_cases h3 : b = main_arg6
  · subst h3; exact (W7_arr m c 3).trans (((dat1 (U6 m) c).arrAt_in 3 rfl _).trans (A_eq1 (U6 m) c 3))
  by_cases h4 : b = main_arg7
  · subst h4; exact (W7_arr m c 4).trans (((dat1 (U6 m) c).arrAt_in 4 rfl _).trans (A_eq1 (U6 m) c 4))
  by_cases h5 : b = main_arg8
  · subst h5; exact (W7_arr m c 5).trans (((dat1 (U6 m) c).arrAt_in 5 rfl _).trans (A_eq1 (U6 m) c 5))
  exact W7_of_ne m c b fun w => by
    fin_cases w
    · exact Ne.symm h0
    · exact Ne.symm h1
    · exact Ne.symm h2
    · exact Ne.symm h3
    · exact Ne.symm h4
    · exact Ne.symm h5
    · exact Ne.symm hb
theorem W9_keep (c : Dev nD) (b : Ref sig .tc) (hb : b ≠ main_v27) : W9 m c (Proc.devRef .tc b) = W8 m c (Proc.devRef .tc b) := by
  by_cases h0 : b = main_arg0
  · subst h0; exact (W9_arr m c 0).trans (((dat2 (U8 m) c).arrAt_in 0 rfl _).trans (A_eq2 (U8 m) c 0))
  by_cases h1 : b = main_v24
  · subst h1; exact (W9_arr m c 1).trans (((dat2 (U8 m) c).arrAt_in 1 rfl _).trans (A_eq2 (U8 m) c 1))
  by_cases h2 : b = main_v26
  · subst h2; exact (W9_arr m c 2).trans (((dat2 (U8 m) c).arrAt_in 2 rfl _).trans (A_eq2 (U8 m) c 2))
  exact W9_of_ne m c b fun w => by
    fin_cases w
    · exact Ne.symm h0
    · exact Ne.symm h1
    · exact Ne.symm h2
    · exact Ne.symm hb

/-- A buffer that no host stretch writes and that is no region's output array ends holding its launch contents. -/
theorem W9_of_launch (c : Dev nD) (r : Ref sig .tc) (h0 : r ∉ hostOps0_W) (h1 : r ∉ hostOps1_W) (h2 : r ∉ hostOps1_1_W)
    (h3 : r ∉ hostOps1_2_W) (h4 : r ∉ hostOps1_3_W) (h5 : r ∉ hostOps2_W) (ha : r ≠ main_v2) (hb : r ≠ main_v23) (hc : r ≠ main_v27) :
    W9 m c (Proc.devRef .tc r) = m ((c : Thread nD τ).loc r) :=
  (W9_keep m c r hc).trans <| (StableHlo.after_of_writes_sub hostOps2 _ hostOps2_writes h5).trans <|
    (W7_keep m c r hb).trans <| (StableHlo.after_of_writes_sub hostOps1_3 _ hostOps1_3_writes h4).trans <|
    (StableHlo.after_of_writes_sub hostOps1_2 _ hostOps1_2_writes h3).trans <|
    (StableHlo.after_of_writes_sub hostOps1_1 _ hostOps1_1_writes h2).trans <|
    (StableHlo.after_of_writes_sub hostOps1 _ hostOps1_writes h1).trans <|
    (W2_keep m c r ha).trans <| (StableHlo.after_of_writes_sub hostOps0 _ hostOps0_writes h0).trans rfl

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (U1 m) c
  | ⟨1, _⟩ => fun c => dat1 (U6 m) c
  | ⟨2, _⟩ => fun c => dat2 (U8 m) c
/-- No core owes another anything: no level is assigned. -/
abbrev Lz : GSem nD τ sig → Finset Unit := fun _ => ∅
abbrev lvz : GSem nD τ sig → Unit → ℕ := fun _ _ => 0
/-- What rides beside the buffers through every item: the generator register at some state and the core owing nothing. -/
abbrev Rr (c : Dev nD) : sProp 𝕄 := iprop((∃ r, prngReg c r) ∗ ∃ W, owes (c : Thread nD τ) (0 : CellTallies nD τ sig Unit) W)
/-- A host stretch as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none Lz lvz :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register at some state. -/
abbrev Tn (c : Dev nD) : sProp 𝕄 := iprop(StableHlo.held (c : Thread nD τ) (Pipeline.ucRefs τ sig) (W9 m c) ∗ ∃ r, prngReg c r)

/-! ## The regions as segments -/

set_option backward.isDefEq.respectTransparency.types false in
/-- Region 0 as a segment of the program: entered with every unscoped buffer of the core at the contents `W1`, left
    with them at `W2`.  The region's arrays are split out of the unscoped buffers at entry and put back, at what the
    pipeline's write-backs leave, at exit; the generator register goes into the region's invariant and comes back;
    nothing is owed; the kernel has no semaphore of its own. -/
def reg0 : Pipeline.RegionSeg (pcfgs (F := F)) adm (pdats m) () defs₀ Variants.none Lz lvz 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ Lz lvz 0 fun _ _ => rfl
  pre c := iprop(StableHlo.held (c : Thread nD τ) (Pipeline.ucRefs τ sig) (W1 m c) ∗ Rr c)
  post c := iprop(StableHlo.held (c : Thread nD τ) (Pipeline.ucRefs τ sig) (W2 m c) ∗ Rr c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 0).pre c (fun _ => fullShare) (adm (F := F) 0).1
        ∗ Pipeline.scopedRest (Pipeline.pin (pcfgs (F := F)) adm 0).spec c) ⊢ (Pipeline.ΦA spec0 c : sProp 𝕄) := by
      unfold Pipeline.ΦA
      iintro ⟨Hp, -, Hr⟩
      isplitl [Hr]; · iexact Hr
      iexact Hp
    exact h.trans (hin0 (U1 m) c)
  hout c := by
    rw [Pipeline.ownSems0_none]
    have h : (Pipeline.ΦA spec0 c : sProp 𝕄) ⊢ iprop((∃ r, prngReg c r) ∗ BI.emp
        ∗ Pipeline.scopedRest (Pipeline.pin (pcfgs (F := F)) adm 0).spec c) := by
      unfold Pipeline.ΦA
      iintro ⟨Hr, Hp⟩
      isplitl [Hp]; · iexact Hp
      isplitr; · iempintro
      iexact Hr
    exact (hout0 (U1 m) c).trans h
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment of the program: entered with every unscoped buffer of the core at the contents `W6`, left
    with them at `W7`.  The region's arrays are split out of the unscoped buffers at entry and put back, at what the
    pipeline's write-backs leave, at exit; the generator register goes into the region's invariant and comes back;
    nothing is owed; the kernel has no semaphore of its own. -/
def reg1 : Pipeline.RegionSeg (pcfgs (F := F)) adm (pdats m) () defs₀ Variants.none Lz lvz 1 where
  win := launch1.win.to₀
  block_pos := launch1.block_pos
  stage_whole := launch1.stage_whole
  K := PEmpty
  osem k := k.elim
  ho := Pipeline.OwnSemFacts.none _
  hbody c := (body_obligation1 (U6 m) c).loose
  hwaits := Pipeline.hwaits_of_owed_zero _ _ _ _ Lz lvz 1 fun _ _ => rfl
  pre c := iprop(StableHlo.held (c : Thread nD τ) (Pipeline.ucRefs τ sig) (W6 m c) ∗ Rr c)
  post c := iprop(StableHlo.held (c : Thread nD τ) (Pipeline.ucRefs τ sig) (W7 m c) ∗ Rr c)
  X c := iprop(∃ r, prngReg c r)
  Y c := iprop(∃ r, prngReg c r)
  Z c := Pipeline.unscopedRest (Ix := Unit) (Name := ℕ) (U := UR sig nD τ) (Lvl := ℕ) spec1 c (U6 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U6 m c) (U7 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment of the program: entered with every unscoped buffer of the core at the contents `W8`, left
    with them at `W9`.  The region's arrays are split out of the unscoped buffers at entry and put back, at what the
    pipeline's write-backs leave, at exit; the generator register goes into the region's invariant and comes back;
    nothing is owed; the kernel has no semaphore of its own. -/
def reg2 : Pipeline.RegionSeg (pcfgs (F := F)) adm (pdats m) () defs₀ Variants.none Lz lvz 2 where
  win := launch2.win.to₀
  block_pos := launch2.block_pos
  stage_whole := launch2.stage_whole
  K := PEmpty
  osem k := k.elim
  ho := Pipeline.OwnSemFacts.none _
  hbody c := (body_obligation2 (U8 m) c).loose
  hwaits := Pipeline.hwaits_of_owed_zero _ _ _ _ Lz lvz 2 fun _ _ => rfl
  pre c := iprop(StableHlo.held (c : Thread nD τ) (Pipeline.ucRefs τ sig) (W8 m c) ∗ Rr c)
  post c := iprop(Tn m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (U8 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (U8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (U8 m c) (U9 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The main function as segments, and the launch -/

abbrev msegs : List (Pipeline.Seg (pcfgs (F := F)) adm (pdats m) () defs₀ Variants.none Lz lvz) :=
  [ .host (hseg hostOps0 hostOps0_sub hostOps0_fresh (W0 m)),
    .region (reg0 m),
    .host (hseg hostOps1 hostOps1_sub hostOps1_fresh (W2 m)),
    .host (hseg hostOps1_1 hostOps1_1_sub hostOps1_1_fresh (W3 m)),
    .host (hseg hostOps1_2 hostOps1_2_sub hostOps1_2_fresh (W4 m)),
    .host (hseg hostOps1_3 hostOps1_3_sub hostOps1_3_fresh (W5 m)),
    .region (reg1 m),
    .host (hseg hostOps2 hostOps2_sub hostOps2_fresh (W7 m)),
    .region (reg2 m) ]
theorem main_run (c : Dev nD) : main (F := F) c = Pipeline.Seg.run (msegs m) := (main_chain c).trans (by chain_rfl)

set_option backward.isDefEq.respectTransparency.types false in
/-- THE RUN: from any memory with zero counters, every weakly fair execution of the program on the cores terminates,
    nothing faulting, and every final state holds every unscoped buffer at the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W9 m c b) :=
  Pipeline.θ_run_regions_kit (pcfgs (F := F)) adm (pdats m) () cellOf_inj emb₁ defs₀ Variants.none Lz lvz m ρ main (msegs m)
    (fun c Q => by rw [main_run m c])
    (by simp only [msegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rr c)) (Tₙ := Tn m)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach Lz lvz fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨⟨Hh, -⟩, HSI⟩
      unfold StableHlo.held
      imodintro
      iapply (pointsTo_read_all (Pipeline.ucRefs τ sig) (fun b => (((c : Thread nD τ)).1, b)) (W9 m c) s')
      isplitl [Hh] <;> iassumption)
    (hQ := fun s h c => h c)

/-- What the result array holds at the end: what region 2's write-backs leave in it. -/
theorem W9_result (c : Dev nD) : W9 m c (Proc.devRef .tc main_v27) = (dat2 (U8 m) c).arrAt 3 cfg2.N := W9_arr m c 3

/-- THE RUN, read at the result and the arguments: every execution ends with the result array at region 2's final
    contents and the nine argument arrays as launched. -/
theorem run_main (ρ : Dev nD → PrngReg) : θ_run defs (onTc (τ := τ) (main (F := F))) ⟨m, fun _ => 0, ρ⟩ (fun r => ∀ c : Dev nD,
      r.2.mem ((c.tc : Thread nD τ).loc main_v27) = (dat2 (U8 m) c).arrAt 3 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_v27 (by decide))).trans (W9_result m c),
     (h c _ (mem_uc main_arg0 (by decide))).trans (W9_of_launch m c main_arg0 (by decide) (by decide) (by decide) (by decide) (by decide) (by decide) (by decide) (by decide) (by decide)),
     (h c _ (mem_uc main_arg1 (by decide))).trans (W9_of_launch m c main_arg1 (by decide) (by decide) (by decide) (by decide) (by decide) (by decide) (by decide) (by decide) (by decide)),
     (h c _ (mem_uc main_arg2 (by decide))).trans (W9_of_launch m c main_arg2 (by decide) (by decide) (by decide) (by decide) (by decide) (by decide) (by decide) (by decide) (by decide)),
     (h c _ (mem_uc main_arg3 (by decide))).trans (W9_of_launch m c main_arg3 (by decide) (by decide) (by decide) (by decide) (by decide) (by decide) (by decide) (by decide) (by decide)),
     (h c _ (mem_uc main_arg4 (by decide))).trans (W9_of_launch m c main_arg4 (by decide) (by decide) (by decide) (by decide) (by decide) (by decide) (by decide) (by decide) (by decide)),
     (h c _ (mem_uc main_arg5 (by decide))).trans (W9_of_launch m c main_arg5 (by decide) (by decide) (by decide) (by decide) (by decide) (by decide) (by decide) (by decide) (by decide)),
     (h c _ (mem_uc main_arg6 (by decide))).trans (W9_of_launch m c main_arg6 (by decide) (by decide) (by decide) (by decide) (by decide) (by decide) (by decide) (by decide) (by decide)),
     (h c _ (mem_uc main_arg7 (by decide))).trans (W9_of_launch m c main_arg7 (by decide) (by decide) (by decide) (by decide) (by decide) (by decide) (by decide) (by decide) (by decide)),
     (h c _ (mem_uc main_arg8 (by decide))).trans (W9_of_launch m c main_arg8 (by decide) (by decide) (by decide) (by decide) (by decide) (by decide) (by decide) (by decide) (by decide))⟩)
    (run_all m ρ)

/-- THE FRAME: every execution terminates, nothing faulting, with the nine argument arrays as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => (h c).2) (run_main m ρ)

end Cert.Kernel.Hand

end
-- ==== Proof.R0Runs.lean ====
/- Region 0 of the program (the first kernel launch): the segment sum.  The grid is 8 × 4; the second coordinate is the
   reduction axis.  At a grid point (ci, bi) the body reads a 1024 × 1024 block of labels and a 1024 × 257 block of
   augmented rows, and keeps a 1024 × 257 accumulator in a scratch buffer of its own that lives from one grid point to
   the next: at bi = 0 the accumulator is first reset to zero; at every point the product of the thresholded label block
   (contracted along its first axis) with the row block is added to it; and at every point the accumulator is copied
   into the output tile.  This module holds what the two control cases of the body share and the body's Hoare triple in
   each case: the branch condition in closed form, the staging and scratch memrefs, the region invariant with the
   scratch split off, and, per case, the pieces the body's stores leave in the output tile and in the scratch. -/
import proofs.«418715_j4389456576871_1_alg».proof.Proof.Gen.KernelIdeal.Launch
import proofs.«418715_j4389456576871_1_alg».proof.Proof.Gen.KernelIdeal.Skeleton
import proofs.«418715_j4389456576871_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window `w`'s block at grid point `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds that window's block at every grid point, whether the pipeline
    fetched it at this point or kept it from an earlier one (the block index did not move). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end Region0

/-! ## The body's branch condition -/

/-- The condition of the body's one conditional, from the grid coordinates: the reduction coordinate is zero. -/
abbrev cond0_0 (i : grid0.Coords) : Prop := (Scalar.cmpi .ne (Scalar.extui (Scalar.cmpi .eq (BitVec.ofNat 32 (i 1).val) 0#32)) 0#32) = 1#1
/-- It holds at the points ≡ 0 (mod 4): decided over the grid. -/
theorem hcond0_0 : ∀ t : Fin cfg0.N, cond0_0 (grid0.coords t) ↔ t.val % 4 = 0 :=
  (by decide +kernel : ∀ t : Fin grid0.N, cond0_0 (grid0.coords t) ↔ t.val % 4 = 0)

/-! ## The memrefs the body is called with -/

/-- One staging buffer of output window 2, through which its contents are stated (the choice does not matter). -/
abbrev VO0_2 : View sig .tc .vmem S1024x257 .f32 := (Memref.whole cc0_stg2_0 : Memref sig .tc .vmem S1024x257 .f32).view
/-- Each window's current staging memref at point `t`, spelled as the pipeline passes it, and its wholeness. -/
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x257 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x257 .f32 := win0_2.stage (cfg0.slots t 2)
abbrev hs0_2 (t : Fin cfg0.N) : (ms0_2 t).IsWhole := hstage0_2 ((cfg0.slots t 2).cast nbuf0_2)
/-- The scratch operand: a whole scoped buffer of the kernel's own, passed beside the windows. -/
abbrev scM0_0 : Memref sig .tc .vmem S1024x257 .f32 := Memref.whole cc0_scratch0
/-- The scratch the kernel carries between points, as a view: what it holds is stated through it. -/
abbrev VS0_0 : View sig .tc .vmem S1024x257 .f32 := scM0_0.view

/-! ## The region invariant with the scratch split off -/

/-- The region's invariant is the scratch at some contents, the core's other scoped buffers (the staging buffers of
    the other two launches) at some contents, and the generator register at some state. -/
theorem PhiA0_split (c : Dev nD) : ∃ R : sProp 𝕄,
    (Pipeline.ΦA spec0 c : sProp 𝕄)
      = iprop(iprop((∃ d, owns (c : Thread nD τ) scM0_0 fullShare d) ∗ R) ∗ (∃ r, prngReg c r)) := by
  unfold Pipeline.ΦA; rw [scopedRest0_eq]; simp only [scM0_0, owns_whole]; exact ⟨_, rfl⟩

/-- The core's scoped buffers other than the scratch, each at some contents: untouched by this region. -/
def rest0 (c : Dev nD) : sProp 𝕄 := Classical.choose (PhiA0_split (F := F) c)

theorem PhiA0_eq (c : Dev nD) :
    (Pipeline.ΦA spec0 c : sProp 𝕄)
      = iprop(iprop((∃ d, owns (c : Thread nD τ) scM0_0 fullShare d) ∗ rest0 (F := F) c) ∗ (∃ r, prngReg c r)) :=
  Classical.choose_spec (PhiA0_split (F := F) c)

/-! ## The body on any whole memrefs, case by case -/

set_option maxHeartbeats 1000000 in
/-- What the body's stores leave in the output tile's memref and in the scratch, as pieces (last first), AT A POINT WHERE
    THE REDUCTION COORDINATE IS ZERO, with the proof that on whole memrefs — the two inputs' at their contents, the output's
    and the scratch at anything — the body runs to the continuation holding the inputs' as they were and the output's and
    the scratch with those pieces written.  The pieces are found by running the body. -/
noncomputable def kernelRun0_A (c : Dev nD) (i : grid0.Coords) (arg2 : Memref sig .tc .vmem S1024x1024 .f32) (harg2 : arg2.IsWhole) (arg3 : Memref sig .tc .vmem S1024x257 .f32) (harg3 : arg3.IsWhole) (arg4 : Memref sig .tc .vmem S1024x257 .f32) (harg4 : arg4.IsWhole) (arg5 : Memref sig .tc .vmem S1024x257 .f32) (harg5 : arg5.IsWhole) (hc0 : cond0_0 i)
    (x0 : Vec F S1024x1024 .f32) (x1 : Vec F S1024x257 .f32) :
    Σ' (L2 : List (View.Piece (Elt F) S1024x257 .f32)), { LS0 : List (View.Piece (Elt F) S1024x257 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__segment_sum_kernel i arg2 harg2 arg3 harg3 arg4 harg4 arg5 harg5) K } := by
  refine ⟨?_, ?_, fun E K => ?run⟩
  case run =>
    simp only [cc0__segment_sum_kernel_eq_skeleton]; unfold cc0__segment_sum_kernel_skel
    unfold owns
    iintro ⟨⟨%f0, %hf0, H0⟩, ⟨%f1, %hf1, H1⟩, ⟨%d2, %f2, -, H2⟩, ⟨%ds0, %fs0, -, HS0⟩, Hk⟩
    obtain rfl := harg2.eq_unread hf0; obtain rfl := harg3.eq_unread hf1
    sl_exec (disch := exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

set_option maxHeartbeats 1000000 in
/-- The same AT A POINT WHERE THE REDUCTION COORDINATE IS NOT ZERO: the scratch is taken at the contents `xs0` the point
    before left in it, and the body adds onto them. -/
noncomputable def kernelRun0_B (c : Dev nD) (i : grid0.Coords) (arg2 : Memref sig .tc .vmem S1024x1024 .f32) (harg2 : arg2.IsWhole) (arg3 : Memref sig .tc .vmem S1024x257 .f32) (harg3 : arg3.IsWhole) (arg4 : Memref sig .tc .vmem S1024x257 .f32) (harg4 : arg4.IsWhole) (arg5 : Memref sig .tc .vmem S1024x257 .f32) (harg5 : arg5.IsWhole) (hc0 : ¬cond0_0 i)
    (x0 : Vec F S1024x1024 .f32) (x1 : Vec F S1024x257 .f32) (xs0 : Vec F S1024x257 .f32) :
    Σ' (L2 : List (View.Piece (Elt F) S1024x257 .f32)), { LS0 : List (View.Piece (Elt F) S1024x257 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__segment_sum_kernel i arg2 harg2 arg3 harg3 arg4 harg4 arg5 harg5) K } := by
  refine ⟨?_, ?_, fun E K => ?run⟩
  case run =>
    simp only [cc0__segment_sum_kernel_eq_skeleton]; unfold cc0__segment_sum_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.R0Frame.lean ====
/- Region 0 of the program (the first kernel launch), the segment sum: what the output tile and the scratch
   accumulator hold after each grid point, and the pipeline's proof data built on it.  In both control cases of the
   body (the reduction coordinate zero: reset, then accumulate; nonzero: accumulate onto what the point before left in
   the scratch) the body's stores cover the output tile and the scratch, so what each holds afterwards is its pieces
   read back.  `outsAt0` follows the two through the grid; the region invariant carries the scratch at `outsAt0`'s
   second component from one point to the next; the body obligation is the case's triple at every point.  Stated at
   any float instance and at ANY contents `V` of the core's buffers when the region is entered. -/
import proofs.«418715_j4389456576871_1_alg».proof.Proof.R0Runs
import proofs.«418715_j4389456576871_1_alg».proof.Proof.Gen.KernelIdeal.Launch
import proofs.«418715_j4389456576871_1_alg».proof.Proof.Gen.KernelIdeal.Skeleton
import proofs.«418715_j4389456576871_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves in the output tile and in the scratch -/

/-- The pieces the reset case stores into the output tile cover it. -/
theorem cover0_A_2 (c : Dev nD) (i : grid0.Coords) (arg2 : Memref sig .tc .vmem S1024x1024 .f32) (harg2 : arg2.IsWhole) (arg3 : Memref sig .tc .vmem S1024x257 .f32) (harg3 : arg3.IsWhole) (arg4 : Memref sig .tc .vmem S1024x257 .f32) (harg4 : arg4.IsWhole) (arg5 : Memref sig .tc .vmem S1024x257 .f32) (harg5 : arg5.IsWhole) (hc0 : cond0_0 i)
    (x0 : Vec F S1024x1024 .f32) (x1 : Vec F S1024x257 .f32) (y : S1024x257.Idx) :
    ∃ pc ∈ (kernelRun0_A c i arg2 harg2 arg3 harg3 arg4 harg4 arg5 harg5 hc0 x0 x1).1, y ∈ pc.1.set :=
  View.cover_of_tiledL (kernelRun0_A c i arg2 harg2 arg3 harg3 arg4 harg4 arg5 harg5 hc0 x0 x1).1 S1024x257.size (by sl_kernel_rfl) y

/-- What the reset case leaves in the output tile: its pieces read back (over contents that do not show). -/
def out0_A_2 (c : Dev nD) (i : grid0.Coords) (arg2 : Memref sig .tc .vmem S1024x1024 .f32) (harg2 : arg2.IsWhole) (arg3 : Memref sig .tc .vmem S1024x257 .f32) (harg3 : arg3.IsWhole) (arg4 : Memref sig .tc .vmem S1024x257 .f32) (harg4 : arg4.IsWhole) (arg5 : Memref sig .tc .vmem S1024x257 .f32) (harg5 : arg5.IsWhole) (hc0 : cond0_0 i)
    (x0 : Vec F S1024x1024 .f32) (x1 : Vec F S1024x257 .f32) : Vec F S1024x257 .f32 :=
  VO0_2.read (Elt F) (VO0_2.writes (Elt F) VO0_2.junk (kernelRun0_A c i arg2 harg2 arg3 harg3 arg4 harg4 arg5 harg5 hc0 x0 x1).1)

/-- The pieces the reset case stores into the scratch cover it. -/
theorem scover0_A_0 (c : Dev nD) (i : grid0.Coords) (arg2 : Memref sig .tc .vmem S1024x1024 .f32) (harg2 : arg2.IsWhole) (arg3 : Memref sig .tc .vmem S1024x257 .f32) (harg3 : arg3.IsWhole) (arg4 : Memref sig .tc .vmem S1024x257 .f32) (harg4 : arg4.IsWhole) (arg5 : Memref sig .tc .vmem S1024x257 .f32) (harg5 : arg5.IsWhole) (hc0 : cond0_0 i)
    (x0 : Vec F S1024x1024 .f32) (x1 : Vec F S1024x257 .f32) (y : S1024x257.Idx) :
    ∃ pc ∈ (kernelRun0_A c i arg2 harg2 arg3 harg3 arg4 harg4 arg5 harg5 hc0 x0 x1).2.1, y ∈ pc.1.set :=
  View.cover_of_tiledL (kernelRun0_A c i arg2 harg2 arg3 harg3 arg4 harg4 arg5 harg5 hc0 x0 x1).2.1 S1024x257.size (by sl_kernel_rfl) y

/-- What the reset case leaves in the scratch: its pieces read back. -/
def sout0_A_0 (c : Dev nD) (i : grid0.Coords) (arg2 : Memref sig .tc .vmem S1024x1024 .f32) (harg2 : arg2.IsWhole) (arg3 : Memref sig .tc .vmem S1024x257 .f32) (harg3 : arg3.IsWhole) (arg4 : Memref sig .tc .vmem S1024x257 .f32) (harg4 : arg4.IsWhole) (arg5 : Memref sig .tc .vmem S1024x257 .f32) (harg5 : arg5.IsWhole) (hc0 : cond0_0 i)
    (x0 : Vec F S1024x1024 .f32) (x1 : Vec F S1024x257 .f32) : Vec F S1024x257 .f32 :=
  VS0_0.read (Elt F) (VS0_0.writes (Elt F) VS0_0.junk (kernelRun0_A c i arg2 harg2 arg3 harg3 arg4 harg4 arg5 harg5 hc0 x0 x1).2.1)

/-- The pieces the accumulating case stores into the output tile cover it. -/
theorem cover0_B_2 (c : Dev nD) (i : grid0.Coords) (arg2 : Memref sig .tc .vmem S1024x1024 .f32) (harg2 : arg2.IsWhole) (arg3 : Memref sig .tc .vmem S1024x257 .f32) (harg3 : arg3.IsWhole) (arg4 : Memref sig .tc .vmem S1024x257 .f32) (harg4 : arg4.IsWhole) (arg5 : Memref sig .tc .vmem S1024x257 .f32) (harg5 : arg5.IsWhole) (hc0 : ¬cond0_0 i)
    (x0 : Vec F S1024x1024 .f32) (x1 : Vec F S1024x257 .f32) (xs0 : Vec F S1024x257 .f32) (y : S1024x257.Idx) :
    ∃ pc ∈ (kernelRun0_B c i arg2 harg2 arg3 harg3 arg4 harg4 arg5 harg5 hc0 x0 x1 xs0).1, y ∈ pc.1.set :=
  View.cover_of_tiledL (kernelRun0_B c i arg2 harg2 arg3 harg3 arg4 harg4 arg5 harg5 hc0 x0 x1 xs0).1 S1024x257.size (by sl_kernel_rfl) y

/-- What the accumulating case leaves in the output tile. -/
def out0_B_2 (c : Dev nD) (i : grid0.Coords) (arg2 : Memref sig .tc .vmem S1024x1024 .f32) (harg2 : arg2.IsWhole) (arg3 : Memref sig .tc .vmem S1024x257 .f32) (harg3 : arg3.IsWhole) (arg4 : Memref sig .tc .vmem S1024x257 .f32) (harg4 : arg4.IsWhole) (arg5 : Memref sig .tc .vmem S1024x257 .f32) (harg5 : arg5.IsWhole) (hc0 : ¬cond0_0 i)
    (x0 : Vec F S1024x1024 .f32) (x1 : Vec F S1024x257 .f32) (xs0 : Vec F S1024x257 .f32) : Vec F S1024x257 .f32 :=
  VO0_2.read (Elt F) (VO0_2.writes (Elt F) VO0_2.junk (kernelRun0_B c i arg2 harg2 arg3 harg3 arg4 harg4 arg5 harg5 hc0 x0 x1 xs0).1)

/-- The pieces the accumulating case stores into the scratch cover it. -/
theorem scover0_B_0 (c : Dev nD) (i : grid0.Coords) (arg2 : Memref sig .tc .vmem S1024x1024 .f32) (harg2 : arg2.IsWhole) (arg3 : Memref sig .tc .vmem S1024x257 .f32) (harg3 : arg3.IsWhole) (arg4 : Memref sig .tc .vmem S1024x257 .f32) (harg4 : arg4.IsWhole) (arg5 : Memref sig .tc .vmem S1024x257 .f32) (harg5 : arg5.IsWhole) (hc0 : ¬cond0_0 i)
    (x0 : Vec F S1024x1024 .f32) (x1 : Vec F S1024x257 .f32) (xs0 : Vec F S1024x257 .f32) (y : S1024x257.Idx) :
    ∃ pc ∈ (kernelRun0_B c i arg2 harg2 arg3 harg3 arg4 harg4 arg5 harg5 hc0 x0 x1 xs0).2.1, y ∈ pc.1.set :=
  View.cover_of_tiledL (kernelRun0_B c i arg2 harg2 arg3 harg3 arg4 harg4 arg5 harg5 hc0 x0 x1 xs0).2.1 S1024x257.size (by sl_kernel_rfl) y

/-- What the accumulating case leaves in the scratch. -/
def sout0_B_0 (c : Dev nD) (i : grid0.Coords) (arg2 : Memref sig .tc .vmem S1024x1024 .f32) (harg2 : arg2.IsWhole) (arg3 : Memref sig .tc .vmem S1024x257 .f32) (harg3 : arg3.IsWhole) (arg4 : Memref sig .tc .vmem S1024x257 .f32) (harg4 : arg4.IsWhole) (arg5 : Memref sig .tc .vmem S1024x257 .f32) (harg5 : arg5.IsWhole) (hc0 : ¬cond0_0 i)
    (x0 : Vec F S1024x1024 .f32) (x1 : Vec F S1024x257 .f32) (xs0 : Vec F S1024x257 .f32) : Vec F S1024x257 .f32 :=
  VS0_0.read (Elt F) (VS0_0.writes (Elt F) VS0_0.junk (kernelRun0_B c i arg2 harg2 arg3 harg3 arg4 harg4 arg5 harg5 hc0 x0 x1 xs0).2.1)

section Region0

variable (V : (c : Dev nD) → (b : Ref sig .tc) → Buf (Elt F) ((c : Thread nD τ).loc b))

/-! ## What the output tile and the scratch hold after each point -/

/-- THE ACCUMULATION.  What output window 2's staging buffer and the scratch hold after the body at position `n` (a pair,
    the output first): the case the point is in, run at the point's memrefs and input blocks — at a point whose reduction
    coordinate is not zero over what this leaves in the scratch at `n - 1`. -/
def outsAt0 (c : Dev nD) : (n : ℕ) → n < cfg0.N → Vec F S1024x257 .f32 × Vec F S1024x257 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (iblk0 V c 0 ⟨0, hn⟩) (iblk0 V c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (iblk0 V c 0 ⟨0, hn⟩) (iblk0 V c 1 ⟨0, hn⟩))
  | n + 1, hn =>
    if h0 : (n + 1) % 4 = 0 then
      (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (iblk0 V c 0 ⟨n + 1, hn⟩) (iblk0 V c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (iblk0 V c 0 ⟨n + 1, hn⟩) (iblk0 V c 1 ⟨n + 1, hn⟩))
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (iblk0 V c 0 ⟨n + 1, hn⟩) (iblk0 V c 1 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (iblk0 V c 0 ⟨n + 1, hn⟩) (iblk0 V c 1 ⟨n + 1, hn⟩) (outsAt0 c n (Nat.lt_of_succ_lt hn)).2)

/-- `outsAt0` at a point whose reduction coordinate is zero: the reset case's contents. -/
theorem outsAt0_A (c : Dev nD) (t : Fin cfg0.N) (h0 : t.val % 4 = 0) :
    outsAt0 V c t.val t.isLt = (out0_A_2 c (grid0.coords t) (ms0_0 t) (hs0_0 t) (ms0_1 t) (hs0_1 t) (ms0_2 t) (hs0_2 t) scM0_0 (Memref.isWhole_whole _) ((hcond0_0 t).mpr h0) (iblk0 V c 0 t) (iblk0 V c 1 t), sout0_A_0 c (grid0.coords t) (ms0_0 t) (hs0_0 t) (ms0_1 t) (hs0_1 t) (ms0_2 t) (hs0_2 t) scM0_0 (Memref.isWhole_whole _) ((hcond0_0 t).mpr h0) (iblk0 V c 0 t) (iblk0 V c 1 t)) := by
  obtain ⟨n, hn⟩ := t
  cases n with
  | zero => exact rfl
  | succ n => exact (dif_pos h0).trans rfl

/-- `outsAt0` at a point whose reduction coordinate is not zero: the accumulating case's contents, over what the point
    before left in the scratch. -/
theorem outsAt0_B (c : Dev nD) (t : Fin cfg0.N) (h0 : ¬t.val % 4 = 0) :
    outsAt0 V c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (iblk0 V c 0 t) (iblk0 V c 1 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) (fun h => h0 ((hcond0_0 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The region invariant -/

/-- The region invariant before position `n`: before the first point what the launch hands the region (the scratch at
    anything); afterwards the scratch at what the point before left in it, the core's other scoped buffers and the generator
    register as they were. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ rest0 (F := F) c) ∗ (∃ r, prngReg c r))

theorem PhiS0_zero (c : Dev nD) (n : ℕ) (h : n ≤ cfg0.N) (hz : n = 0) : PhiS0 V c n h = Pipeline.ΦA spec0 c := by
  subst hz; rfl

/-- After point `n` (before point `n + 1`): the scratch at that point's contents. -/
theorem PhiS0_succ (c : Dev nD) (n : ℕ) (hn : n < cfg0.N) :
    PhiS0 V c (n + 1) hn = iprop(iprop(owns (c : Thread nD τ) scM0_0 fullShare ((outsAt0 V c n hn).2) ∗ rest0 (F := F) c) ∗ (∃ r, prngReg c r)) := rfl

/-- Before a point that is not the first: the scratch at what the point before left. -/
theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ rest0 (F := F) c) ∗ (∃ r, prngReg c r)) := by
  cases n with
  | zero => exact absurd rfl hz
  | succ n => rfl

/-! ## The pipeline's proof data -/

/-- The proof data of this region's pipeline on core `c`: the arrays as the region finds them; after the body at point
    `t` each input's buffer still at its block and the output's at `outsAt0`'s first component; the invariant `PhiS0`;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

/-- The invariant at a point's start, restated at `t.val`. -/
theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t))

set_option maxHeartbeats 4800000 in
/-- The body at any point.  The inputs' memrefs hold their blocks; the point's reduction coordinate says which case it is
    in; the invariant hands the body the scratch — at anything at the first point, else at what the point before left — and
    takes it back at this point's contents; the output tile is taken at anything and handed back at this point's contents;
    the core's other buffers, the generator register and the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [after0_0, after0_1, after0_2]
  by_cases h0 : t.val % 4 = 0
  · rw [outsAt0_A V c t h0]
    unfold out0_A_2 sout0_A_0; (try dsimp only)
    by_cases hz : t.val = 0
    · rw [PhiS0_castSucc V c t, PhiS0_zero V c _ _ hz, PhiA0_eq]
      iintro ⟨⟨⟨HS0, Hr⟩, Hg⟩, Ho, ⟨%d0, H0⟩, ⟨%d1, H1⟩, ⟨%d2, H2⟩⟩
      iapply ((kernelRun0_A c (grid0.coords t) _ _ _ _ _ _ _ _ ((hcond0_0 t).mpr h0) (iblk0 V c 0 t) (iblk0 V c 1 t)).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_A_0 c _ _ _ _ _ _ _ _ _ _ _ _)
          iexact Hr
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_A_2 c _ _ _ _ _ _ _ _ _ _ _ _)
    · rw [PhiS0_castSucc V c t, PhiS0_pos V c _ _ hz]
      iintro ⟨⟨⟨HS0, Hr⟩, Hg⟩, Ho, ⟨%d0, H0⟩, ⟨%d1, H1⟩, ⟨%d2, H2⟩⟩
      iapply ((kernelRun0_A c (grid0.coords t) _ _ _ _ _ _ _ _ ((hcond0_0 t).mpr h0) (iblk0 V c 0 t) (iblk0 V c 1 t)).2.2 Set.univ _)
      isplitl [H0]; · iexact H0
      isplitl [H1]; · iexact H1
      isplitl [H2]; · iexists _; iexact H2
      isplitl [HS0]; · iexists _; iexact HS0
      iintro ⟨H0, H1, ⟨%e2, H2⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_A_0 c _ _ _ _ _ _ _ _ _ _ _ _)
          iexact Hr
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_A_2 c _ _ _ _ _ _ _ _ _ _ _ _)
  · have hz : t.val ≠ 0 := fun h => h0 (by rw [h])
    rw [outsAt0_B V c t h0]
    unfold out0_B_2 sout0_B_0; (try dsimp only)
    rw [PhiS0_castSucc V c t, PhiS0_pos V c _ _ hz]
    iintro ⟨⟨⟨HS0, Hr⟩, Hg⟩, Ho, ⟨%d0, H0⟩, ⟨%d1, H1⟩, ⟨%d2, H2⟩⟩
    iapply ((kernelRun0_B c (grid0.coords t) _ _ _ _ _ _ _ _ (fun h => h0 ((hcond0_0 t).mp h)) (iblk0 V c 0 t) (iblk0 V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover0_B_0 c _ _ _ _ _ _ _ _ _ _ _ _ _)
        iexact Hr
      iexact Hg
    isplitl [Ho]; · iexact Ho
    isplitl [H0]; · iexact H0
    isplitl [H1]; · iexact H1
    unfold owns; iexists _; isplitr
    swap; · iexact H2
    ipureintro; exact View.read_writes_of_cover _ _ _ _ _ (cover0_B_2 c _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the launch's back: the scratch's named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, Hr⟩, Hg⟩
  isplitl [HS0 Hr]
  · isplitl [HS0]
    · iexists _; iexact HS0
    iexact Hr
  iexact Hg

/-- The same after the last point. -/
theorem hout0 (c : Dev nD) : (dat0 V c).Φ (Fin.last cfg0.N) ⊢ Pipeline.ΦA spec0 c :=
  Phi_out0 V c _ (by rw [Fin.val_last]; have : cfg0.N = 32 := N_0; omega)

end Region0

end Cert.KernelIdeal.Hand

end
-- ==== Proof.R1Frame.lean ====
/- Region 1 of the program (the second kernel launch): the prototype update.  At grid point ci the body reads a
   512 × 256 block of the prototypes P and, whole, the 512 head rows, the two weight matrices and the two biases; it
   computes attention scores of the block's rows against the head rows, their softmax, the attended rows added to the
   block, and a two-layer perceptron with a rectifier in between, and stores the 512 × 257 result block.  Nothing is
   carried from one grid point to the next.  Stated here, at any float instance and at ANY contents `V` of the core's
   buffers when the region is entered: what the body leaves in the output block as one pure function of the six input
   blocks, the body's Hoare triple, the pipeline's proof data, and the per-point body obligation. -/
import proofs.«418715_j4389456576871_1_alg».proof.Proof.Gen.KernelIdeal.Launch
import proofs.«418715_j4389456576871_1_alg».proof.Proof.Gen.KernelIdeal.Skeleton
import proofs.«418715_j4389456576871_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window `w`'s block at grid point `t`, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds that window's block at every grid point, whether the pipeline
    fetched it at this point or kept it from an earlier one (the block index did not move). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the body loads and stores through. -/
abbrev rP1 : Rect S512x256 := Rect.unit (s := S512x256) ![0, 0] S512x256.size inb_S512x256_S512x256_0_0
abbrev rB1 : Rect S512 := Rect.unit (s := S512) ![0] S512.size inb_S512_S512_0
abbrev rW1 : Rect S257x512 := Rect.unit (s := S257x512) ![0, 0] S257x512.size inb_S257x512_S257x512_0_0
abbrev rC1 : Rect S257 := Rect.unit (s := S257) ![0] S257.size inb_S257_S257_0
abbrev rO1 : Rect S512x257 := Rect.unit (s := S512x257) ![0, 0] S512x257.size inb_S512x257_S512x257_0_0

/-- What the body leaves in the output block, from the six input blocks: its single whole-block store. -/
def out1_6 (x0 : Vec F S512x256 .f32) (x1 : Vec F S512x256 .f32) (x2 : Vec F S512x256 .f32) (x3 : Vec F S512 .f32)
    (x4 : Vec F S257x512 .f32) (x5 : Vec F S257 .f32) : Vec F S512x257 .f32 :=
  View.canon [⟨rO1, k1_pay1 (k1_pay2 (View.ld x0 rP1) (View.ld x1 rP1) (View.ld x2 rP1) (View.ld x3 rB1) (View.ld x4 rW1)) (k1_pay3 (View.ld x5 rC1))⟩]

/-- That one store covers the block. -/
theorem cover1_6 (p0 : Vec F S512x257 .f32) (y : S512x257.Idx) :
    ∃ pc ∈ ([⟨rO1, p0⟩] : List (View.Piece (Elt F) S512x257 .f32)), y ∈ pc.1.set :=
  View.cover_of_tiled [⟨rO1, p0⟩] S512x257.size (by rfl) y

set_option maxHeartbeats 2000000 in
/-- The body's triple: on whole staging memrefs, the six inputs at contents `x0 … x5` and the output at anything, the
    body runs to its end leaving the inputs as they were and the output at `out1_6 x0 … x5`. -/
theorem sound_kernel1 (c : Dev nD) (E : Set ℕ) (i : grid1.Coords) (arg1 : Memref sig .tc .vmem S512x256 .f32) (harg1 : arg1.IsWhole)
    (arg2 : Memref sig .tc .vmem S512x256 .f32) (harg2 : arg2.IsWhole) (arg3 : Memref sig .tc .vmem S512x256 .f32) (harg3 : arg3.IsWhole)
    (arg4 : Memref sig .tc .vmem S512 .f32) (harg4 : arg4.IsWhole) (arg5 : Memref sig .tc .vmem S257x512 .f32) (harg5 : arg5.IsWhole)
    (arg6 : Memref sig .tc .vmem S257 .f32) (harg6 : arg6.IsWhole) (arg7 : Memref sig .tc .vmem S512x257 .f32) (harg7 : arg7.IsWhole)
    (x0 : Vec F S512x256 .f32) (x1 : Vec F S512x256 .f32) (x2 : Vec F S512x256 .f32) (x3 : Vec F S512 .f32)
    (x4 : Vec F S257x512 .f32) (x5 : Vec F S257 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out1_6 x0 x1 x2 x3 x4 x5)) -∗ K ⟨⟩))
      ⊢ wp frame (wpE (defs₀ (F := F)) Variants.none c none) E
          (cc1__proto_update_kernel i arg1 harg1 arg2 harg2 arg3 harg3 arg4 harg4 arg5 harg5 arg6 harg6 arg7 harg7) K := by
  simp only [cc1__proto_update_kernel_eq_skeleton]; unfold cc1__proto_update_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-- The proof data of this region's pipeline on core `c`: the arrays as the region finds them; after the body at point
    `t` each input's buffer still at its block and the output's at `out1_6` of the input blocks; the invariant is the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) :
    (dat1 V c).after 6 t = out1_6 (iblk1 V c 0 t) (iblk1 V c 1 t) (iblk1 V c 2 t) (iblk1 V c 3 t) (iblk1 V c 4 t) (iblk1 V c 5 t) := by
  dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' memrefs hold their blocks, so the triple applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.R2Frame.lean ====
/- Region 2 of the program (the third kernel launch): the logits tile.  At a grid point (bi, ci) the body reads a
   1024 × 256 block of z, a 1024 × 256 block of the weight rows W and a 1024-vector of the bias, and stores into its
   1024 × 1024 output tile the matrix product  z_blk · W_blkᵀ  plus the bias broadcast along rows.  Nothing is carried
   from one grid point to the next.  Stated here, at any float instance and at ANY contents `V` of the core's buffers
   when the region is entered: what the body leaves in the output tile as one pure function of the three input blocks,
   the body's Hoare triple, the pipeline's proof data, and the per-point body obligation. -/
import proofs.«418715_j4389456576871_1_alg».proof.Proof.Gen.KernelIdeal.Launch
import proofs.«418715_j4389456576871_1_alg».proof.Proof.Gen.KernelIdeal.Skeleton
import proofs.«418715_j4389456576871_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2

variable (V : (c : Dev nD) → (b : Ref sig .tc) → Buf (Elt F) ((c : Thread nD τ).loc b))

/-- Window `w`'s block at grid point `t`, read off the window's array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds that window's block at every grid point, whether the pipeline
    fetched it at this point or kept it from an earlier one (the block index did not move). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The whole-buffer rectangles the body loads and stores through. -/
abbrev rZ2 : Rect S1024x256 := Rect.unit (s := S1024x256) ![0, 0] S1024x256.size inb_S1024x256_S1024x256_0_0
abbrev rB2 : Rect S1024 := Rect.unit (s := S1024) ![0] S1024.size inb_S1024_S1024_0
abbrev rO2 : Rect S1024x1024 := Rect.unit (s := S1024x1024) ![0, 0] S1024x1024.size inb_S1024x1024_S1024x1024_0_0

/-- What the body leaves in the output tile, from the three input blocks: its single whole-tile store. -/
def out2_3 (x0 : Vec F S1024x256 .f32) (x1 : Vec F S1024x256 .f32) (x2 : Vec F S1024 .f32) : Vec F S1024x1024 .f32 :=
  View.canon [⟨rO2, k2_pay1 (View.ld x0 rZ2) (View.ld x1 rZ2) (View.ld x2 rB2)⟩]

/-- That one store covers the tile. -/
theorem cover2_3 (p0 : Vec F S1024x1024 .f32) (y : S1024x1024.Idx) :
    ∃ pc ∈ ([⟨rO2, p0⟩] : List (View.Piece (Elt F) S1024x1024 .f32)), y ∈ pc.1.set :=
  View.cover_of_tiled [⟨rO2, p0⟩] S1024x1024.size (by rfl) y

set_option maxHeartbeats 1000000 in
/-- The body's triple: on whole staging memrefs, the three inputs at contents `x0 x1 x2` and the output at anything, the
    body runs to its end leaving the inputs as they were and the output at `out2_3 x0 x1 x2`. -/
theorem sound_kernel2 (c : Dev nD) (E : Set ℕ) (i : grid2.Coords) (arg2 : Memref sig .tc .vmem S1024x256 .f32) (harg2 : arg2.IsWhole)
    (arg3 : Memref sig .tc .vmem S1024x256 .f32) (harg3 : arg3.IsWhole) (arg4 : Memref sig .tc .vmem S1024 .f32) (harg4 : arg4.IsWhole)
    (arg5 : Memref sig .tc .vmem S1024x1024 .f32) (harg5 : arg5.IsWhole)
    (x0 : Vec F S1024x256 .f32) (x1 : Vec F S1024x256 .f32) (x2 : Vec F S1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out2_3 x0 x1 x2)) -∗ K ⟨⟩))
      ⊢ wp frame (wpE (defs₀ (F := F)) Variants.none c none) E (cc2__logits_kernel i arg2 harg2 arg3 harg3 arg4 harg4 arg5 harg5) K := by
  simp only [cc2__logits_kernel_eq_skeleton]; unfold cc2__logits_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The proof data of this region's pipeline on core `c`: the arrays as the region finds them; after the body at point
    `t` each input's buffer still at its block and the output's at `out2_3` of the input blocks; the invariant is the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so the triple applies; the invariant and the core's
    dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Region2

end Cert.KernelIdeal.Hand

end
-- ==== Proof.Run.lean ====
/- The run of the whole program, at any float instance: the main function is host operations, region 0, host
   operations, region 1, host operations, region 2.  The contents of the core's buffers are followed from the launch
   memory through every one of these nine items (a stretch of host operations applies its operations in order; a region
   leaves its input arrays as it found them and its output array at what the pipeline's write-backs fold into it), and
   every weakly fair execution is shown to terminate, faulting nowhere, with every unscoped buffer at the last of these
   contents.  Two readings of that last state follow: the nine argument arrays hold what they held at launch, and the
   result array holds what region 2's write-backs leave. -/
import proofs.«418715_j4389456576871_1_alg».proof.Proof.Gen.KernelIdeal.Launch
import proofs.«418715_j4389456576871_1_alg».proof.Proof.Gen.KernelIdeal.Skeleton
import proofs.«418715_j4389456576871_1_alg».proof.Proof.Gen.KernelIdeal.Points
import proofs.«418715_j4389456576871_1_alg».proof.Proof.Gen.KernelIdeal.Regions
import proofs.«418715_j4389456576871_1_alg».proof.Proof.R0Frame
import proofs.«418715_j4389456576871_1_alg».proof.Proof.R1Frame
import proofs.«418715_j4389456576871_1_alg».proof.Proof.R2Frame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- At launch. -/
abbrev W0 : Dev nD → Valuation τ sig (Elt F) := fun c b => m (c, b)
/-- After the first host stretch: region 0's entry. -/
abbrev W1 : Dev nD → Valuation τ sig (Elt F) := fun c => StableHlo.after hostOps0 (W0 m c)
abbrev U1 : (c : Dev nD) → (b : Ref sig .tc) → Buf (Elt F) ((c : Thread nD τ).loc b) := fun c b => W1 m c b

/-- At region 0's exit: its arrays at what the pipeline leaves (an input as entered, the output with its write-backs
    folded in), every other buffer as entered. -/
def W2 (c : Dev nD) : Valuation τ sig (Elt F) :=
  Pipeline.withArrays spec0 c (W1 m c) fun w => (dat0 (U1 m) c).arrAt w cfg0.N
theorem W2_arr (c : Dev nD) (w : Fin cfg0.W) :
    W2 m c (Proc.devRef .tc (Pipeline.arrRef spec0 w)) = (dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the core's references. -/
abbrev U2 : (c : Dev nD) → (b : Ref sig .tc) → Buf (Elt F) ((c : Thread nD τ).loc b) := fun c b => W2 m c b
theorem hF0 (c : Dev nD) (w : Fin cfg0.W) : (dat0 (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)

/-- After the four host stretches between regions 0 and 1 (the class means, the updated prototypes, the gathered head
    rows): region 1's entry. -/
abbrev W3 : Dev nD → Valuation τ sig (Elt F) := fun c => StableHlo.after hostOps1 (W2 m c)
abbrev W4 : Dev nD → Valuation τ sig (Elt F) := fun c => StableHlo.after hostOps1_1 (W3 m c)
abbrev W5 : Dev nD → Valuation τ sig (Elt F) := fun c => StableHlo.after hostOps1_2 (W4 m c)
abbrev W6 : Dev nD → Valuation τ sig (Elt F) := fun c => StableHlo.after hostOps1_3 (W5 m c)
abbrev U6 : (c : Dev nD) → (b : Ref sig .tc) → Buf (Elt F) ((c : Thread nD τ).loc b) := fun c b => W6 m c b

/-- At region 1's exit: its arrays at what the pipeline leaves (an input as entered, the output with its write-backs
    folded in), every other buffer as entered. -/
def W7 (c : Dev nD) : Valuation τ sig (Elt F) :=
  Pipeline.withArrays spec1 c (W6 m c) fun w => (dat1 (U6 m) c).arrAt w cfg1.N
theorem W7_arr (c : Dev nD) (w : Fin cfg1.W) :
    W7 m c (Proc.devRef .tc (Pipeline.arrRef spec1 w)) = (dat1 (U6 m) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m c (Proc.devRef .tc b) = W6 m c (Proc.devRef .tc b) := by
  unfold W7; exact Pipeline.withArrays_of_ne spec1 c _ _ b hb
/-- The same read at the core's references. -/
abbrev U7 : (c : Dev nD) → (b : Ref sig .tc) → Buf (Elt F) ((c : Thread nD τ).loc b) := fun c b => W7 m c b
theorem hF1 (c : Dev nD) (w : Fin cfg1.W) : (dat1 (U6 m) c).arrAt w cfg1.N = U7 m c (Pipeline.arrRef spec1 w) :=
  (W7_arr m c w).symm
theorem hrest1 (c : Dev nD) : ∀ b, b ∉ Finset.univ.image (Pipeline.arrRef spec1) → U7 m c b = U6 m c b :=
  fun b hb => W7_of_ne m c b fun w e => hb (Finset.mem_image.mpr ⟨w, Finset.mem_univ _, e⟩)

/-- After the host stretch between regions 1 and 2 (the weight columns and the bias column cut out): region 2's entry. -/
abbrev W8 : Dev nD → Valuation τ sig (Elt F) := fun c => StableHlo.after hostOps2 (W7 m c)
abbrev U8 : (c : Dev nD) → (b : Ref sig .tc) → Buf (Elt F) ((c : Thread nD τ).loc b) := fun c b => W8 m c b

/-- At region 2's exit: its arrays at what the pipeline leaves (an input as entered, the output with its write-backs
    folded in), every other buffer as entered. -/
def W9 (c : Dev nD) : Valuation τ sig (Elt F) :=
  Pipeline.withArrays spec2 c (W8 m c) fun w => (dat2 (U8 m) c).arrAt w cfg2.N
theorem W9_arr (c : Dev nD) (w : Fin cfg2.W) :
    W9 m c (Proc.devRef .tc (Pipeline.arrRef spec2 w)) = (dat2 (U8 m) c).arrAt w cfg2.N := by
  unfold W9; exact Pipeline.withArrays_arr spec2 launch2.win.arr_inj c _ _ w
theorem W9_of_ne (c : Dev nD) (b : Ref sig .tc) (hb : ∀ w, Pipeline.arrRef spec2 w ≠ b) :
    W9 m c (Proc.devRef .tc b) = W8 m c (Proc.devRef .tc b) := by
  unfold W9; exact Pipeline.withArrays_of_ne spec2 c _ _ b hb
/-- The same read at the core's references. -/
abbrev U9 : (c : Dev nD) → (b : Ref sig .tc) → Buf (Elt F) ((c : Thread nD τ).loc b) := fun c b => W9 m c b
theorem hF2 (c : Dev nD) (w : Fin cfg2.W) : (dat2 (U8 m) c).arrAt w cfg2.N = U9 m c (Pipeline.arrRef spec2 w) :=
  (W9_arr m c w).symm
theorem hrest2 (c : Dev nD) : ∀ b, b ∉ Finset.univ.image (Pipeline.arrRef spec2) → U9 m c b = U8 m c b :=
  fun b hb => W9_of_ne m c b fun w e => hb (Finset.mem_image.mpr ⟨w, Finset.mem_univ _, e⟩)

/-! ## A buffer no item writes keeps its launch contents -/

/-- A region changes only its output array: an input array is put back as found, any other buffer bypasses it. -/
theorem W2_keep (c : Dev nD) (b : Ref sig .tc) (hb : b ≠ main_v2) : W2 m c (Proc.devRef .tc b) = W1 m c (Proc.devRef .tc b) := by
  by_cases h0 : b = main_arg1
  · subst h0; exact (W2_arr m c 0).trans (((dat0 (U1 m) c).arrAt_in 0 rfl _).trans (A_eq0 (U1 m) c 0))
  by_cases h1 : b = main_v1
  · subst h1; exact (W2_arr m c 1).trans (((dat0 (U1 m) c).arrAt_in 1 rfl _).trans (A_eq0 (U1 m) c 1))
  exact W2_of_ne m c b fun w => by
    fin_cases w
    · exact Ne.symm h0
    · exact Ne.symm h1
    · exact Ne.symm hb
theorem W7_keep (c : Dev nD) (b : Ref sig .tc) (hb : b ≠ main_v23) : W7 m c (Proc.devRef .tc b) = W6 m c (Proc.devRef .tc b) := by
  by_cases h0 : b = main_v21
  · subst h0; exact (W7_arr m c 0).trans (((dat1 (U6 m) c).arrAt_in 0 rfl _).trans (A_eq1 (U6 m) c 0))
  by_cases h1 : b = main_v22
  · subst h1; exact (W7_arr m c 1).trans (((dat1 (U6 m) c).arrAt_in 1 rfl _).trans (A_eq1 (U6 m) c 1))
  by_cases h2 : b = main_arg5
  · subst h2; exact (W7_arr m c 2).trans (((dat1 (U6 m) c).arrAt_in 2 rfl _).trans (A_eq1 (U6 m) c 2))
  by_cases h3 : b = main_arg6
  · subst h3; exact (W7_arr m c 3).trans (((dat1 (U6 m) c).arrAt_in 3 rfl _).trans (A_eq1 (U6 m) c 3))
  by_cases h4 : b = main_arg7
  · subst h4; exact (W7_arr m c 4).trans (((dat1 (U6 m) c).arrAt_in 4 rfl _).trans (A_eq1 (U6 m) c 4))
  by_cases h5 : b = main_arg8
  · subst h5; exact (W7_arr m c 5).trans (((dat1 (U6 m) c).arrAt_in 5 rfl _).trans (A_eq1 (U6 m) c 5))
  exact W7_of_ne m c b fun w => by
    fin_cases w
    · exact Ne.symm h0
    · exact Ne.symm h1
    · exact Ne.symm h2
    · exact Ne.symm h3
    · exact Ne.symm h4
    · exact Ne.symm h5
    · exact Ne.symm hb
theorem W9_keep (c : Dev nD) (b : Ref sig .tc) (hb : b ≠ main_v27) : W9 m c (Proc.devRef .tc b) = W8 m c (Proc.devRef .tc b) := by
  by_cases h0 : b = main_arg0
  · subst h0; exact (W9_arr m c 0).trans (((dat2 (U8 m) c).arrAt_in 0 rfl _).trans (A_eq2 (U8 m) c 0))
  by_cases h1 : b = main_v24
  · subst h1; exact (W9_arr m c 1).trans (((dat2 (U8 m) c).arrAt_in 1 rfl _).trans (A_eq2 (U8 m) c 1))
  by_cases h2 : b = main_v26
  · subst h2; exact (W9_arr m c 2).trans (((dat2 (U8 m) c).arrAt_in 2 rfl _).trans (A_eq2 (U8 m) c 2))
  exact W9_of_ne m c b fun w => by
    fin_cases w
    · exact Ne.symm h0
    · exact Ne.symm h1
    · exact Ne.symm h2
    · exact Ne.symm hb

/-- A buffer that no host stretch writes and that is no region's output array ends holding its launch contents. -/
theorem W9_of_launch (c : Dev nD) (r : Ref sig .tc) (h0 : r ∉ hostOps0_W) (h1 : r ∉ hostOps1_W) (h2 : r ∉ hostOps1_1_W)
    (h3 : r ∉ hostOps1_2_W) (h4 : r ∉ hostOps1_3_W) (h5 : r ∉ hostOps2_W) (ha : r ≠ main_v2) (hb : r ≠ main_v23) (hc : r ≠ main_v27) :
    W9 m c (Proc.devRef .tc r) = m ((c : Thread nD τ).loc r) :=
  (W9_keep m c r hc).trans <| (StableHlo.after_of_writes_sub hostOps2 _ hostOps2_writes h5).trans <|
    (W7_keep m c r hb).trans <| (StableHlo.after_of_writes_sub hostOps1_3 _ hostOps1_3_writes h4).trans <|
    (StableHlo.after_of_writes_sub hostOps1_2 _ hostOps1_2_writes h3).trans <|
    (StableHlo.after_of_writes_sub hostOps1_1 _ hostOps1_1_writes h2).trans <|
    (StableHlo.after_of_writes_sub hostOps1 _ hostOps1_writes h1).trans <|
    (W2_keep m c r ha).trans <| (StableHlo.after_of_writes_sub hostOps0 _ hostOps0_writes h0).trans rfl

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (U1 m) c
  | ⟨1, _⟩ => fun c => dat1 (U6 m) c
  | ⟨2, _⟩ => fun c => dat2 (U8 m) c
/-- No core owes another anything: no level is assigned. -/
abbrev Lz : GSem nD τ sig → Finset Unit := fun _ => ∅
abbrev lvz : GSem nD τ sig → Unit → ℕ := fun _ _ => 0
/-- What rides beside the buffers through every item: the generator register at some state and the core owing nothing. -/
abbrev Rr (c : Dev nD) : sProp 𝕄 := iprop((∃ r, prngReg c r) ∗ ∃ W, owes (c : Thread nD τ) (0 : CellTallies nD τ sig Unit) W)
/-- A host stretch as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none Lz lvz :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register at some state. -/
abbrev Tn (c : Dev nD) : sProp 𝕄 := iprop(StableHlo.held (c : Thread nD τ) (Pipeline.ucRefs τ sig) (W9 m c) ∗ ∃ r, prngReg c r)

/-! ## The regions as segments -/

set_option backward.isDefEq.respectTransparency.types false in
/-- Region 0 as a segment of the program: entered with every unscoped buffer of the core at the contents `W1`, left
    with them at `W2`.  The region's arrays are split out of the unscoped buffers at entry and put back, at what the
    pipeline's write-backs leave, at exit; the generator register goes into the region's invariant and comes back;
    nothing is owed; the kernel has no semaphore of its own. -/
def reg0 : Pipeline.RegionSeg (pcfgs (F := F)) adm (pdats m) () defs₀ Variants.none Lz lvz 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ Lz lvz 0 fun _ _ => rfl
  pre c := iprop(StableHlo.held (c : Thread nD τ) (Pipeline.ucRefs τ sig) (W1 m c) ∗ Rr c)
  post c := iprop(StableHlo.held (c : Thread nD τ) (Pipeline.ucRefs τ sig) (W2 m c) ∗ Rr c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 0).pre c (fun _ => fullShare) (adm (F := F) 0).1
        ∗ Pipeline.scopedRest (Pipeline.pin (pcfgs (F := F)) adm 0).spec c) ⊢ (Pipeline.ΦA spec0 c : sProp 𝕄) := by
      unfold Pipeline.ΦA
      iintro ⟨Hp, -, Hr⟩
      isplitl [Hr]; · iexact Hr
      iexact Hp
    exact h.trans (hin0 (U1 m) c)
  hout c := by
    rw [Pipeline.ownSems0_none]
    have h : (Pipeline.ΦA spec0 c : sProp 𝕄) ⊢ iprop((∃ r, prngReg c r) ∗ BI.emp
        ∗ Pipeline.scopedRest (Pipeline.pin (pcfgs (F := F)) adm 0).spec c) := by
      unfold Pipeline.ΦA
      iintro ⟨Hr, Hp⟩
      isplitl [Hp]; · iexact Hp
      isplitr; · iempintro
      iexact Hr
    exact (hout0 (U1 m) c).trans h
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment of the program: entered with every unscoped buffer of the core at the contents `W6`, left
    with them at `W7`.  The region's arrays are split out of the unscoped buffers at entry and put back, at what the
    pipeline's write-backs leave, at exit; the generator register goes into the region's invariant and comes back;
    nothing is owed; the kernel has no semaphore of its own. -/
def reg1 : Pipeline.RegionSeg (pcfgs (F := F)) adm (pdats m) () defs₀ Variants.none Lz lvz 1 where
  win := launch1.win.to₀
  block_pos := launch1.block_pos
  stage_whole := launch1.stage_whole
  K := PEmpty
  osem k := k.elim
  ho := Pipeline.OwnSemFacts.none _
  hbody c := (body_obligation1 (U6 m) c).loose
  hwaits := Pipeline.hwaits_of_owed_zero _ _ _ _ Lz lvz 1 fun _ _ => rfl
  pre c := iprop(StableHlo.held (c : Thread nD τ) (Pipeline.ucRefs τ sig) (W6 m c) ∗ Rr c)
  post c := iprop(StableHlo.held (c : Thread nD τ) (Pipeline.ucRefs τ sig) (W7 m c) ∗ Rr c)
  X c := iprop(∃ r, prngReg c r)
  Y c := iprop(∃ r, prngReg c r)
  Z c := Pipeline.unscopedRest (Ix := Unit) (Name := ℕ) (U := UR sig nD τ) (Lvl := ℕ) spec1 c (U6 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U6 m c) (U7 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment of the program: entered with every unscoped buffer of the core at the contents `W8`, left
    with them at `W9`.  The region's arrays are split out of the unscoped buffers at entry and put back, at what the
    pipeline's write-backs leave, at exit; the generator register goes into the region's invariant and comes back;
    nothing is owed; the kernel has no semaphore of its own. -/
def reg2 : Pipeline.RegionSeg (pcfgs (F := F)) adm (pdats m) () defs₀ Variants.none Lz lvz 2 where
  win := launch2.win.to₀
  block_pos := launch2.block_pos
  stage_whole := launch2.stage_whole
  K := PEmpty
  osem k := k.elim
  ho := Pipeline.OwnSemFacts.none _
  hbody c := (body_obligation2 (U8 m) c).loose
  hwaits := Pipeline.hwaits_of_owed_zero _ _ _ _ Lz lvz 2 fun _ _ => rfl
  pre c := iprop(StableHlo.held (c : Thread nD τ) (Pipeline.ucRefs τ sig) (W8 m c) ∗ Rr c)
  post c := iprop(Tn m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (U8 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (U8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (U8 m c) (U9 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The main function as segments, and the launch -/

abbrev msegs : List (Pipeline.Seg (pcfgs (F := F)) adm (pdats m) () defs₀ Variants.none Lz lvz) :=
  [ .host (hseg hostOps0 hostOps0_sub hostOps0_fresh (W0 m)),
    .region (reg0 m),
    .host (hseg hostOps1 hostOps1_sub hostOps1_fresh (W2 m)),
    .host (hseg hostOps1_1 hostOps1_1_sub hostOps1_1_fresh (W3 m)),
    .host (hseg hostOps1_2 hostOps1_2_sub hostOps1_2_fresh (W4 m)),
    .host (hseg hostOps1_3 hostOps1_3_sub hostOps1_3_fresh (W5 m)),
    .region (reg1 m),
    .host (hseg hostOps2 hostOps2_sub hostOps2_fresh (W7 m)),
    .region (reg2 m) ]
theorem main_run (c : Dev nD) : main (F := F) c = Pipeline.Seg.run (msegs m) := (main_chain c).trans (by chain_rfl)

set_option backward.isDefEq.respectTransparency.types false in
/-- THE RUN: from any memory with zero counters, every weakly fair execution of the program on the cores terminates,
    nothing faulting, and every final state holds every unscoped buffer at the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W9 m c b) :=
  Pipeline.θ_run_regions_kit (pcfgs (F := F)) adm (pdats m) () cellOf_inj emb₁ defs₀ Variants.none Lz lvz m ρ main (msegs m)
    (fun c Q => by rw [main_run m c])
    (by simp only [msegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rr c)) (Tₙ := Tn m)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach Lz lvz fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨⟨Hh, -⟩, HSI⟩
      unfold StableHlo.held
      imodintro
      iapply (pointsTo_read_all (Pipeline.ucRefs τ sig) (fun b => (((c : Thread nD τ)).1, b)) (W9 m c) s')
      isplitl [Hh] <;> iassumption)
    (hQ := fun s h c => h c)

/-- What the result array holds at the end: what region 2's write-backs leave in it. -/
theorem W9_result (c : Dev nD) : W9 m c (Proc.devRef .tc main_v27) = (dat2 (U8 m) c).arrAt 3 cfg2.N := W9_arr m c 3

/-- THE RUN, read at the result and the arguments: every execution ends with the result array at region 2's final
    contents and the nine argument arrays as launched. -/
theorem run_main (ρ : Dev nD → PrngReg) : θ_run defs (onTc (τ := τ) (main (F := F))) ⟨m, fun _ => 0, ρ⟩ (fun r => ∀ c : Dev nD,
      r.2.mem ((c.tc : Thread nD τ).loc main_v27) = (dat2 (U8 m) c).arrAt 3 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_v27 (by decide))).trans (W9_result m c),
     (h c _ (mem_uc main_arg0 (by decide))).trans (W9_of_launch m c main_arg0 (by decide) (by decide) (by decide) (by decide) (by decide) (by decide) (by decide) (by decide) (by decide)),
     (h c _ (mem_uc main_arg1 (by decide))).trans (W9_of_launch m c main_arg1 (by decide) (by decide) (by decide) (by decide) (by decide) (by decide) (by decide) (by decide) (by decide)),
     (h c _ (mem_uc main_arg2 (by decide))).trans (W9_of_launch m c main_arg2 (by decide) (by decide) (by decide) (by decide) (by decide) (by decide) (by decide) (by decide) (by decide)),
     (h c _ (mem_uc main_arg3 (by decide))).trans (W9_of_launch m c main_arg3 (by decide) (by decide) (by decide) (by decide) (by decide) (by decide) (by decide) (by decide) (by decide)),
     (h c _ (mem_uc main_arg4 (by decide))).trans (W9_of_launch m c main_arg4 (by decide) (by decide) (by decide) (by decide) (by decide) (by decide) (by decide) (by decide) (by decide)),
     (h c _ (mem_uc main_arg5 (by decide))).trans (W9_of_launch m c main_arg5 (by decide) (by decide) (by decide) (by decide) (by decide) (by decide) (by decide) (by decide) (by decide)),
     (h c _ (mem_uc main_arg6 (by decide))).trans (W9_of_launch m c main_arg6 (by decide) (by decide) (by decide) (by decide) (by decide) (by decide) (by decide) (by decide) (by decide)),
     (h c _ (mem_uc main_arg7 (by decide))).trans (W9_of_launch m c main_arg7 (by decide) (by decide) (by decide) (by decide) (by decide) (by decide) (by decide) (by decide) (by decide)),
     (h c _ (mem_uc main_arg8 (by decide))).trans (W9_of_launch m c main_arg8 (by decide) (by decide) (by decide) (by decide) (by decide) (by decide) (by decide) (by decide) (by decide))⟩)
    (run_all m ρ)

/-- THE FRAME: every execution terminates, nothing faulting, with the nine argument arrays as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => (h c).2) (run_main m ρ)

end Cert.KernelIdeal.Hand

end
-- ==== Proof.Take.lean ====
/- The head rows' selection.  The kernel's program takes 512 rows out of the 8192 × 256 prototypes at indices that it
   first wraps (an index below 0 has 8192 added); it then FILLS with a NaN pattern every row whose wrapped index lies
   outside [0, 8191], and otherwise keeps the gathered row: a gather, a mask, a select.  The reference gathers at the
   same wrapped indices with no mask.  When every head id i satisfies -8192 ≤ i < 8192 — the last conjunct of the
   precondition — the wrapped index is i + 8192 ∈ [0, 8191] for i < 0 and i ∈ [0, 8191] otherwise, so the mask is
   all ones and the select returns the gather.  Stated here: the wrapped indices and the masked take as pure
   functions of the prototypes and the ids, the range of the ids read back from the precondition, and the equality
   of the masked take with the plain gather under that range. -/
import proofs.«418715_j4389456576871_1_alg».proof.Proof.Gen.KernelIdeal
import proofs.«418715_j4389456576871_1_alg».proof.Proof.Gen.Pre_finite_inputs
import Idealize.ShloMosaic.Lib.StableHlo.Predicate
import Idealize.ShloMosaic.Lib.ReduceAll
import Idealize.ShloMosaic.Lib.ValueIdx
import Idealize.ShloMosaic.PureOps.Ideal

noncomputable section

namespace Cert.KernelIdeal.TakeVal

open Cert.KernelIdeal Idealize.ShloMosaic Idealize.ShloMosaic.ValueIdx
open Cert.KernelIdeal.Facts₀ Cert.KernelIdeal.Facts

variable {F : FTy → Type} [FloatOps F]

/-! ## The two programs' row selection -/

/-- the wrapped start indices, as a 512 x 1 column: select (ids < 0) (ids + 8192) ids, broadcast along a new unit axis -/
def wrapIdx (ids : IVec S512 32) : IVec S512x1 32 :=
  broadcastInDim S512x1 ![0] bcast_S512_S512x1_0 (select (cmpi .slt ids (broadcastInDim S512 ![] bcast_S_S512 (constantI S_ 32 0#32))) (addi ids (broadcastInDim S512 ![] bcast_S_S512 (constantI S_ 32 8192#32))) ids)

/-- the in-range mask of the wrapped indices, one bit per head row: 0 ≤ index ≤ 8191, reduced by "and" over the
    unit axis from 1 -/
def inRange (ids : IVec S512 32) : IVec S512 1 :=
  Host.reduce IntOp.andi
    (andi (cmpi .sge (wrapIdx ids) (broadcastInDim S512x1 ![] bcast_S_S512x1 (constantI S_ 32 0#32)))
      (cmpi .sle (wrapIdx ids) (broadcastInDim S512x1 ![0, 1] bcast_S1x1_S512x1_0_1 (broadcastInDim S1x1 ![1] bcast_S1_S1x1_1 (constantI S1 32 8191#32)))))
    (constantI S_ 1 1#1) reducesTo_S512x1_S512_d1 h_S_

/-- the kernel program's take: the gather at the wrapped indices where they are in [0, 8191], the NaN pattern elsewhere -/
def takeK (P : FVec F S8192x256 .f32) (ids : IVec S512 32) : FVec F S512x256 .f32 :=
  select (broadcastInDim S512x256 ![0] bcast_S512_S512x256_0 (inRange ids))
    (Host.gather gather_S8192x256_S512x1_S512x256_1_0_n_n_0_1_1256 P (wrapIdx ids))
    (broadcastInDim S512x256 ![] bcast_S_S512x256 (constant S_ .f32 0x7FC00000#32))

/-! ## Word arithmetic -/

theorem ofBool_eq_one (b : Bool) : BitVec.ofBool b = 1#1 ↔ b = true := by cases b <;> decide

/-- a word in [-8192, 8192), wrapped by +8192 when negative, lies in [0, 8191] -/
theorem wrap_word (a : BitVec 32) (h1 : -8192 ≤ a.toInt) (h2 : a.toInt < 8192) :
    IntOp.cmpi .sge (Scalar.select (IntOp.cmpi .slt a 0#32) (IntOp.addi a 8192#32) a) 0#32 = 1#1 ∧
    IntOp.cmpi .sle (Scalar.select (IntOp.cmpi .slt a 0#32) (IntOp.addi a 8192#32) a) 8191#32 = 1#1 := by
  have hadd : a.toInt < 0 → (a + 8192#32).toInt = a.toInt + 8192 := by
    intro hn
    rw [BitVec.toInt_add]
    have : (8192#32).toInt = 8192 := by decide
    rw [this]
    unfold Int.bmod
    simp only []
    split <;> omega
  have h0 : (0#32).toInt = 0 := by decide
  have h8 : (8191#32).toInt = 8191 := by decide
  by_cases hn : a.toInt < 0
  · have hb : a.slt 0#32 = true := by
      simp only [BitVec.slt, h0, decide_eq_true_eq]; exact hn
    have hs : Scalar.select (IntOp.cmpi .slt a 0#32) (IntOp.addi a 8192#32) a = a + 8192#32 := by
      show (if BitVec.ofBool (a.slt 0#32) = 1 then _ else _) = _
      rw [hb]; rfl
    rw [hs]
    simp only [IntOp.cmpi, ofBool_eq_one, BitVec.sle, decide_eq_true_eq, h0, h8, hadd hn]
    omega
  · have hb : a.slt 0#32 = false := by
      simp only [BitVec.slt, h0, decide_eq_false_iff_not]; exact hn
    have hs : Scalar.select (IntOp.cmpi .slt a 0#32) (IntOp.addi a 8192#32) a = a := by
      show (if BitVec.ofBool (a.slt 0#32) = 1 then _ else _) = _
      rw [hb]; rfl
    rw [hs]
    simp only [IntOp.cmpi, ofBool_eq_one, BitVec.sle, decide_eq_true_eq, h0, h8]
    omega

/-- a left fold by "and" from 1 over words that are all 1 is 1 -/
theorem foldl_andi_one {ι : Type} (f : ι → BitVec 1) :
    ∀ (l : List ι) (init : BitVec 1), init = 1#1 → (∀ n ∈ l, f n = 1#1) → l.foldl (fun r n => IntOp.andi r (f n)) init = 1#1
  | [], init, hi, _ => hi
  | a :: l, init, hi, h => by
    refine foldl_andi_one f l _ ?_ (fun n hn => h n (List.mem_cons_of_mem _ hn))
    show IntOp.andi init (f a) = 1#1
    rw [hi, h a (List.mem_cons_self ..)]; decide

/-- under the range hypothesis every wrapped index is in [0, 8191]: the mask is all ones -/
theorem inRange_eq_one (ids : IVec S512 32) (hr : ∀ j : S512.Idx, -8192 ≤ (ids j).toInt ∧ (ids j).toInt < 8192) (j : S512.Idx) :
    inRange ids j = 1#1 := by
  unfold inRange
  rw [Host.reduce_eq_foldl]
  refine foldl_andi_one _ _ _ rfl (fun i _ => ?_)
  obtain ⟨h1, h2⟩ := wrap_word _ (hr _).1 (hr _).2
  exact IntOp.andi_eq_one.2 ⟨h1, h2⟩

theorem takeK_eq_gather (P : FVec F S8192x256 .f32) (ids : IVec S512 32)
    (hr : ∀ j : S512.Idx, -8192 ≤ (ids j).toInt ∧ (ids j).toInt < 8192) :
    takeK P ids = Host.gather gather_S8192x256_S512x1_S512x256_1_0_n_n_0_1_1256 P (wrapIdx ids) := by
  funext i
  show Scalar.select (inRange ids _) _ _ = _
  rw [inRange_eq_one ids hr]
  rfl

/-! ## The precondition's last conjunct, read back -/

instance : Subsingleton Cert.Pre_finite_inputs.S_.Idx := ⟨fun a b => funext fun d => d.elim0⟩

/-- the two signed compares of the precondition at one word: -8192 ≤ a < 8192 -/
theorem range_word (a : BitVec 32)
    (h : IntOp.andi (IntOp.cmpi .sge a 4294959104#32) (IntOp.cmpi .slt a 8192#32) = 1#1) :
    -8192 ≤ a.toInt ∧ a.toInt < 8192 := by
  obtain ⟨h1, h2⟩ := IntOp.andi_eq_one.1 h
  simp only [IntOp.cmpi, ofBool_eq_one, BitVec.sle, BitVec.slt, decide_eq_true_eq] at h1 h2
  have e1 : (4294959104#32).toInt = -8192 := by decide
  have e2 : (8192#32).toInt = 8192 := by decide
  rw [e1] at h1; rw [e2] at h2
  exact ⟨h1, h2⟩

/-- the precondition holds only if every head id lies in [-8192, 8192) -/
theorem ids_in_range (a0 : FVec F Cert.Pre_finite_inputs.S4096x256 .f32) (a1 : FVec F Cert.Pre_finite_inputs.S4096x8192 .f32)
    (a2 : FVec F Cert.Pre_finite_inputs.S8192x256 .f32) (a3 : IVec Cert.Pre_finite_inputs.S8192 1)
    (ids : IVec Cert.Pre_finite_inputs.S512 32) (a5 : FVec F Cert.Pre_finite_inputs.S512x256 .f32)
    (a6 : FVec F Cert.Pre_finite_inputs.S512 .f32) (a7 : FVec F Cert.Pre_finite_inputs.S257x512 .f32)
    (a8 : FVec F Cert.Pre_finite_inputs.S257 .f32)
    (h : Cert.Pre_finite_inputs.fn (F := F) a0 a1 a2 a3 ids a5 a6 a7 a8 = (fun _ => 1#1)) :
    ∀ j : S512.Idx, -8192 ≤ (ids j).toInt ∧ (ids j).toInt < 8192 := by
  intro j
  have e := congrFun h (fun d => d.elim0)
  unfold Cert.Pre_finite_inputs.fn Cert.Pre_finite_inputs.fn_part1 Cert.Pre_finite_inputs.fn_part2 at e
  obtain ⟨-, h39⟩ := IntOp.andi_eq_one.1 e
  exact range_word _ (Host.reduce_andi_all _ _ _ _ _ h39 j)

end Cert.KernelIdeal.TakeVal
-- ==== Proof.HostVal.lean ====
/- What the host operations between the regions leave in the buffers, as pure functions of the contents they find
   (at any float instance): the batch rows augmented by a column of ones; the first 256 columns and the last column of a
   257-column array; the per-class means and the updated prototypes; the gathered head rows.  Then the contents the
   three regions are entered with, read through the run's boundaries back to the launch memory. -/
import proofs.«418715_j4389456576871_1_alg».proof.Proof.Gen.KernelIdeal.Launch
import proofs.«418715_j4389456576871_1_alg».proof.Proof.Gen.KernelIdeal.Skeleton
import proofs.«418715_j4389456576871_1_alg».proof.Proof.Gen.KernelIdeal.Points
import proofs.«418715_j4389456576871_1_alg».proof.Proof.Run
import proofs.«418715_j4389456576871_1_alg».proof.Proof.Take
import Idealize.ShloMosaic.Lib.StableHlo.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.TakeVal

/-! ## The host glue as pure functions -/

/-- The batch rows augmented by a column of ones. -/
def augOf (z : FVec F S4096x256 .f32) : FVec F S4096x257 .f32 :=
  concatenate S4096x257 1 [⟨S4096x256, z⟩, ⟨S4096x1, broadcastInDim S4096x1 ![] bcast_S_S4096x1 (constant S_ .f32 0x3F800000#32)⟩] concatenates_S4096x256_S4096x1_S4096x257_d1
/-- The first 256 columns of a 257-column array. -/
def colsOf (x : FVec F S8192x257 .f32) : FVec F S8192x256 .f32 := extractStridedSlice S8192x256 ![0, 0] x slices_S8192x257_S8192x256_0_0
/-- Its last column, as a vector. -/
def colOf (x : FVec F S8192x257 .f32) : FVec F S8192 .f32 :=
  shapeCast S8192 (extractStridedSlice S8192x1 ![0, 256] x slices_S8192x257_S8192x1_0_256) shapeCasts_S8192x1_S8192
/-- The per-class mean of the positives' rows: the sums over the count, the count raised to at least one. -/
def hostMean (sums : FVec F S8192x256 .f32) (counts : FVec F S8192 .f32) : FVec F S8192x256 .f32 :=
  Host.divf sums (broadcastInDim S8192x256 ![0, 1] bcast_S8192x1_S8192x256_0_1 (broadcastInDim S8192x1 ![0] bcast_S8192_S8192x1_0
    (maximumf counts (broadcastInDim S8192 ![] bcast_S_S8192 (constant S_ .f32 0x3F800000#32)))))
/-- The updated prototypes: a class with positives takes its mean (blended with the old prototype when that was
    initialised), a class without keeps its prototype. -/
def hostP (sums : FVec F S8192x256 .f32) (counts : FVec F S8192 .f32) (protos : FVec F S8192x256 .f32) (inited : IVec S8192 1) : FVec F S8192x256 .f32 :=
  select (broadcastInDim S8192x256 ![0, 1] bcast_S8192x1_S8192x256_0_1 (broadcastInDim S8192x1 ![0] bcast_S8192_S8192x1_0
      (cmpf .ogt counts (broadcastInDim S8192 ![] bcast_S_S8192 (constant S_ .f32 0x00000000#32)))))
    (select (broadcastInDim S8192x256 ![0, 1] bcast_S8192x1_S8192x256_0_1 (broadcastInDim S8192x1 ![0] bcast_S8192_S8192x1_0 inited))
      (addf (mulf (broadcastInDim S8192x256 ![] bcast_S_S8192x256 (constant S_ .f32 0x3F7D70A4#32)) protos)
        (mulf (broadcastInDim S8192x256 ![] bcast_S_S8192x256 (constant S_ .f32 0x3C23D70A#32)) (hostMean sums counts)))
      (hostMean sums counts))
    protos

/-! ## Each host stretch, from any contents -/

section Stretches
variable (X : Valuation τ sig (Elt F))

theorem ops0_v1 : StableHlo.after hostOps0 X (Proc.devRef .tc main_v1) = augOf (X (Proc.devRef .tc main_arg0)) := by
  unfold augOf; after_results <;> (try simp only [StableHlo.TRef.ofBuf, StableHlo.TRef.toBuf, cast_eq]) <;> rfl
theorem ops1_v10 : StableHlo.after hostOps1 X (Proc.devRef .tc main_v10)
    = hostMean (colsOf (X (Proc.devRef .tc main_v2))) (colOf (X (Proc.devRef .tc main_v2))) := by
  unfold hostMean colsOf colOf; after_results <;> (try simp only [StableHlo.TRef.ofBuf, StableHlo.TRef.toBuf, cast_eq]) <;> rfl
theorem ops1_v13 : StableHlo.after hostOps1 X (Proc.devRef .tc main_v13)
    = broadcastInDim S8192x1 ![0] bcast_S8192_S8192x1_0 (cmpf .ogt (colOf (X (Proc.devRef .tc main_v2))) (broadcastInDim S8192 ![] bcast_S_S8192 (constant S_ .f32 0x00000000#32))) := by
  unfold colOf; after_results <;> (try simp only [StableHlo.TRef.ofBuf, StableHlo.TRef.toBuf, cast_eq]) <;> rfl
theorem ops1_v14 : StableHlo.after hostOps1 X (Proc.devRef .tc main_v14)
    = broadcastInDim S8192x1 ![0] bcast_S8192_S8192x1_0 (X (Proc.devRef .tc main_arg3)) := by
  after_results <;> (try simp only [StableHlo.TRef.ofBuf, StableHlo.TRef.toBuf, cast_eq]) <;> rfl
theorem ops1_v19 : StableHlo.after hostOps1 X (Proc.devRef .tc main_v19)
    = addf (mulf (broadcastInDim S8192x256 ![] bcast_S_S8192x256 (constant S_ .f32 0x3F7D70A4#32)) (X (Proc.devRef .tc main_arg2)))
        (mulf (broadcastInDim S8192x256 ![] bcast_S_S8192x256 (constant S_ .f32 0x3C23D70A#32))
          (hostMean (colsOf (X (Proc.devRef .tc main_v2))) (colOf (X (Proc.devRef .tc main_v2))))) := by
  unfold hostMean colsOf colOf; after_results <;> (try simp only [StableHlo.TRef.ofBuf, StableHlo.TRef.toBuf, cast_eq]) <;> rfl
theorem ops11_v20 : StableHlo.after hostOps1_1 X (Proc.devRef .tc main_v20)
    = select (broadcastInDim S8192x256 ![0, 1] bcast_S8192x1_S8192x256_0_1 (X (Proc.devRef .tc main_v14))) (X (Proc.devRef .tc main_v19)) (X (Proc.devRef .tc main_v10)) := by
  after_results <;> (try simp only [StableHlo.TRef.ofBuf, StableHlo.TRef.toBuf, cast_eq]) <;> rfl
theorem ops12_v21 : StableHlo.after hostOps1_2 X (Proc.devRef .tc main_v21)
    = select (broadcastInDim S8192x256 ![0, 1] bcast_S8192x1_S8192x256_0_1 (X (Proc.devRef .tc main_v13))) (X (Proc.devRef .tc main_v20)) (X (Proc.devRef .tc main_arg2)) := by
  after_results <;> (try simp only [StableHlo.TRef.ofBuf, StableHlo.TRef.toBuf, cast_eq]) <;> rfl
set_option maxHeartbeats 4000000 in
theorem ops13_v22 : StableHlo.after hostOps1_3 X (Proc.devRef .tc main_v22)
    = takeK (X (Proc.devRef .tc main_v21)) (X (Proc.devRef .tc main_arg4)) := by
  unfold takeK inRange wrapIdx; after_results_simp <;> (try simp only [StableHlo.TRef.ofBuf, StableHlo.TRef.toBuf, cast_eq]) <;> rfl
theorem ops2_v24 : StableHlo.after hostOps2 X (Proc.devRef .tc main_v24) = colsOf (X (Proc.devRef .tc main_v23)) := by
  unfold colsOf; after_results <;> (try simp only [StableHlo.TRef.ofBuf, StableHlo.TRef.toBuf, cast_eq]) <;> rfl
theorem ops2_v26 : StableHlo.after hostOps2 X (Proc.devRef .tc main_v26) = colOf (X (Proc.devRef .tc main_v23)) := by
  unfold colOf; after_results <;> (try simp only [StableHlo.TRef.ofBuf, StableHlo.TRef.toBuf, cast_eq]) <;> rfl

end Stretches

/-! ## What the regions are entered with, read back to the launch memory -/

variable (m : (ℓ : Loc nD τ sig) → Buf (Elt F) ℓ)

/-- A buffer no item up to a boundary writes holds its launch contents there. -/
theorem W1_launch (c : Dev nD) (r : Ref sig .tc) (h0 : r ∉ hostOps0_W) : W1 m c (Proc.devRef .tc r) = m ((c : Thread nD τ).loc r) :=
  (StableHlo.after_of_writes_sub hostOps0 _ hostOps0_writes h0).trans rfl
theorem W2_launch (c : Dev nD) (r : Ref sig .tc) (h0 : r ∉ hostOps0_W) (ha : r ≠ main_v2) : W2 m c (Proc.devRef .tc r) = m ((c : Thread nD τ).loc r) :=
  (W2_keep m c r ha).trans (W1_launch m c r h0)
theorem W3_launch (c : Dev nD) (r : Ref sig .tc) (h0 : r ∉ hostOps0_W) (ha : r ≠ main_v2) (h1 : r ∉ hostOps1_W) :
    W3 m c (Proc.devRef .tc r) = m ((c : Thread nD τ).loc r) :=
  (StableHlo.after_of_writes_sub hostOps1 _ hostOps1_writes h1).trans (W2_launch m c r h0 ha)
theorem W4_launch (c : Dev nD) (r : Ref sig .tc) (h0 : r ∉ hostOps0_W) (ha : r ≠ main_v2) (h1 : r ∉ hostOps1_W) (h2 : r ∉ hostOps1_1_W) :
    W4 m c (Proc.devRef .tc r) = m ((c : Thread nD τ).loc r) :=
  (StableHlo.after_of_writes_sub hostOps1_1 _ hostOps1_1_writes h2).trans (W3_launch m c r h0 ha h1)
theorem W5_launch (c : Dev nD) (r : Ref sig .tc) (h0 : r ∉ hostOps0_W) (ha : r ≠ main_v2) (h1 : r ∉ hostOps1_W) (h2 : r ∉ hostOps1_1_W)
    (h3 : r ∉ hostOps1_2_W) : W5 m c (Proc.devRef .tc r) = m ((c : Thread nD τ).loc r) :=
  (StableHlo.after_of_writes_sub hostOps1_2 _ hostOps1_2_writes h3).trans (W4_launch m c r h0 ha h1 h2)
theorem W6_launch (c : Dev nD) (r : Ref sig .tc) (h0 : r ∉ hostOps0_W) (ha : r ≠ main_v2) (h1 : r ∉ hostOps1_W) (h2 : r ∉ hostOps1_1_W)
    (h3 : r ∉ hostOps1_2_W) (h4 : r ∉ hostOps1_3_W) : W6 m c (Proc.devRef .tc r) = m ((c : Thread nD τ).loc r) :=
  (StableHlo.after_of_writes_sub hostOps1_3 _ hostOps1_3_writes h4).trans (W5_launch m c r h0 ha h1 h2 h3)
theorem W8_launch (c : Dev nD) (r : Ref sig .tc) (h0 : r ∉ hostOps0_W) (ha : r ≠ main_v2) (h1 : r ∉ hostOps1_W) (h2 : r ∉ hostOps1_1_W)
    (h3 : r ∉ hostOps1_2_W) (h4 : r ∉ hostOps1_3_W) (hb : r ≠ main_v23) (h5 : r ∉ hostOps2_W) :
    W8 m c (Proc.devRef .tc r) = m ((c : Thread nD τ).loc r) :=
  (StableHlo.after_of_writes_sub hostOps2 _ hostOps2_writes h5).trans ((W7_keep m c r hb).trans (W6_launch m c r h0 ha h1 h2 h3 h4))

/-- Region 0 is entered with the labels as launched and the batch rows augmented by a column of ones. -/
theorem U1_arg1 (c : Dev nD) : U1 m c main_arg1 = m ((c : Thread nD τ).loc main_arg1) := W1_launch m c main_arg1 (by decide)
theorem U1_v1 (c : Dev nD) : U1 m c main_v1 = augOf (m ((c : Thread nD τ).loc main_arg0)) := ops0_v1 (W0 m c)

/-- The updated prototypes, two stretches before region 1's entry: the shared host glue applied to the first 256 columns
    and the last column of region 0's output, the prototypes and the initialised flags as launched. -/
theorem W5_v21 (c : Dev nD) : W5 m c (Proc.devRef .tc main_v21)
    = hostP (colsOf (U2 m c main_v2)) (colOf (U2 m c main_v2)) (m ((c : Thread nD τ).loc main_arg2)) (m ((c : Thread nD τ).loc main_arg3)) := by
  have e13 : W4 m c (Proc.devRef .tc main_v13) = W3 m c (Proc.devRef .tc main_v13) :=
    StableHlo.after_of_writes_sub hostOps1_1 _ hostOps1_1_writes (by decide)
  have e2 : W4 m c (Proc.devRef .tc main_arg2) = m ((c : Thread nD τ).loc main_arg2) :=
    W4_launch m c main_arg2 (by decide) (by decide) (by decide) (by decide)
  have e2' : W2 m c (Proc.devRef .tc main_arg2) = m ((c : Thread nD τ).loc main_arg2) := W2_launch m c main_arg2 (by decide) (by decide)
  have e3' : W2 m c (Proc.devRef .tc main_arg3) = m ((c : Thread nD τ).loc main_arg3) := W2_launch m c main_arg3 (by decide) (by decide)
  show StableHlo.after hostOps1_2 (W4 m c) (Proc.devRef .tc main_v21) = _
  rw [ops12_v21, e13, e2]
  show select _ (StableHlo.after hostOps1_1 (W3 m c) (Proc.devRef .tc main_v20)) _ = _
  rw [ops11_v20]
  show select (broadcastInDim S8192x256 ![0, 1] bcast_S8192x1_S8192x256_0_1 (StableHlo.after hostOps1 (W2 m c) (Proc.devRef .tc main_v13)))
    (select (broadcastInDim S8192x256 ![0, 1] bcast_S8192x1_S8192x256_0_1 (StableHlo.after hostOps1 (W2 m c) (Proc.devRef .tc main_v14)))
      (StableHlo.after hostOps1 (W2 m c) (Proc.devRef .tc main_v19)) (StableHlo.after hostOps1 (W2 m c) (Proc.devRef .tc main_v10))) _ = _
  rw [ops1_v13, ops1_v14, ops1_v19, ops1_v10, e2', e3']
  rfl
theorem U6_v21 (c : Dev nD) : U6 m c main_v21
    = hostP (colsOf (U2 m c main_v2)) (colOf (U2 m c main_v2)) (m ((c : Thread nD τ).loc main_arg2)) (m ((c : Thread nD τ).loc main_arg3)) :=
  (StableHlo.after_of_writes_sub hostOps1_3 (W5 m c) hostOps1_3_writes (by decide : main_v21 ∉ hostOps1_3_W)).trans (W5_v21 m c)
/-- The head rows region 1 is entered with: the take of the updated prototypes at the head ids as launched. -/
theorem U6_v22 (c : Dev nD) : U6 m c main_v22 = takeK (U6 m c main_v21) (m ((c : Thread nD τ).loc main_arg4)) := by
  have e4 : W5 m c (Proc.devRef .tc main_arg4) = m ((c : Thread nD τ).loc main_arg4) :=
    W5_launch m c main_arg4 (by decide) (by decide) (by decide) (by decide) (by decide)
  show StableHlo.after hostOps1_3 (W5 m c) (Proc.devRef .tc main_v22) = _
  rw [ops13_v22, e4]
  exact congrArg (fun P => takeK P _) (StableHlo.after_of_writes_sub hostOps1_3 (W5 m c) hostOps1_3_writes (by decide : main_v21 ∉ hostOps1_3_W)).symm
theorem U6_arg5 (c : Dev nD) : U6 m c main_arg5 = m ((c : Thread nD τ).loc main_arg5) :=
  W6_launch m c main_arg5 (by decide) (by decide) (by decide) (by decide) (by decide) (by decide)
theorem U6_arg6 (c : Dev nD) : U6 m c main_arg6 = m ((c : Thread nD τ).loc main_arg6) :=
  W6_launch m c main_arg6 (by decide) (by decide) (by decide) (by decide) (by decide) (by decide)
theorem U6_arg7 (c : Dev nD) : U6 m c main_arg7 = m ((c : Thread nD τ).loc main_arg7) :=
  W6_launch m c main_arg7 (by decide) (by decide) (by decide) (by decide) (by decide) (by decide)
theorem U6_arg8 (c : Dev nD) : U6 m c main_arg8 = m ((c : Thread nD τ).loc main_arg8) :=
  W6_launch m c main_arg8 (by decide) (by decide) (by decide) (by decide) (by decide) (by decide)

/-- Region 2 is entered with the batch rows as launched and the weight columns and bias column cut out of region 1's output. -/
theorem U8_arg0 (c : Dev nD) : U8 m c main_arg0 = m ((c : Thread nD τ).loc main_arg0) :=
  W8_launch m c main_arg0 (by decide) (by decide) (by decide) (by decide) (by decide) (by decide) (by decide) (by decide)
theorem U8_v24 (c : Dev nD) : U8 m c main_v24 = colsOf (U7 m c main_v23) := ops2_v24 (W7 m c)
theorem U8_v26 (c : Dev nD) : U8 m c main_v26 = colOf (U7 m c main_v23) := ops2_v26 (W7 m c)

end Cert.KernelIdeal.Hand
end
-- ==== Proof.R0Pieces.lean ====
/- Region 0 of the program (the first kernel launch), the segment sum: what the two control cases of the body leave in
   the output tile and in the scratch accumulator, in closed form.  Every load and store of the body goes through the
   whole-buffer rectangle, so a store leaves exactly its payload and a later load reads it back.  Hence at a point whose
   reduction coordinate is zero both buffers end at  0 + mask(labels)ᵀ · rows  (the accumulating payload applied to the
   zero splat), and at any other point at  acc + mask(labels)ᵀ · rows  with `acc` what the point before left in the
   scratch.  The two case equations of `outsAt0` in that explicit form close the module. -/
import proofs.«418715_j4389456576871_1_alg».proof.Proof.R0Frame
import proofs.«418715_j4389456576871_1_alg».proof.Proof.Gen.KernelIdeal.Launch
import proofs.«418715_j4389456576871_1_alg».proof.Proof.Gen.KernelIdeal.Skeleton
import proofs.«418715_j4389456576871_1_alg».proof.Proof.Gen.KernelIdeal.Points
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A load through the whole-shape rectangle at zero offsets, of what a list of stores left whose LAST store went through
    that same rectangle, reads that store's payload. -/
theorem readCov_cons_unit_zero {Val : EltTy → Type} [∀ e, Nonempty (Val e)] {S : Shape} {e : EltTy}
    {sg : RefSig} {κ : Kind} {sp : Space} (v : View sg κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self, View.mem_set_unit_zero h inb y⟩),
    View.canon_cons_unit_zero h, View.ld_unit_zero h]

theorem hz1024x257 : (![0, 0] : Fin S1024x257.rank → ℕ) = fun _ => 0 := by funext a; fin_cases a <;> rfl
theorem hz1024x1024 : (![0, 0] : Fin S1024x1024.rank → ℕ) = fun _ => 0 := by funext a; fin_cases a <;> rfl

/-! ## The reduction coordinate zero: reset, then accumulate -/

/-- The scratch ends at the accumulating payload of the two input blocks over the zero splat. -/
theorem sout0_A_0_eq (c : Dev nD) (i : grid0.Coords) (arg2 : Memref sig .tc .vmem S1024x1024 .f32) (harg2 : arg2.IsWhole) (arg3 : Memref sig .tc .vmem S1024x257 .f32) (harg3 : arg3.IsWhole) (arg4 : Memref sig .tc .vmem S1024x257 .f32) (harg4 : arg4.IsWhole) (arg5 : Memref sig .tc .vmem S1024x257 .f32) (harg5 : arg5.IsWhole) (hc0 : cond0_0 i) (x0 : Vec F S1024x1024 .f32) (x1 : Vec F S1024x257 .f32) :
    sout0_A_0 c i arg2 harg2 arg3 harg3 arg4 harg4 arg5 harg5 hc0 x0 x1 = k0_pay2 x0 x1 (k0_pay1 (F := F)) := by
  unfold sout0_A_0
  rw [View.read_writes_eq_canon _ _ _ (scover0_A_0 c i arg2 harg2 arg3 harg3 arg4 harg4 arg5 harg5 hc0 x0 x1)]
  unfold kernelRun0_A
  dsimp only
  sl_unfold_words
  rw [View.canon_cons_unit_zero (S := S1024x257) hz1024x257]
  simp only [View.readAt_eq_ld, harg2.read_unread, harg3.read_unread, View.ld_unit_zero (S := S1024x1024) hz1024x1024,
    View.ld_unit_zero (S := S1024x257) hz1024x257, View.readCov_unit_zero (S := S1024x257) _ hz1024x257]

/-- The output tile ends at the same. -/
theorem out0_A_2_eq (c : Dev nD) (i : grid0.Coords) (arg2 : Memref sig .tc .vmem S1024x1024 .f32) (harg2 : arg2.IsWhole) (arg3 : Memref sig .tc .vmem S1024x257 .f32) (harg3 : arg3.IsWhole) (arg4 : Memref sig .tc .vmem S1024x257 .f32) (harg4 : arg4.IsWhole) (arg5 : Memref sig .tc .vmem S1024x257 .f32) (harg5 : arg5.IsWhole) (hc0 : cond0_0 i) (x0 : Vec F S1024x1024 .f32) (x1 : Vec F S1024x257 .f32) :
    out0_A_2 c i arg2 harg2 arg3 harg3 arg4 harg4 arg5 harg5 hc0 x0 x1 = k0_pay2 x0 x1 (k0_pay1 (F := F)) := by
  unfold out0_A_2
  rw [View.read_writes_eq_canon _ _ _ (cover0_A_2 c i arg2 harg2 arg3 harg3 arg4 harg4 arg5 harg5 hc0 x0 x1)]
  unfold kernelRun0_A
  dsimp only
  sl_unfold_words
  rw [View.canon_unit_zero (S := S1024x257) hz1024x257]
  simp only [View.readAt_eq_ld, harg2.read_unread, harg3.read_unread, View.ld_unit_zero (S := S1024x1024) hz1024x1024,
    View.ld_unit_zero (S := S1024x257) hz1024x257, readCov_cons_unit_zero (S := S1024x257) _ hz1024x257,
    View.readCov_unit_zero (S := S1024x257) _ hz1024x257]

/-! ## The reduction coordinate not zero: accumulate onto what the scratch held -/

/-- The scratch ends at the accumulating payload of the two input blocks over what it held. -/
theorem sout0_B_0_eq (c : Dev nD) (i : grid0.Coords) (arg2 : Memref sig .tc .vmem S1024x1024 .f32) (harg2 : arg2.IsWhole) (arg3 : Memref sig .tc .vmem S1024x257 .f32) (harg3 : arg3.IsWhole) (arg4 : Memref sig .tc .vmem S1024x257 .f32) (harg4 : arg4.IsWhole) (arg5 : Memref sig .tc .vmem S1024x257 .f32) (harg5 : arg5.IsWhole) (hc0 : ¬cond0_0 i) (x0 : Vec F S1024x1024 .f32) (x1 : Vec F S1024x257 .f32) (xs0 : Vec F S1024x257 .f32) :
    sout0_B_0 c i arg2 harg2 arg3 harg3 arg4 harg4 arg5 harg5 hc0 x0 x1 xs0 = k0_pay2 x0 x1 xs0 := by
  unfold sout0_B_0
  rw [View.read_writes_eq_canon _ _ _ (scover0_B_0 c i arg2 harg2 arg3 harg3 arg4 harg4 arg5 harg5 hc0 x0 x1 xs0)]
  unfold kernelRun0_B
  dsimp only
  sl_unfold_words
  rw [View.canon_unit_zero (S := S1024x257) hz1024x257]
  simp only [View.readAt_eq_ld, harg2.read_unread, harg3.read_unread, harg5.read_unread, View.ld_unit_zero (S := S1024x1024) hz1024x1024,
    View.ld_unit_zero (S := S1024x257) hz1024x257]

/-- The output tile ends at the same. -/
theorem out0_B_2_eq (c : Dev nD) (i : grid0.Coords) (arg2 : Memref sig .tc .vmem S1024x1024 .f32) (harg2 : arg2.IsWhole) (arg3 : Memref sig .tc .vmem S1024x257 .f32) (harg3 : arg3.IsWhole) (arg4 : Memref sig .tc .vmem S1024x257 .f32) (harg4 : arg4.IsWhole) (arg5 : Memref sig .tc .vmem S1024x257 .f32) (harg5 : arg5.IsWhole) (hc0 : ¬cond0_0 i) (x0 : Vec F S1024x1024 .f32) (x1 : Vec F S1024x257 .f32) (xs0 : Vec F S1024x257 .f32) :
    out0_B_2 c i arg2 harg2 arg3 harg3 arg4 harg4 arg5 harg5 hc0 x0 x1 xs0 = k0_pay2 x0 x1 xs0 := by
  unfold out0_B_2
  rw [View.read_writes_eq_canon _ _ _ (cover0_B_2 c i arg2 harg2 arg3 harg3 arg4 harg4 arg5 harg5 hc0 x0 x1 xs0)]
  unfold kernelRun0_B
  dsimp only
  sl_unfold_words
  rw [View.canon_unit_zero (S := S1024x257) hz1024x257]
  simp only [View.readAt_eq_ld, harg2.read_unread, harg3.read_unread, harg5.read_unread, View.ld_unit_zero (S := S1024x1024) hz1024x1024,
    View.ld_unit_zero (S := S1024x257) hz1024x257, View.readCov_unit_zero (S := S1024x257) _ hz1024x257]

section Region0

variable (V : (c : Dev nD) → (b : Ref sig .tc) → Buf (Elt F) ((c : Thread nD τ).loc b))

/-! ## The two case equations of the accumulation, in payload form -/

/-- At a point whose reduction coordinate is zero, the output tile and the scratch both end at the accumulating payload of
    the point's two input blocks over the zero splat. -/
theorem outsAt0_reset (c : Dev nD) (t : Fin cfg0.N) (h : t.val % 4 = 0) :
    outsAt0 V c t.val t.isLt
      = (k0_pay2 (iblk0 V c 0 t) (iblk0 V c 1 t) (k0_pay1 (F := F)), k0_pay2 (iblk0 V c 0 t) (iblk0 V c 1 t) (k0_pay1 (F := F))) := by
  rw [outsAt0_A V c t h]
  rw [out0_A_2_eq c (grid0.coords t) (ms0_0 t) (hs0_0 t) (ms0_1 t) (hs0_1 t) (ms0_2 t) (hs0_2 t) scM0_0 (Memref.isWhole_whole _) ((hcond0_0 t).mpr h) (iblk0 V c 0 t) (iblk0 V c 1 t),
    sout0_A_0_eq c (grid0.coords t) (ms0_0 t) (hs0_0 t) (ms0_1 t) (hs0_1 t) (ms0_2 t) (hs0_2 t) scM0_0 (Memref.isWhole_whole _) ((hcond0_0 t).mpr h) (iblk0 V c 0 t) (iblk0 V c 1 t)]

/-- At any other point, at the accumulating payload of the point's two input blocks over what the point before left in the
    scratch. -/
theorem outsAt0_acc (c : Dev nD) (t : Fin cfg0.N) (h : ¬ t.val % 4 = 0) :
    outsAt0 V c t.val t.isLt
      = (k0_pay2 (iblk0 V c 0 t) (iblk0 V c 1 t) (outsAt0 V c (t.val - 1) (Nat.lt_of_le_of_lt (Nat.sub_le _ _) t.isLt)).2, k0_pay2 (iblk0 V c 0 t) (iblk0 V c 1 t) (outsAt0 V c (t.val - 1) (Nat.lt_of_le_of_lt (Nat.sub_le _ _) t.isLt)).2) := by
  rw [outsAt0_B V c t h]
  rw [out0_B_2_eq c (grid0.coords t) (ms0_0 t) (hs0_0 t) (ms0_1 t) (hs0_1 t) (ms0_2 t) (hs0_2 t) scM0_0 (Memref.isWhole_whole _) (fun h' => h ((hcond0_0 t).mp h')) (iblk0 V c 0 t) (iblk0 V c 1 t) (outsAt0 V c (t.val - 1) (Nat.lt_of_le_of_lt (Nat.sub_le _ _) t.isLt)).2,
    sout0_B_0_eq c (grid0.coords t) (ms0_0 t) (hs0_0 t) (ms0_1 t) (hs0_1 t) (ms0_2 t) (hs0_2 t) scM0_0 (Memref.isWhole_whole _) (fun h' => h ((hcond0_0 t).mp h')) (iblk0 V c 0 t) (iblk0 V c 1 t) (outsAt0 V c (t.val - 1) (Nat.lt_of_le_of_lt (Nat.sub_le _ _) t.isLt)).2]

end Region0

end Cert.KernelIdeal.Hand

end
-- ==== Proof.Spec.lean ====
/- The mathematics of the certificate, with no program in sight: every array is a function from the indices of a
   literal shape to the extended reals, and each stage of the computation is written once, index by index.

   * `mk`: a label is a positive when it exceeds one half; its mask value is 1, else 0.
   * `SC`: the segment sums and counts as ONE product: row c, column j holds the sum over the batch of the mask of
     label (b, c) times column j of the batch rows augmented by a column of ones; columns 0..255 are the per-class sums of
     the positives' rows, column 256 their count.
   * `rowF`: what the prototype update makes of ONE row p of the prototypes, given the head rows, the two weight matrices
     and the two biases: scores of p against every head row scaled by 1/16, their softmax (shifted by the row maximum), the
     attended head rows added to p, a linear layer, a rectifier, a second linear layer.
   * `WB` applies `rowF` to every row; `LOGITS` multiplies the batch rows by the first 256 columns of a 257-column
     array and adds its last column as a bias. -/
import Idealize.ShloMosaic.PureOps.Ideal
import Idealize.ShloMosaic.PureOps.Ideal.Laws
import Idealize.ShloMosaic.Lib.ValueIdx

noncomputable section

namespace Cert.Spec

open Idealize.ShloMosaic
open Idealize.ShloMosaic.ValueIdx (ix1 ix2)

/-- A vector and a matrix of extended reals over literal extents. -/
abbrev A1 (n : Nat) : Type := (⟨1, ![n]⟩ : Shape).Idx → EReal
abbrev A2 (a b : Nat) : Type := (⟨2, ![a, b]⟩ : Shape).Idx → EReal

/-- One half, as the programs spell it. -/
def half : EReal := Ideal.ofBits .f32 0x3F000000#32
/-- One sixteenth, as the kernel spells it (the reciprocal of the square root of the row length 256). -/
def c16 : EReal := Ideal.ofBits .f32 0x3D800000#32
/-- Minus infinity, as the programs spell the start of a running maximum. -/
def negInf : EReal := Ideal.ofBits .f32 0xFF800000#32

/-- The mask of a label: 1 when the label exceeds one half, else 0 (the comparison's bit read as a number). -/
def mk (x : EReal) : EReal := (((Ideal.cmp .ogt x half).toNat : ℝ) : EReal)

/-- Segment sums and counts in one array: entry (c, j) sums, over the batch, the mask of label (b, c) times entry
    (b, j) of the augmented batch rows. -/
def SC (labels : A2 4096 8192) (zaug : A2 4096 257) : A2 8192 257 :=
  fun i => ∑ b : Fin 4096, mk (labels (ix2 b (i 0))) * zaug (ix2 b (i 1))

/-! ## One row of the prototype update -/

section Row

variable (p : Fin 256 → EReal) (ph : A2 512 256) (w1 : A2 512 256) (b1 : A1 512) (w2 : A2 257 512) (b2 : A1 257)

/-- The scaled score of the row against head row `h`. -/
def score (h : Fin 512) : EReal := (∑ d : Fin 256, p d * ph (ix2 h d)) * c16
/-- The largest score of the row (a running maximum started at minus infinity). -/
def rmax : EReal := max negInf ((Finset.univ : Finset (Fin 512)).fold max negInf (score p ph))
/-- The exponential of a score shifted by the largest. -/
def ex (h : Fin 512) : EReal := Ideal.exp (score p ph h - rmax p ph)
/-- The softmax weight of head row `h`. -/
def alpha (h : Fin 512) : EReal := Ideal.div (ex p ph h) (∑ h' : Fin 512, ex p ph h')
/-- The row plus the attended head rows. -/
def peff (d : Fin 256) : EReal := p d + ∑ h : Fin 512, alpha p ph h * ph (ix2 h d)
/-- The hidden layer: a linear map of the attended row, a bias, the rectifier. -/
def hid (j : Fin 512) : EReal := max ((∑ d : Fin 256, peff p ph d * w1 (ix2 j d)) + b1 (ix1 j)) 0
/-- The row's 257 outputs: a second linear map and bias. -/
def rowF (k : Fin 257) : EReal := (∑ j : Fin 512, hid p ph w1 b1 j * w2 (ix2 k j)) + b2 (ix1 k)

end Row

/-- The prototype update over all 8192 rows. -/
def WB (P : A2 8192 256) (ph : A2 512 256) (w1 : A2 512 256) (b1 : A1 512) (w2 : A2 257 512) (b2 : A1 257) : A2 8192 257 :=
  fun i => rowF (fun d => P (ix2 (i 0) d)) ph w1 b1 w2 b2 (i 1)

/-- The logits: batch row b against the first 256 columns of row c of `wb`, plus that row's last column. -/
def LOGITS (z : A2 4096 256) (wb : A2 8192 257) : A2 4096 8192 :=
  fun i => (∑ d : Fin 256, z (ix2 (i 0) d) * wb (ix2 (i 1) (Fin.castLE (by decide) d))) + wb (ix2 (i 1) (256 : Fin 257))

end Cert.Spec

end
-- ==== Proof.Pay02.lean ====
/- The two matrix-product payloads of the kernel, and the zero payload, read at an index over the extended reals.

   * The zero payload is the constant 0 at every index.
   * The segment-sum payload at (r, j) is the accumulator there plus the sum over the batch row k of the mask of label
     (k, r) times entry (k, j) of the augmented batch block: the product contracts axis 0 of both operands, so it is the
     transpose of the mask block times the batch block. The mask is the comparison bit (label above one half), widened
     to 32 bits and read as a signed integer; a one-bit value widened by zeros is nonnegative, so that integer is the
     bit itself, 0 or 1.
   * The logits payload at (r, q) is the sum over d of entry (r, d) of the batch block times entry (q, d) of the weight
     block (the product contracts axis 1 of both operands: the batch block times the transpose of the weight block),
     plus the bias at q, the bias being a row repeated down the rows.

   Over the extended reals the narrowing of an operand to a shorter float format is the identity, and a product is the
   exact sum of the exact products, so nothing but re-indexing is left. -/
import proofs.«418715_j4389456576871_1_alg».proof.Proof.Gen.KernelIdeal.Skeleton
import proofs.«418715_j4389456576871_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option synthInstance.maxSize 4096

noncomputable section

namespace Cert.KernelIdeal.PayVal

open Cert.KernelIdeal Cert.KernelIdeal.Gen Cert.Spec Idealize.ShloMosaic Idealize.ShloMosaic.ValueIdx

/-! ## The zero payload -/

theorem k0_pay1_apply (i : S1024x257.Idx) : k0_pay1 (F := Ideal) i = 0 := by
  unfold k0_pay1
  simp only [shapeCast_self]
  exact Ideal.ofBits_zero_f32

/-! ## A one-bit value widened by zeros, read as a signed integer, is the bit -/

theorem bit_toInt (b : BitVec 1) : (b.setWidth 32).toInt = (b.toNat : Int) := by
  revert b; decide

/-! ## The segment-sum product: axis 0 of both operands is contracted -/

theorem lhs_seg_0 (i : S1024x257.Idx) (q : dot_S1024x1024_S1024x257_S1024x257_0_0_1_1_n_n.contr.Idx) :
    (dot_S1024x1024_S1024x257_S1024x257_0_0_1_1_n_n.lhsIdx i q 0).val = (q ⟨0, by decide⟩).val :=
  dot_S1024x1024_S1024x257_S1024x257_0_0_1_1_n_n.lhsIdx_val_of_single rfl i q
theorem lhs_seg_1 (i : S1024x257.Idx) (q : dot_S1024x1024_S1024x257_S1024x257_0_0_1_1_n_n.contr.Idx) :
    (dot_S1024x1024_S1024x257_S1024x257_0_0_1_1_n_n.lhsIdx i q 1).val = (i 0).val := by
  unfold DotDims.lhsIdx
  rw [dif_neg (show ¬(1 : Fin S1024x1024.rank) ∈ dot_S1024x1024_S1024x257_S1024x257_0_0_1_1_n_n.lhsBatch by decide), dif_pos (show (1 : Fin S1024x1024.rank) ∈ dot_S1024x1024_S1024x257_S1024x257_0_0_1_1_n_n.lhsNonContracting by decide)]
  rfl
theorem rhs_seg_0 (i : S1024x257.Idx) (q : dot_S1024x1024_S1024x257_S1024x257_0_0_1_1_n_n.contr.Idx) :
    (dot_S1024x1024_S1024x257_S1024x257_0_0_1_1_n_n.rhsIdx i q 0).val = (q ⟨0, by decide⟩).val :=
  dot_S1024x1024_S1024x257_S1024x257_0_0_1_1_n_n.rhsIdx_val_of_single rfl i q
theorem rhs_seg_1 (i : S1024x257.Idx) (q : dot_S1024x1024_S1024x257_S1024x257_0_0_1_1_n_n.contr.Idx) :
    (dot_S1024x1024_S1024x257_S1024x257_0_0_1_1_n_n.rhsIdx i q 1).val = (i 1).val := by
  unfold DotDims.rhsIdx
  rw [dif_neg (show ¬(1 : Fin S1024x257.rank) ∈ dot_S1024x1024_S1024x257_S1024x257_0_0_1_1_n_n.rhsBatch by decide), dif_pos (show (1 : Fin S1024x257.rank) ∈ dot_S1024x1024_S1024x257_S1024x257_0_0_1_1_n_n.rhsNonContracting by decide)]
  rfl

theorem k0_pay2_apply (x : Vec Ideal S1024x1024 .f32) (z acc : Vec Ideal S1024x257 .f32) (r : Fin 1024) (j : Fin 257) :
    k0_pay2 (F := Ideal) x z acc (ix2 r j) = acc (ix2 r j) + ∑ k : Fin 1024, mk (x (ix2 k r)) * z (ix2 k j) := by
  unfold k0_pay2
  simp only [shapeCast_self, addf_apply, matmul]
  rw [Ideal.matmul_constant_zero_apply, ← Equiv.sum_comp (contrEquiv1 dot_S1024x1024_S1024x257_S1024x257_0_0_1_1_n_n 1024 rfl rfl).symm]
  refine congrArg (acc (ix2 r j) + ·) (Finset.sum_congr rfl fun k _ => ?_)
  have hk := contrEquiv1_symm_val dot_S1024x1024_S1024x257_S1024x257_0_0_1_1_n_n 1024 rfl rfl k
  have el : dot_S1024x1024_S1024x257_S1024x257_0_0_1_1_n_n.lhsIdx (ix2 r j) ((contrEquiv1 dot_S1024x1024_S1024x257_S1024x257_0_0_1_1_n_n 1024 rfl rfl).symm k) = ix2 k r := funext fun a => Fin.ext (by
    match a with
    | ⟨0, _⟩ => exact (lhs_seg_0 _ _).trans hk
    | ⟨1, _⟩ => exact lhs_seg_1 _ _)
  have er : dot_S1024x1024_S1024x257_S1024x257_0_0_1_1_n_n.rhsIdx (ix2 r j) ((contrEquiv1 dot_S1024x1024_S1024x257_S1024x257_0_0_1_1_n_n 1024 rfl rfl).symm k) = ix2 k j := funext fun a => Fin.ext (by
    match a with
    | ⟨0, _⟩ => exact (rhs_seg_0 _ _).trans hk
    | ⟨1, _⟩ => exact rhs_seg_1 _ _)
  rw [el, er]
  refine congrArg (· * z (ix2 k j)) ?_
  show ((((Ideal.cmp .ogt (x (ix2 k r)) half).setWidth 32).toInt : ℝ) : EReal) = mk (x (ix2 k r))
  unfold mk
  rw [bit_toInt]
  rfl

/-! ## The logits product: axis 1 of both operands is contracted -/

theorem lhs_log_0 (i : S1024x1024.Idx) (q : dot_S1024x256_S1024x256_S1024x1024_1_1_0_0_n_n.contr.Idx) :
    (dot_S1024x256_S1024x256_S1024x1024_1_1_0_0_n_n.lhsIdx i q 0).val = (i 0).val := by
  unfold DotDims.lhsIdx
  rw [dif_neg (show ¬(0 : Fin S1024x256.rank) ∈ dot_S1024x256_S1024x256_S1024x1024_1_1_0_0_n_n.lhsBatch by decide), dif_pos (show (0 : Fin S1024x256.rank) ∈ dot_S1024x256_S1024x256_S1024x1024_1_1_0_0_n_n.lhsNonContracting by decide)]
  rfl
theorem lhs_log_1 (i : S1024x1024.Idx) (q : dot_S1024x256_S1024x256_S1024x1024_1_1_0_0_n_n.contr.Idx) :
    (dot_S1024x256_S1024x256_S1024x1024_1_1_0_0_n_n.lhsIdx i q 1).val = (q ⟨0, by decide⟩).val :=
  dot_S1024x256_S1024x256_S1024x1024_1_1_0_0_n_n.lhsIdx_val_of_single rfl i q
theorem rhs_log_0 (i : S1024x1024.Idx) (q : dot_S1024x256_S1024x256_S1024x1024_1_1_0_0_n_n.contr.Idx) :
    (dot_S1024x256_S1024x256_S1024x1024_1_1_0_0_n_n.rhsIdx i q 0).val = (i 1).val := by
  unfold DotDims.rhsIdx
  rw [dif_neg (show ¬(0 : Fin S1024x256.rank) ∈ dot_S1024x256_S1024x256_S1024x1024_1_1_0_0_n_n.rhsBatch by decide), dif_pos (show (0 : Fin S1024x256.rank) ∈ dot_S1024x256_S1024x256_S1024x1024_1_1_0_0_n_n.rhsNonContracting by decide)]
  rfl
theorem rhs_log_1 (i : S1024x1024.Idx) (q : dot_S1024x256_S1024x256_S1024x1024_1_1_0_0_n_n.contr.Idx) :
    (dot_S1024x256_S1024x256_S1024x1024_1_1_0_0_n_n.rhsIdx i q 1).val = (q ⟨0, by decide⟩).val :=
  dot_S1024x256_S1024x256_S1024x1024_1_1_0_0_n_n.rhsIdx_val_of_single rfl i q

theorem k2_pay1_apply (zb wb : Vec Ideal S1024x256 .f32) (bb : Vec Ideal S1024 .f32) (r q : Fin 1024) :
    k2_pay1 (F := Ideal) zb wb bb (ix2 r q) = (∑ d : Fin 256, zb (ix2 r d) * wb (ix2 q d)) + bb (ix1 q) := by
  unfold k2_pay1
  simp only [shapeCast_self, addf_apply, matmul]
  rw [broadcastTo_1b_ab_apply, shapeCast_a_1a_apply]
  refine congrArg (· + bb (ix1 q)) ?_
  rw [Ideal.matmul_constant_zero_apply, ← Equiv.sum_comp (contrEquiv1 dot_S1024x256_S1024x256_S1024x1024_1_1_0_0_n_n 256 rfl rfl).symm]
  refine Finset.sum_congr rfl fun d _ => ?_
  have hd := contrEquiv1_symm_val dot_S1024x256_S1024x256_S1024x1024_1_1_0_0_n_n 256 rfl rfl d
  have el : dot_S1024x256_S1024x256_S1024x1024_1_1_0_0_n_n.lhsIdx (ix2 r q) ((contrEquiv1 dot_S1024x256_S1024x256_S1024x1024_1_1_0_0_n_n 256 rfl rfl).symm d) = ix2 r d := funext fun a => Fin.ext (by
    match a with
    | ⟨0, _⟩ => exact lhs_log_0 _ _
    | ⟨1, _⟩ => exact (lhs_log_1 _ _).trans hd)
  have er : dot_S1024x256_S1024x256_S1024x1024_1_1_0_0_n_n.rhsIdx (ix2 r q) ((contrEquiv1 dot_S1024x256_S1024x256_S1024x1024_1_1_0_0_n_n 256 rfl rfl).symm d) = ix2 q d := funext fun a => Fin.ext (by
    match a with
    | ⟨0, _⟩ => exact rhs_log_0 _ _
    | ⟨1, _⟩ => exact (rhs_log_1 _ _).trans hd)
  rw [el, er]
  rfl

end Cert.KernelIdeal.PayVal

end
-- ==== Proof.K0Val.lean ====
/- What region 0 of the program (the segment sums and counts) leaves in its 8192 × 257 output array, at the ideal values.

   The grid is 8 × 4 with the reduction coordinate the fast one: point t has row block t div 4 and reduction step t mod 4.
   At t the body reads the 1024 × 1024 block (t mod 4, t div 4) of the labels and the 1024 × 257 block (t mod 4, 0) of the
   augmented batch rows; its addend at (r, j) is the sum over the block's 1024 batch rows of the mask of the label times the
   augmented entry. At t mod 4 = 0 the accumulator is that addend, elsewhere what the point before left plus it, and the
   output tile holds the same; the tile is written back, as block (t div 4, 0) of the output, at t mod 4 = 3 only, when it
   holds the four addends of its run. The sum over the 4096 batch rows splits into those four runs of 1024 (addition of
   extended reals is commutative and associative, so no finiteness is asked), so the written block is the block of the
   specification's array `SC`; the eight written blocks tile the output's rows. -/
import proofs.«418715_j4389456576871_1_alg».proof.Proof.R0Pieces
import proofs.«418715_j4389456576871_1_alg».proof.Proof.Pay02
import proofs.«418715_j4389456576871_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Spec Idealize.ShloMosaic.ValueIdx Cert.KernelIdeal.PayVal

section Region0Value

variable (V : (c : Dev nD) → (b : Ref sig .tc) → Buf (Elt Ideal) ((c : Thread nD τ).loc b))

/-! ## The grid's index maps -/

/-- The block indices of the three windows at a grid point: the labels' block is (t mod 4, t div 4), the augmented rows'
    (t mod 4, 0), the output's (t div 4, 0). -/
theorem idx_facts0 : ∀ t : Fin cfg0.N, win0_0.index t (0 : Fin 2) = t.val % 4 ∧ win0_0.index t (1 : Fin 2) = t.val / 4
    ∧ win0_1.index t (0 : Fin 2) = t.val % 4 ∧ win0_1.index t (1 : Fin 2) = 0
    ∧ win0_2.index t (0 : Fin 2) = t.val / 4 ∧ win0_2.index t (1 : Fin 2) = 0 :=
  (by decide +kernel : ∀ t : Fin grid0.N, _)

/-- The labels and the augmented batch rows as the region finds them. -/
abbrev labArr (c : Dev nD) : Vec Ideal S4096x8192 .f32 := V c main_arg1
abbrev zArr (c : Dev nD) : Vec Ideal S4096x257 .f32 := V c main_v1

/-- The labels' block at point t is rows (t mod 4)·1024 … and columns (t div 4)·1024 … of the labels. -/
theorem xblk_apply (c : Dev nD) (t : Fin cfg0.N) (k r : Fin 1024) (K : Fin 4096) (R : Fin 8192)
    (hK : K.val = k.val + 1024 * (t.val % 4)) (hR : R.val = t.val / 4 * 1024 + r.val) :
    (iblk0 V c 0 t : Vec Ideal S1024x1024 .f32) (ix2 k r) = labArr V c (ix2 K R) := by
  obtain ⟨e0, e1, -, -, -, -⟩ := idx_facts0 t
  unfold iblk0
  rw [View.read_apply]
  show V c main_arg1 _ = V c main_arg1 _
  congr 1
  funext a
  apply Fin.ext
  match a with
  | ⟨0, _⟩ => show win0_0.index t (0 : Fin 2) * 1024 + 1 * k.val = K.val; rw [e0, hK]; omega
  | ⟨1, _⟩ => show win0_0.index t (1 : Fin 2) * 1024 + 1 * r.val = R.val; rw [e1, hR]; omega

/-- The augmented rows' block at point t is rows (t mod 4)·1024 … of the augmented rows. -/
theorem zblk_apply (c : Dev nD) (t : Fin cfg0.N) (k : Fin 1024) (j : Fin 257) (K : Fin 4096)
    (hK : K.val = k.val + 1024 * (t.val % 4)) :
    (iblk0 V c 1 t : Vec Ideal S1024x257 .f32) (ix2 k j) = zArr V c (ix2 K j) := by
  obtain ⟨-, -, e2, e3, -, -⟩ := idx_facts0 t
  unfold iblk0
  rw [View.read_apply]
  show V c main_v1 _ = V c main_v1 _
  congr 1
  funext a
  apply Fin.ext
  match a with
  | ⟨0, _⟩ => show win0_1.index t (0 : Fin 2) * 1024 + 1 * k.val = K.val; rw [e2, hK]; omega
  | ⟨1, _⟩ => show win0_1.index t (1 : Fin 2) * 257 + 1 * j.val = j.val; rw [e3]; omega

/-! ## What the scratch and the output tile hold after each point, at an entry -/

/-- Point n's addend at (r, j): the sum over the block's rows of the mask of the label times the augmented entry. -/
def addend (c : Dev nD) (n : ℕ) (hn : n < cfg0.N) (r : Fin 1024) (j : Fin 257) : EReal :=
  ∑ k : Fin 1024, mk ((iblk0 V c 0 ⟨n, hn⟩ : Vec Ideal S1024x1024 .f32) (ix2 k r)) * (iblk0 V c 1 ⟨n, hn⟩ : Vec Ideal S1024x257 .f32) (ix2 k j)

/-- After every point the output tile and the scratch hold the same. -/
theorem fst_eq_snd (c : Dev nD) (n : ℕ) (hn : n < cfg0.N) : (outsAt0 V c n hn).1 = (outsAt0 V c n hn).2 := by
  by_cases h : n % 4 = 0
  · rw [outsAt0_reset V c ⟨n, hn⟩ h]
  · rw [outsAt0_acc V c ⟨n, hn⟩ h]

/-- At a point whose reduction coordinate is zero the scratch holds that point's addend. -/
theorem snd_reset (c : Dev nD) (n : ℕ) (hn : n < cfg0.N) (h : n % 4 = 0) (r : Fin 1024) (j : Fin 257) :
    (outsAt0 V c n hn).2 (ix2 r j) = addend V c n hn r j := by
  rw [outsAt0_reset V c ⟨n, hn⟩ h]
  show k0_pay2 (F := Ideal) _ _ _ (ix2 r j) = _
  rw [k0_pay2_apply, k0_pay1_apply, zero_add]
  rfl

/-- At any other point it holds what the point before left plus that point's addend. -/
theorem snd_acc (c : Dev nD) (n : ℕ) (hn : n + 1 < cfg0.N) (h : ¬(n + 1) % 4 = 0) (r : Fin 1024) (j : Fin 257) :
    (outsAt0 V c (n + 1) hn).2 (ix2 r j) = (outsAt0 V c n (Nat.lt_of_succ_lt hn)).2 (ix2 r j) + addend V c (n + 1) hn r j := by
  rw [outsAt0_acc V c ⟨n + 1, hn⟩ h]
  show k0_pay2 (F := Ideal) _ _ _ (ix2 r j) = _
  rw [k0_pay2_apply]
  rfl

/-- After the fourth point of a run the output tile holds the four addends' sum. -/
theorem fst_run (c : Dev nD) (b : ℕ) (hb : b % 4 = 0) (h3 : b + 1 + 1 + 1 < cfg0.N) (r : Fin 1024) (j : Fin 257) :
    (outsAt0 V c (b + 1 + 1 + 1) h3).1 (ix2 r j)
      = addend V c b (by omega) r j + addend V c (b + 1) (by omega) r j + addend V c (b + 1 + 1) (by omega) r j
        + addend V c (b + 1 + 1 + 1) h3 r j := by
  rw [fst_eq_snd, snd_acc V c (b + 1 + 1) h3 (by omega), snd_acc V c (b + 1) (by omega) (by omega),
    snd_acc V c b (by omega) (by omega), snd_reset V c b (by omega) hb]

/-! ## The batch sum in four runs -/

/-- A sum over 4096 indices is the sum of its four runs of 1024. -/
theorem sum_4096 (f : Fin 4096 → EReal) :
    ∑ b : Fin 4096, f b
      = (∑ k : Fin 1024, f ⟨k.val + 1024 * 0, by omega⟩) + (∑ k : Fin 1024, f ⟨k.val + 1024 * 1, by omega⟩)
        + (∑ k : Fin 1024, f ⟨k.val + 1024 * 2, by omega⟩) + (∑ k : Fin 1024, f ⟨k.val + 1024 * 3, by omega⟩) := by
  have e : ∑ b : Fin 4096, f b = ∑ p : Fin 4 × Fin 1024, f (finProdFinEquiv p) :=
    (Equiv.sum_comp (finProdFinEquiv (m := 4) (n := 1024)) f).symm
  rw [e, Fintype.sum_prod_type, Fin.sum_univ_four]
  rfl

/-- Point n's addend in terms of the arrays: n mod 4 picks the run of batch rows, n div 4 the run of label columns. -/
theorem addend_eq (c : Dev nD) (n : ℕ) (hn : n < cfg0.N) (s q : ℕ) (hs : n % 4 = s) (hq : n / 4 = q) (hs4 : s < 4)
    (r : Fin 1024) (j : Fin 257) (R : Fin 8192) (hR : R.val = q * 1024 + r.val) :
    addend V c n hn r j
      = ∑ k : Fin 1024, mk (labArr V c (ix2 (⟨k.val + 1024 * s, by omega⟩ : Fin 4096) R))
          * zArr V c (ix2 (⟨k.val + 1024 * s, by omega⟩ : Fin 4096) j) := by
  unfold addend
  refine Finset.sum_congr rfl fun k _ => ?_
  rw [xblk_apply V c ⟨n, hn⟩ k r ⟨k.val + 1024 * s, by omega⟩ R (by subst hs; rfl) (by subst hq; exact hR),
    zblk_apply V c ⟨n, hn⟩ k j ⟨k.val + 1024 * s, by omega⟩ (by subst hs; rfl)]

/-- At a point that writes back, the output tile at (r, j) is the segment sum at row (t div 4)·1024 + r, column j. -/
theorem tile0_eq (c : Dev nD) (t : Fin cfg0.N) (h3 : t.val % 4 = 3) (r : Fin 1024) (j : Fin 257) (R : Fin 8192)
    (hR : R.val = t.val / 4 * 1024 + r.val) :
    (outsAt0 V c t.val t.isLt).1 (ix2 r j) = SC (labArr V c) (zArr V c) (ix2 R j) := by
  have hN : cfg0.N = 32 := N_0
  have ht := t.isLt
  have hb : t.val - 3 + 1 + 1 + 1 = t.val := by omega
  have same : ∀ (u : ℕ) (hu : u < cfg0.N), u = t.val → (outsAt0 V c u hu).1 = (outsAt0 V c t.val t.isLt).1 := by
    intro u hu e; subst e; rfl
  rw [← same (t.val - 3 + 1 + 1 + 1) (by omega) hb, fst_run V c (t.val - 3) (by omega) (by omega) r j]
  show _ = ∑ b : Fin 4096, mk (labArr V c (ix2 b R)) * zArr V c (ix2 b j)
  rw [sum_4096 (fun b => mk (labArr V c (ix2 b R)) * zArr V c (ix2 b j)),
    addend_eq V c (t.val - 3) (by omega) 0 (t.val / 4) (by omega) (by omega) (by omega) r j R hR,
    addend_eq V c (t.val - 3 + 1) (by omega) 1 (t.val / 4) (by omega) (by omega) (by omega) r j R hR,
    addend_eq V c (t.val - 3 + 1 + 1) (by omega) 2 (t.val / 4) (by omega) (by omega) (by omega) r j R hR,
    addend_eq V c (t.val - 3 + 1 + 1 + 1) (by omega) 3 (t.val / 4) (by omega) (by omega) (by omega) r j R hR]

/-! ## What a point writes back, the cover, the array -/

/-- What a point that writes back writes is its block of the segment sums. -/
theorem flushed0_eq (c : Dev nD) (t : Fin cfg0.N) (hf : (cfg0.win 2).flush t = true) :
    (dat0 V c).flushed 2 t = ((cfg0.win 2).blk t).view.read (Elt Ideal) (SC (labArr V c) (zArr V c)) := by
  have h3 : t.val % 4 = 3 := (flush0_2 t).mp hf
  have hN : cfg0.N = 32 := N_0
  have ht := t.isLt
  obtain ⟨-, -, -, -, e4, e5⟩ := idx_facts0 t
  show (cfg0.win 2).cut (grid0.coords t) ((dat0 V c).after 2 t) = _
  rw [after0_2]
  funext y
  obtain ⟨r, j, rfl⟩ : ∃ (r : Fin 1024) (j : Fin 257), y = ix2 r j := ⟨y 0, y 1, eq_ix2 (n0 := 1024) (n1 := 257) y⟩
  rw [View.read_apply]
  have hemb : ((cfg0.win 2).blk t).view.emb (ix2 r j) = ix2 (⟨t.val / 4 * 1024 + r.val, by omega⟩ : Fin 8192) j := by
    funext a
    apply Fin.ext
    match a with
    | ⟨0, _⟩ => show win0_2.index t (0 : Fin 2) * 1024 + 1 * r.val = t.val / 4 * 1024 + r.val; rw [e4]; omega
    | ⟨1, _⟩ => show win0_2.index t (1 : Fin 2) * 257 + 1 * j.val = j.val; rw [e5]; omega
  show (outsAt0 V c t.val t.isLt).1 (ix2 r j) = SC (labArr V c) (zArr V c) (((cfg0.win 2).blk t).view.emb (ix2 r j))
  rw [hemb]
  exact tile0_eq V c t h3 r j _ rfl

/-- An index of the array is in point t's block iff each coordinate is in the block's range on its axis. -/
theorem mem_blk0 (t : Fin cfg0.N) (i : S8192x257.Idx) :
    i ∈ ((cfg0.win 2).blk t).view.set ↔ ∀ a : Fin 2, win0_2.index t a * S1024x257.size a ≤ (i a).val ∧ (i a).val < win0_2.index t a * S1024x257.size a + S1024x257.size a := by
  show i ∈ ((View.whole main_v2).slice (win0_2.rect t)).set ↔ _
  rw [View.set_slice_whole, Rect.mem_set_unit]
  exact Iff.rfl

/-- Every index of the array lies in the block of the last point of its row block's run. -/
theorem cover0 (i : S8192x257.Idx) : ∃ t : Fin cfg0.N, (cfg0.win 2).flush t = true ∧ i ∈ ((cfg0.win 2).blk t).view.set := by
  have hN : cfg0.N = 32 := N_0
  have hi0 : (i 0).val < 8192 := (i 0).isLt
  have hi1 : (i 1).val < 257 := (i 1).isLt
  obtain ⟨t, ht⟩ : ∃ t : Fin cfg0.N, t.val = 4 * ((i 0).val / 1024) + 3 := ⟨⟨4 * ((i 0).val / 1024) + 3, by omega⟩, rfl⟩
  obtain ⟨-, -, -, -, e4, e5⟩ := idx_facts0 t
  refine ⟨t, (flush0_2 t).mpr (by omega), ?_⟩
  rw [mem_blk0]
  intro a
  match a with
  | ⟨0, _⟩ => show win0_2.index t (0 : Fin 2) * 1024 ≤ (i 0).val ∧ (i 0).val < win0_2.index t (0 : Fin 2) * 1024 + 1024; rw [e4, ht]; omega
  | ⟨1, _⟩ => show win0_2.index t (1 : Fin 2) * 257 ≤ (i 1).val ∧ (i 1).val < win0_2.index t (1 : Fin 2) * 257 + 257; rw [e5]; omega

/-- After the region the output array holds the segment sums and counts of the labels and the augmented batch rows. -/
theorem final0 (c : Dev nD) : (dat0 (F := Ideal) V c).arrAt 2 cfg0.N = SC (V c main_arg1 : Vec Ideal S4096x8192 .f32) (V c main_v1 : Vec Ideal S4096x257 .f32) :=
  (dat0 V c).arrAt_eq_of_cover 2 (SC (labArr V c) (zArr V c)) (fun t hf => flushed0_eq V c t hf) cover0

end Region0Value

end Cert.KernelIdeal.Hand

end
-- ==== Proof.Pay1.lean ====
/- The prototype update's stored value, read at one entry, at the ideal values (floats are extended reals, every
   operation exact, a format change the identity).

   The value is built in stages, each a small vector expression: the scores (the product of the prototype rows with the
   transposed head rows, times one sixteenth), each row's largest score (a running maximum from minus infinity), the
   exponentials of the shifted scores, each row's sum of them, the quotients (the softmax weights), the prototype rows
   plus the weights' product with the head rows, the hidden layer (a product with the transposed first weight matrix, its
   bias added along the rows, the rectifier), and the product with the transposed second weight matrix; the second bias is
   added along the rows last.

   Each stage is read at explicit coordinates (r, h): a product with one contracted axis is the sum over that axis's
   coordinate of the operands' products (the contraction index is its one coordinate); a row reduction is the fold or the sum
   over the row's columns; a vector stood up as a column, or laid as a row, and repeated reads its one entry. Composed,
   entry (r, k) of the stored value is the row specification `rowF` of row r of the prototypes at k. -/
import proofs.«418715_j4389456576871_1_alg».proof.Proof.Gen.KernelIdeal.Skeleton
import proofs.«418715_j4389456576871_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayVal1

open Cert.KernelIdeal Cert.KernelIdeal.Gen Cert.Spec Idealize.ShloMosaic Idealize.ShloMosaic.ValueIdx

/-! ## The three products read at an index -/

theorem lhs_dA_0 (i : S512x512.Idx) (q : dot_S512x256_S512x256_S512x512_1_1_0_0_n_n.contr.Idx) :
    (dot_S512x256_S512x256_S512x512_1_1_0_0_n_n.lhsIdx i q 0).val = (i 0).val := by
  unfold DotDims.lhsIdx
  rw [dif_neg (show ¬(0 : Fin S512x256.rank) ∈ dot_S512x256_S512x256_S512x512_1_1_0_0_n_n.lhsBatch by decide), dif_pos (show (0 : Fin S512x256.rank) ∈ dot_S512x256_S512x256_S512x512_1_1_0_0_n_n.lhsNonContracting by decide)]
  rfl
theorem lhs_dA_1 (i : S512x512.Idx) (q : dot_S512x256_S512x256_S512x512_1_1_0_0_n_n.contr.Idx) :
    (dot_S512x256_S512x256_S512x512_1_1_0_0_n_n.lhsIdx i q 1).val = (q ⟨0, by decide⟩).val :=
  dot_S512x256_S512x256_S512x512_1_1_0_0_n_n.lhsIdx_val_of_single rfl i q
theorem rhs_dA_0 (i : S512x512.Idx) (q : dot_S512x256_S512x256_S512x512_1_1_0_0_n_n.contr.Idx) :
    (dot_S512x256_S512x256_S512x512_1_1_0_0_n_n.rhsIdx i q 0).val = (i 1).val := by
  unfold DotDims.rhsIdx
  rw [dif_neg (show ¬(0 : Fin S512x256.rank) ∈ dot_S512x256_S512x256_S512x512_1_1_0_0_n_n.rhsBatch by decide), dif_pos (show (0 : Fin S512x256.rank) ∈ dot_S512x256_S512x256_S512x512_1_1_0_0_n_n.rhsNonContracting by decide)]
  rfl
theorem rhs_dA_1 (i : S512x512.Idx) (q : dot_S512x256_S512x256_S512x512_1_1_0_0_n_n.contr.Idx) :
    (dot_S512x256_S512x256_S512x512_1_1_0_0_n_n.rhsIdx i q 1).val = (q ⟨0, by decide⟩).val :=
  dot_S512x256_S512x256_S512x512_1_1_0_0_n_n.rhsIdx_val_of_single rfl i q

/-- Entry (r, h) of the product of x with the transpose of y: the sum over d of x (r, d) y (h, d). -/
theorem matmulA_apply {φ₁ φ₂ : FTy} (x : FVec Ideal S512x256 φ₁) (y : FVec Ideal S512x256 φ₂) (r h : Fin 512) :
    matmul dot_S512x256_S512x256_S512x512_1_1_0_0_n_n none x y (constant (F := Ideal) S512x512 .f32 0x00000000#32) (ix2 r h)
      = ∑ d : Fin 256, x (ix2 r d) * y (ix2 h d) := by
  simp only [matmul]
  rw [Ideal.matmul_constant_zero_apply, ← Equiv.sum_comp (contrEquiv1 dot_S512x256_S512x256_S512x512_1_1_0_0_n_n 256 rfl rfl).symm]
  refine Finset.sum_congr rfl fun k _ => ?_
  have hk := contrEquiv1_symm_val dot_S512x256_S512x256_S512x512_1_1_0_0_n_n 256 rfl rfl k
  have el : dot_S512x256_S512x256_S512x512_1_1_0_0_n_n.lhsIdx (ix2 r h) ((contrEquiv1 dot_S512x256_S512x256_S512x512_1_1_0_0_n_n 256 rfl rfl).symm k) = ix2 r k := funext fun a => Fin.ext (by
    match a with
    | ⟨0, _⟩ => exact lhs_dA_0 _ _
    | ⟨1, _⟩ => exact (lhs_dA_1 _ _).trans hk)
  have er : dot_S512x256_S512x256_S512x512_1_1_0_0_n_n.rhsIdx (ix2 r h) ((contrEquiv1 dot_S512x256_S512x256_S512x512_1_1_0_0_n_n 256 rfl rfl).symm k) = ix2 h k := funext fun a => Fin.ext (by
    match a with
    | ⟨0, _⟩ => exact rhs_dA_0 _ _
    | ⟨1, _⟩ => exact (rhs_dA_1 _ _).trans hk)
  rw [el, er]

theorem lhs_dB_0 (i : S512x256.Idx) (q : dot_S512x512_S512x256_S512x256_1_0_0_1_n_n.contr.Idx) :
    (dot_S512x512_S512x256_S512x256_1_0_0_1_n_n.lhsIdx i q 0).val = (i 0).val := by
  unfold DotDims.lhsIdx
  rw [dif_neg (show ¬(0 : Fin S512x512.rank) ∈ dot_S512x512_S512x256_S512x256_1_0_0_1_n_n.lhsBatch by decide), dif_pos (show (0 : Fin S512x512.rank) ∈ dot_S512x512_S512x256_S512x256_1_0_0_1_n_n.lhsNonContracting by decide)]
  rfl
theorem lhs_dB_1 (i : S512x256.Idx) (q : dot_S512x512_S512x256_S512x256_1_0_0_1_n_n.contr.Idx) :
    (dot_S512x512_S512x256_S512x256_1_0_0_1_n_n.lhsIdx i q 1).val = (q ⟨0, by decide⟩).val :=
  dot_S512x512_S512x256_S512x256_1_0_0_1_n_n.lhsIdx_val_of_single rfl i q
theorem rhs_dB_0 (i : S512x256.Idx) (q : dot_S512x512_S512x256_S512x256_1_0_0_1_n_n.contr.Idx) :
    (dot_S512x512_S512x256_S512x256_1_0_0_1_n_n.rhsIdx i q 0).val = (q ⟨0, by decide⟩).val :=
  dot_S512x512_S512x256_S512x256_1_0_0_1_n_n.rhsIdx_val_of_single rfl i q
theorem rhs_dB_1 (i : S512x256.Idx) (q : dot_S512x512_S512x256_S512x256_1_0_0_1_n_n.contr.Idx) :
    (dot_S512x512_S512x256_S512x256_1_0_0_1_n_n.rhsIdx i q 1).val = (i 1).val := by
  unfold DotDims.rhsIdx
  rw [dif_neg (show ¬(1 : Fin S512x256.rank) ∈ dot_S512x512_S512x256_S512x256_1_0_0_1_n_n.rhsBatch by decide), dif_pos (show (1 : Fin S512x256.rank) ∈ dot_S512x512_S512x256_S512x256_1_0_0_1_n_n.rhsNonContracting by decide)]
  rfl

/-- Entry (r, d) of the plain product of a with y: the sum over h of a (r, h) y (h, d). -/
theorem matmulB_apply {φ₁ φ₂ : FTy} (a : FVec Ideal S512x512 φ₁) (y : FVec Ideal S512x256 φ₂) (r : Fin 512) (d : Fin 256) :
    matmul dot_S512x512_S512x256_S512x256_1_0_0_1_n_n none a y (constant (F := Ideal) S512x256 .f32 0x00000000#32) (ix2 r d)
      = ∑ h : Fin 512, a (ix2 r h) * y (ix2 h d) := by
  simp only [matmul]
  rw [Ideal.matmul_constant_zero_apply, ← Equiv.sum_comp (contrEquiv1 dot_S512x512_S512x256_S512x256_1_0_0_1_n_n 512 rfl rfl).symm]
  refine Finset.sum_congr rfl fun k _ => ?_
  have hk := contrEquiv1_symm_val dot_S512x512_S512x256_S512x256_1_0_0_1_n_n 512 rfl rfl k
  have el : dot_S512x512_S512x256_S512x256_1_0_0_1_n_n.lhsIdx (ix2 r d) ((contrEquiv1 dot_S512x512_S512x256_S512x256_1_0_0_1_n_n 512 rfl rfl).symm k) = ix2 r k := funext fun a => Fin.ext (by
    match a with
    | ⟨0, _⟩ => exact lhs_dB_0 _ _
    | ⟨1, _⟩ => exact (lhs_dB_1 _ _).trans hk)
  have er : dot_S512x512_S512x256_S512x256_1_0_0_1_n_n.rhsIdx (ix2 r d) ((contrEquiv1 dot_S512x512_S512x256_S512x256_1_0_0_1_n_n 512 rfl rfl).symm k) = ix2 k d := funext fun a => Fin.ext (by
    match a with
    | ⟨0, _⟩ => exact (rhs_dB_0 _ _).trans hk
    | ⟨1, _⟩ => exact rhs_dB_1 _ _)
  rw [el, er]

theorem lhs_dC_0 (i : S512x257.Idx) (q : dot_S512x512_S257x512_S512x257_1_1_0_0_n_n.contr.Idx) :
    (dot_S512x512_S257x512_S512x257_1_1_0_0_n_n.lhsIdx i q 0).val = (i 0).val := by
  unfold DotDims.lhsIdx
  rw [dif_neg (show ¬(0 : Fin S512x512.rank) ∈ dot_S512x512_S257x512_S512x257_1_1_0_0_n_n.lhsBatch by decide), dif_pos (show (0 : Fin S512x512.rank) ∈ dot_S512x512_S257x512_S512x257_1_1_0_0_n_n.lhsNonContracting by decide)]
  rfl
theorem lhs_dC_1 (i : S512x257.Idx) (q : dot_S512x512_S257x512_S512x257_1_1_0_0_n_n.contr.Idx) :
    (dot_S512x512_S257x512_S512x257_1_1_0_0_n_n.lhsIdx i q 1).val = (q ⟨0, by decide⟩).val :=
  dot_S512x512_S257x512_S512x257_1_1_0_0_n_n.lhsIdx_val_of_single rfl i q
theorem rhs_dC_0 (i : S512x257.Idx) (q : dot_S512x512_S257x512_S512x257_1_1_0_0_n_n.contr.Idx) :
    (dot_S512x512_S257x512_S512x257_1_1_0_0_n_n.rhsIdx i q 0).val = (i 1).val := by
  unfold DotDims.rhsIdx
  rw [dif_neg (show ¬(0 : Fin S257x512.rank) ∈ dot_S512x512_S257x512_S512x257_1_1_0_0_n_n.rhsBatch by decide), dif_pos (show (0 : Fin S257x512.rank) ∈ dot_S512x512_S257x512_S512x257_1_1_0_0_n_n.rhsNonContracting by decide)]
  rfl
theorem rhs_dC_1 (i : S512x257.Idx) (q : dot_S512x512_S257x512_S512x257_1_1_0_0_n_n.contr.Idx) :
    (dot_S512x512_S257x512_S512x257_1_1_0_0_n_n.rhsIdx i q 1).val = (q ⟨0, by decide⟩).val :=
  dot_S512x512_S257x512_S512x257_1_1_0_0_n_n.rhsIdx_val_of_single rfl i q

/-- Entry (r, k) of the product of a with the transpose of w: the sum over j of a (r, j) w (k, j). -/
theorem matmulC_apply {φ₁ φ₂ : FTy} (a : FVec Ideal S512x512 φ₁) (w : FVec Ideal S257x512 φ₂) (r : Fin 512) (k : Fin 257) :
    matmul dot_S512x512_S257x512_S512x257_1_1_0_0_n_n none a w (constant (F := Ideal) S512x257 .f32 0x00000000#32) (ix2 r k)
      = ∑ j : Fin 512, a (ix2 r j) * w (ix2 k j) := by
  simp only [matmul]
  rw [Ideal.matmul_constant_zero_apply, ← Equiv.sum_comp (contrEquiv1 dot_S512x512_S257x512_S512x257_1_1_0_0_n_n 512 rfl rfl).symm]
  refine Finset.sum_congr rfl fun c _ => ?_
  have hk := contrEquiv1_symm_val dot_S512x512_S257x512_S512x257_1_1_0_0_n_n 512 rfl rfl c
  have el : dot_S512x512_S257x512_S512x257_1_1_0_0_n_n.lhsIdx (ix2 r k) ((contrEquiv1 dot_S512x512_S257x512_S512x257_1_1_0_0_n_n 512 rfl rfl).symm c) = ix2 r c := funext fun a => Fin.ext (by
    match a with
    | ⟨0, _⟩ => exact lhs_dC_0 _ _
    | ⟨1, _⟩ => exact (lhs_dC_1 _ _).trans hk)
  have er : dot_S512x512_S257x512_S512x257_1_1_0_0_n_n.rhsIdx (ix2 r k) ((contrEquiv1 dot_S512x512_S257x512_S512x257_1_1_0_0_n_n 512 rfl rfl).symm c) = ix2 k c := funext fun a => Fin.ext (by
    match a with
    | ⟨0, _⟩ => exact rhs_dC_0 _ _
    | ⟨1, _⟩ => exact (rhs_dC_1 _ _).trans hk)
  rw [el, er]

/-! ## Row reductions and the two broadcasts read at an index -/

/-- The index a row reduction inserts its coordinate into: row r, column k. -/
theorem lift_row (h : S512x512.Reduces [1] S512) (r : Fin 512) (k : Fin 512) : h.lift (ix1 r) k = ix2 r k :=
  funext fun a => Fin.ext (by
    match a with
    | ⟨0, _⟩ => rfl
    | ⟨1, _⟩ => rfl)

/-- A row's running maximum from minus infinity. -/
theorem rowMax_apply (s : FVec Ideal S512x512 .f32) (h : S512x512.Reduces [1] S512) (hφ : FKind.Formats .f32)
    (hacc : (0xFF800000#32 : BitVec 32) = FKind.maximumf.neutral .f32 hφ) (r : Fin 512) :
    multiReduction (F := Ideal) .maximumf [1] S512 s 0xFF800000#32 h hφ hacc (ix1 r)
      = (Finset.univ : Finset (Fin 512)).fold max negInf (fun k => s (ix2 r k)) := by
  refine (Ideal.multiReduction_maximumf_single s 0xFF800000#32 h hφ hacc (ix1 r)).trans ?_
  show (Finset.univ : Finset (Fin 512)).fold max negInf (fun k => s (h.lift (ix1 r) k)) = _
  exact congrArg (fun f : Fin 512 → EReal => (Finset.univ : Finset (Fin 512)).fold max negInf f) (funext fun k => congrArg s (lift_row h r k))

/-- A row's sum. -/
theorem rowSum_apply (e : FVec Ideal S512x512 .f32) (h : S512x512.Reduces [1] S512) (hφ : FKind.Formats .f32)
    (hacc : (0x00000000#32 : BitVec 32) = FKind.add.neutral .f32 hφ) (r : Fin 512) :
    multiReduction (F := Ideal) .add [1] S512 e 0x00000000#32 h hφ hacc (ix1 r) = ∑ k : Fin 512, e (ix2 r k) := by
  refine (Ideal.multiReduction_add_single e 0x00000000#32 h hφ hacc (ix1 r)).trans ?_
  show ∑ k : Fin 512, e (h.lift (ix1 r) k) = _
  exact Finset.sum_congr rfl fun k _ => congrArg e (lift_row h r k)

/-- A vector of 512 entries stood up as a column and repeated along the rows: entry (r, k) is entry r. -/
theorem col_apply {α : Type} (v : S512.Idx → α) (h1 : S512.ShapeCasts S512x1) (h2 : S512x1.Broadcasts S512x512) (r k : Fin 512) :
    broadcastTo S512x512 (shapeCast S512x1 v h1) h2 (ix2 r k) = v (ix1 r) := by
  refine (broadcastTo_apply (shapeCast S512x1 v h1) h2 (ix2 r k) (ix2 r (0 : Fin 1)) (fun ax => ?_)).trans ?_
  · match ax with
    | ⟨0, _⟩ => show r.val = if (512 : Nat) = 1 then 0 else r.val; rw [if_neg (by decide)]
    | ⟨1, _⟩ => show 0 = if (1 : Nat) = 1 then 0 else k.val; rw [if_pos rfl]
  · refine shapeCast_apply v h1 (ix2 r (0 : Fin 1)) (ix1 r) ?_
    rw [Shape.rowMajor_val_two, Shape.rowMajor_val_one]
    show r.val = r.val * 1 + 0
    omega

/-- A vector laid as one row and repeated down 512 rows: entry (r, j) is entry j. -/
theorem row_apply {α : Type} {n : Nat} (v : (⟨1, ![n]⟩ : Shape).Idx → α) (h1 : (⟨1, ![n]⟩ : Shape).ShapeCasts ⟨2, ![1, n]⟩)
    (h2 : (⟨2, ![1, n]⟩ : Shape).Broadcasts ⟨2, ![512, n]⟩) (r : Fin 512) (j : Fin n) :
    broadcastTo ⟨2, ![512, n]⟩ (shapeCast ⟨2, ![1, n]⟩ v h1) h2 (ix2 r j) = v (ix1 j) :=
  (broadcastTo_1b_ab_apply _ h2 r j).trans (shapeCast_a_1a_apply v h1 0 j)

/-! ## The payload in stages -/

/-- The scaled scores of every row against every head row. -/
def kS (p ph : Vec Ideal S512x256 .f32) : FVec Ideal S512x512 .f32 :=
  mulf (matmul dot_S512x256_S512x256_S512x512_1_1_0_0_n_n none
      (truncf .bf16 (shapeCast S512x256 p shapeCasts_S512x256_S512x256) bitsLt_bf16_f32)
      (truncf .bf16 (shapeCast S512x256 ph shapeCasts_S512x256_S512x256) bitsLt_bf16_f32)
      (constant S512x512 .f32 0x00000000#32))
    (broadcast S512x512 (Scalar.ofBits .f32 0x3D800000#32))

/-- The largest entry of each row, not below minus infinity. -/
def kM (s : FVec Ideal S512x512 .f32) : FVec Ideal S512 .f32 :=
  maximumf (broadcast S512 (Scalar.ofBits .f32 0xFF800000#32))
    (multiReduction .maximumf [1] S512 s 0xFF800000#32 reduces_S512x512_S512 (.inl rfl) rfl)

/-- A vector as a column repeated along the rows. -/
def kCol (v : FVec Ideal S512 .f32) : FVec Ideal S512x512 .f32 :=
  broadcastTo S512x512 (shapeCast S512x1 v shapeCasts_S512_S512x1) broadcasts_S512x1_S512x512

/-- The exponentials of the entries shifted by their row's largest. -/
def kE (s : FVec Ideal S512x512 .f32) : FVec Ideal S512x512 .f32 := exp (subf s (kCol (kM s)))

/-- Each row's sum. -/
def kSum (e : FVec Ideal S512x512 .f32) : FVec Ideal S512 .f32 :=
  multiReduction .add [1] S512 e 0x00000000#32 reduces_S512x512_S512 (.inl rfl) rfl

/-- Each entry over its row's sum. -/
def kAl (e : FVec Ideal S512x512 .f32) : FVec Ideal S512x512 .f32 := divf e (kCol (kSum e))

/-- The rows plus the attended head rows. -/
def kP (p ph : Vec Ideal S512x256 .f32) : FVec Ideal S512x256 .f32 :=
  addf (shapeCast S512x256 p shapeCasts_S512x256_S512x256)
    (matmul dot_S512x512_S512x256_S512x256_1_0_0_1_n_n none
      (truncf .bf16 (kAl (kE (kS p ph))) bitsLt_bf16_f32)
      (truncf .bf16 (shapeCast S512x256 ph shapeCasts_S512x256_S512x256) bitsLt_bf16_f32)
      (constant S512x256 .f32 0x00000000#32))

/-- The hidden layer: a product, a bias along the rows, the rectifier. -/
def kH (pe : FVec Ideal S512x256 .f32) (w1 : Vec Ideal S512x256 .f32) (b1 : Vec Ideal S512 .f32) : FVec Ideal S512x512 .f32 :=
  maximumf
    (addf (matmul dot_S512x256_S512x256_S512x512_1_1_0_0_n_n none
        (truncf .bf16 pe bitsLt_bf16_f32) (truncf .bf16 w1 bitsLt_bf16_f32) (constant S512x512 .f32 0x00000000#32))
      (broadcastTo S512x512 (shapeCast S1x512 b1 shapeCasts_S512_S1x512) broadcasts_S1x512_S512x512))
    (broadcast S512x512 (Scalar.ofBits .f32 0x00000000#32))

/-- The second product. -/
def kO (hd : FVec Ideal S512x512 .f32) (w2 : Vec Ideal S257x512 .f32) : FVec Ideal S512x257 .f32 :=
  matmul dot_S512x512_S257x512_S512x257_1_1_0_0_n_n none
    (truncf .bf16 hd bitsLt_bf16_f32) (truncf .bf16 w2 bitsLt_bf16_f32) (constant S512x257 .f32 0x00000000#32)

/-- The printed payload is these stages composed. -/
theorem k1_pay2_eq (p ph w1 : Vec Ideal S512x256 .f32) (b1 : Vec Ideal S512 .f32) (w2 : Vec Ideal S257x512 .f32) :
    k1_pay2 (F := Ideal) p ph w1 b1 w2 = kO (kH (kP p ph) w1 b1) w2 := rfl

/-! ## Each stage read at an index -/

theorem kS_apply (p ph : Vec Ideal S512x256 .f32) (r h : Fin 512) :
    kS p ph (ix2 r h) = score (fun d => p (ix2 r d)) ph h := by
  unfold kS
  refine (mulf_apply _ _ (ix2 r h)).trans ?_
  refine congrArg (· * c16) ?_
  refine (matmulA_apply _ _ r h).trans ?_
  refine Finset.sum_congr rfl fun d _ => ?_
  rw [truncf_apply, truncf_apply, shapeCast_self, shapeCast_self]

theorem kM_apply (s : FVec Ideal S512x512 .f32) (r : Fin 512) :
    kM s (ix1 r) = max negInf ((Finset.univ : Finset (Fin 512)).fold max negInf (fun k => s (ix2 r k))) := by
  unfold kM
  refine (maximumf_apply _ _ (ix1 r)).trans ?_
  exact congrArg (max negInf) (rowMax_apply s _ _ _ r)

theorem kCol_apply (v : FVec Ideal S512 .f32) (r k : Fin 512) : kCol v (ix2 r k) = v (ix1 r) :=
  col_apply v _ _ r k

theorem kE_apply (s : FVec Ideal S512x512 .f32) (r h : Fin 512) :
    kE s (ix2 r h) = Ideal.exp (s (ix2 r h) - max negInf ((Finset.univ : Finset (Fin 512)).fold max negInf (fun k => s (ix2 r k)))) := by
  unfold kE
  show Ideal.exp (s (ix2 r h) - kCol (kM s) (ix2 r h)) = _
  rw [kCol_apply, kM_apply]

theorem kSum_apply (e : FVec Ideal S512x512 .f32) (r : Fin 512) : kSum e (ix1 r) = ∑ k : Fin 512, e (ix2 r k) :=
  rowSum_apply e _ _ _ r

theorem kAl_apply (e : FVec Ideal S512x512 .f32) (r h : Fin 512) :
    kAl e (ix2 r h) = Ideal.div (e (ix2 r h)) (∑ k : Fin 512, e (ix2 r k)) := by
  unfold kAl
  refine (divf_apply _ _ (ix2 r h)).trans ?_
  rw [kCol_apply, kSum_apply]

theorem kP_apply (p ph : Vec Ideal S512x256 .f32) (r : Fin 512) (d : Fin 256) :
    kP p ph (ix2 r d) = p (ix2 r d) + ∑ h : Fin 512, kAl (kE (kS p ph)) (ix2 r h) * ph (ix2 h d) := by
  unfold kP
  refine (addf_apply _ _ (ix2 r d)).trans ?_
  rw [shapeCast_self]
  refine congrArg (p (ix2 r d) + ·) ?_
  refine (matmulB_apply _ _ r d).trans ?_
  refine Finset.sum_congr rfl fun h _ => ?_
  rw [truncf_apply, truncf_apply, shapeCast_self]

theorem kH_apply (pe : FVec Ideal S512x256 .f32) (w1 : Vec Ideal S512x256 .f32) (b1 : Vec Ideal S512 .f32) (r j : Fin 512) :
    kH pe w1 b1 (ix2 r j) = max ((∑ d : Fin 256, pe (ix2 r d) * w1 (ix2 j d)) + b1 (ix1 j)) 0 := by
  unfold kH
  refine (maximumf_apply _ _ (ix2 r j)).trans ?_
  rw [broadcast_apply]
  show max _ (Ideal.ofBits .f32 0x00000000#32) = _
  rw [Ideal.ofBits_zero_f32]
  refine congrArg (max · 0) ?_
  refine (addf_apply _ _ (ix2 r j)).trans ?_
  rw [row_apply b1 _ _ r j]
  refine congrArg (· + b1 (ix1 j)) ?_
  refine (matmulA_apply _ _ r j).trans ?_
  refine Finset.sum_congr rfl fun d _ => ?_
  rw [truncf_apply, truncf_apply]

theorem kO_apply (hd : FVec Ideal S512x512 .f32) (w2 : Vec Ideal S257x512 .f32) (r : Fin 512) (k : Fin 257) :
    kO hd w2 (ix2 r k) = ∑ j : Fin 512, hd (ix2 r j) * w2 (ix2 k j) := by
  unfold kO
  refine (matmulC_apply _ _ r k).trans ?_
  refine Finset.sum_congr rfl fun j _ => ?_
  rw [truncf_apply, truncf_apply]

/-! ## The stages are the row specification's -/

section Link

variable (p ph w1 : Vec Ideal S512x256 .f32) (b1 : Vec Ideal S512 .f32) (w2 : Vec Ideal S257x512 .f32)
  (b2 : Vec Ideal S257 .f32) (r : Fin 512)

theorem kS_row : (fun k => kS p ph (ix2 r k)) = score (fun d => p (ix2 r d)) ph :=
  funext fun k => kS_apply p ph r k

theorem kE_eq (h : Fin 512) : kE (kS p ph) (ix2 r h) = ex (fun d => p (ix2 r d)) ph h := by
  refine (kE_apply _ r h).trans ?_
  rw [kS_row, kS_apply]
  rfl

theorem kAl_eq (h : Fin 512) : kAl (kE (kS p ph)) (ix2 r h) = alpha (fun d => p (ix2 r d)) ph h := by
  refine (kAl_apply _ r h).trans ?_
  unfold alpha
  rw [kE_eq]
  exact congrArg (Ideal.div _) (Finset.sum_congr rfl fun k _ => kE_eq p ph r k)

theorem kP_eq (d : Fin 256) : kP p ph (ix2 r d) = peff (fun d => p (ix2 r d)) ph d := by
  refine (kP_apply p ph r d).trans ?_
  unfold peff
  exact congrArg (p (ix2 r d) + ·) (Finset.sum_congr rfl fun h _ => by rw [kAl_eq])

theorem kH_eq (j : Fin 512) : kH (kP p ph) w1 b1 (ix2 r j) = hid (fun d => p (ix2 r d)) ph w1 b1 j := by
  refine (kH_apply _ w1 b1 r j).trans ?_
  unfold hid
  exact congrArg (max · 0) (congrArg (· + b1 (ix1 j)) (Finset.sum_congr rfl fun d _ => by rw [kP_eq]))

end Link

/-- The kernel's stored value of the prototype update at row r, column k is the row specification of row r at k. -/
theorem k1_out_apply (p ph w1 : Vec Ideal S512x256 .f32) (b1 : Vec Ideal S512 .f32) (w2 : Vec Ideal S257x512 .f32)
    (b2 : Vec Ideal S257 .f32) (r : Fin 512) (k : Fin 257) :
    k1_pay1 (F := Ideal) (k1_pay2 p ph w1 b1 w2) (k1_pay3 b2) (ix2 r k) = rowF (fun d => p (ix2 r d)) ph w1 b1 w2 b2 k := by
  unfold k1_pay1
  refine (addf_apply _ _ (ix2 r k)).trans ?_
  unfold rowF
  rw [k1_pay2_eq, kO_apply]
  unfold k1_pay3
  rw [row_apply b2 _ _ r k]
  exact congrArg (· + b2 (ix1 k)) (Finset.sum_congr rfl fun j _ => by rw [kH_eq])

end Cert.KernelIdeal.PayVal1

end
-- ==== Proof.K1Val.lean ====
/- What the prototype update leaves in its 8192 × 257 output array, from what each grid point writes back.

   The grid has 16 points. Point t reads rows 512 t … 512 t + 511 of the prototypes and, whole, the head rows, the two
   weight matrices and the two biases; it writes rows 512 t … 512 t + 511 of the output. Row r of what it writes is the
   row function (scores against the head rows scaled by 1/16, softmax, the attended head rows added, a linear layer,
   the rectifier, a second linear layer) of row r of its block of the prototypes, which is row 512 t + r of the
   prototypes. So what point t writes is the block at rows 512 t … 512 t + 511 of ONE array: the row function applied
   to every row of the prototypes. Row i of the output lies in the block of point i / 512, every point writes its
   block back, and the sixteen blocks fill the array; hence the array ends holding that one array. -/
import proofs.«418715_j4389456576871_1_alg».proof.Proof.R1Frame
import proofs.«418715_j4389456576871_1_alg».proof.Proof.Pay1
import proofs.«418715_j4389456576871_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Spec Idealize.ShloMosaic.ValueIdx
open Cert.KernelIdeal.PayVal1

section Region1Value

variable (V : (c : Dev nD) → (b : Ref sig .tc) → Buf (Elt Ideal) ((c : Thread nD τ).loc b))

/-! ## The six input arrays and the one output array, at their literal types -/

/-- The prototypes, the head rows, the two weight matrices and the two biases as the region finds them. -/
abbrev protoArr (c : Dev nD) : Vec Ideal S8192x256 .f32 := V c main_v21
abbrev headArr (c : Dev nD) : Vec Ideal S512x256 .f32 := V c main_v22
abbrev w1Arr (c : Dev nD) : Vec Ideal S512x256 .f32 := V c main_arg5
abbrev b1Arr (c : Dev nD) : Vec Ideal S512 .f32 := V c main_arg6
abbrev w2Arr (c : Dev nD) : Vec Ideal S257x512 .f32 := V c main_arg7
abbrev b2Arr (c : Dev nD) : Vec Ideal S257 .f32 := V c main_arg8

/-- The row function applied to every row of the prototypes. -/
abbrev updArr (c : Dev nD) : Vec Ideal S8192x257 .f32 :=
  Cert.Spec.WB (protoArr V c) (headArr V c) (w1Arr V c) (b1Arr V c) (w2Arr V c) (b2Arr V c)

/-! ## Where each window's block sits: decided once over the sixteen points -/

theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0 :=
  (by decide +kernel : ∀ t : Fin grid1.N, _)

theorem zeroOff1_rank2 : (![0, 0] : Fin 2 → Nat) = fun _ => 0 := funext fun a => by fin_cases a <;> rfl
theorem zeroOff1_rank1 : (![0] : Fin 1 → Nat) = fun _ => 0 := funext fun a => by fin_cases a; rfl

/-! ## Each input block read off its array -/

/-- Row y₀ of point t's block of the prototypes is row 512 t + y₀ of the prototypes. -/
theorem protoBlk_apply (c : Dev nD) (t : Fin cfg1.N) (y : S512x256.Idx) (k : S8192x256.Idx)
    (hk0 : (k 0).val = 512 * t.val + (y 0).val) (hk1 : (k 1).val = (y 1).val) :
    (iblk1 V c 0 t : Vec Ideal S512x256 .f32) y = protoArr V c k := by
  obtain ⟨e0, e1, -⟩ := idx_facts1 t
  unfold iblk1
  rw [View.read_apply]
  show V c main_v21 _ = V c main_v21 k
  refine congrArg (V c main_v21) ?_
  funext a; apply Fin.ext
  match a with
  | ⟨0, _⟩ => show win1_0.index t (0 : Fin 2) * 512 + 1 * (y 0).val = (k 0).val; omega
  | ⟨1, _⟩ => show win1_0.index t (1 : Fin 2) * 256 + 1 * (y 1).val = (k 1).val; omega

/-- The five whole-array windows: the block is the array. -/
theorem headBlk_eq (c : Dev nD) (t : Fin cfg1.N) : (iblk1 V c 1 t : Vec Ideal S512x256 .f32) = headArr V c := by
  obtain ⟨-, -, e0, e1, -⟩ := idx_facts1 t
  funext y
  unfold iblk1
  rw [View.read_apply]
  show V c main_v22 _ = V c main_v22 y
  refine congrArg (V c main_v22) ?_
  funext a; apply Fin.ext
  match a with
  | ⟨0, _⟩ => show win1_1.index t (0 : Fin 2) * 512 + 1 * (y 0).val = (y 0).val; omega
  | ⟨1, _⟩ => show win1_1.index t (1 : Fin 2) * 256 + 1 * (y 1).val = (y 1).val; omega

theorem w1Blk_eq (c : Dev nD) (t : Fin cfg1.N) : (iblk1 V c 2 t : Vec Ideal S512x256 .f32) = w1Arr V c := by
  obtain ⟨-, -, -, -, e0, e1, -⟩ := idx_facts1 t
  funext y
  unfold iblk1
  rw [View.read_apply]
  show V c main_arg5 _ = V c main_arg5 y
  refine congrArg (V c main_arg5) ?_
  funext a; apply Fin.ext
  match a with
  | ⟨0, _⟩ => show win1_2.index t (0 : Fin 2) * 512 + 1 * (y 0).val = (y 0).val; omega
  | ⟨1, _⟩ => show win1_2.index t (1 : Fin 2) * 256 + 1 * (y 1).val = (y 1).val; omega

theorem b1Blk_eq (c : Dev nD) (t : Fin cfg1.N) : (iblk1 V c 3 t : Vec Ideal S512 .f32) = b1Arr V c := by
  obtain ⟨-, -, -, -, -, -, e0, -⟩ := idx_facts1 t
  funext y
  unfold iblk1
  rw [View.read_apply]
  show V c main_arg6 _ = V c main_arg6 y
  refine congrArg (V c main_arg6) ?_
  funext a; apply Fin.ext
  match a with
  | ⟨0, _⟩ => show win1_3.index t (0 : Fin 1) * 512 + 1 * (y 0).val = (y 0).val; omega

theorem w2Blk_eq (c : Dev nD) (t : Fin cfg1.N) : (iblk1 V c 4 t : Vec Ideal S257x512 .f32) = w2Arr V c := by
  obtain ⟨-, -, -, -, -, -, -, e0, e1, -⟩ := idx_facts1 t
  funext y
  unfold iblk1
  rw [View.read_apply]
  show V c main_arg7 _ = V c main_arg7 y
  refine congrArg (V c main_arg7) ?_
  funext a; apply Fin.ext
  match a with
  | ⟨0, _⟩ => show win1_4.index t (0 : Fin 2) * 257 + 1 * (y 0).val = (y 0).val; omega
  | ⟨1, _⟩ => show win1_4.index t (1 : Fin 2) * 512 + 1 * (y 1).val = (y 1).val; omega

theorem b2Blk_eq (c : Dev nD) (t : Fin cfg1.N) : (iblk1 V c 5 t : Vec Ideal S257 .f32) = b2Arr V c := by
  obtain ⟨-, -, -, -, -, -, -, -, -, e0, -⟩ := idx_facts1 t
  funext y
  unfold iblk1
  rw [View.read_apply]
  show V c main_arg8 _ = V c main_arg8 y
  refine congrArg (V c main_arg8) ?_
  funext a; apply Fin.ext
  match a with
  | ⟨0, _⟩ => show win1_5.index t (0 : Fin 1) * 257 + 1 * (y 0).val = (y 0).val; omega

/-! ## What point t writes back is its block of the one array -/

theorem flushed1_eq (c : Dev nD) (t : Fin cfg1.N) :
    (dat1 V c).flushed 6 t = ((cfg1.win 6).blk t).view.read (Elt Ideal) (updArr V c) := by
  show (cfg1.win 6).cut (grid1.coords t) ((dat1 V c).after 6 t) = _
  rw [after1_6]
  unfold out1_6
  rw [View.canon_unit_zero zeroOff1_rank2]
  simp only [View.ld_unit_zero (S := S512x256) zeroOff1_rank2, View.ld_unit_zero (S := S512) zeroOff1_rank1,
    View.ld_unit_zero (S := S257x512) zeroOff1_rank2, View.ld_unit_zero (S := S257) zeroOff1_rank1]
  rw [headBlk_eq, w1Blk_eq, b1Blk_eq, w2Blk_eq, b2Blk_eq]
  obtain ⟨-, -, -, -, -, -, -, -, -, -, e0, e1⟩ := idx_facts1 t
  funext j
  obtain ⟨r, k, rfl⟩ : ∃ (r : Fin 512) (k : Fin 257), j = ix2 r k := ⟨j 0, j 1, eq_ix2 j⟩
  show k1_pay1 (F := Ideal) (k1_pay2 (iblk1 V c 0 t : Vec Ideal S512x256 .f32) (headArr V c) (w1Arr V c) (b1Arr V c) (w2Arr V c)) (k1_pay3 (b2Arr V c)) (ix2 r k)
    = updArr V c (((cfg1.win 6).blk t).view.emb (ix2 r k))
  rw [k1_out_apply]
  show rowF (fun d => (iblk1 V c 0 t : Vec Ideal S512x256 .f32) (ix2 r d)) (headArr V c) (w1Arr V c) (b1Arr V c) (w2Arr V c) (b2Arr V c) k
    = rowF (fun d => protoArr V c (ix2 ((((cfg1.win 6).blk t).view.emb (ix2 r k)) 0) d)) (headArr V c) (w1Arr V c) (b1Arr V c) (w2Arr V c) (b2Arr V c)
        ((((cfg1.win 6).blk t).view.emb (ix2 r k)) 1)
  have hcol : (((cfg1.win 6).blk t).view.emb (ix2 r k)) 1 = k := Fin.ext (by
    show win1_6.index t (1 : Fin 2) * 257 + 1 * k.val = k.val; omega)
  have hrow : ((((cfg1.win 6).blk t).view.emb (ix2 r k)) 0).val = 512 * t.val + r.val := by
    show win1_6.index t (0 : Fin 2) * 512 + 1 * r.val = 512 * t.val + r.val; omega
  have hrows : (fun d => (iblk1 V c 0 t : Vec Ideal S512x256 .f32) (ix2 r d))
      = fun d => protoArr V c (ix2 ((((cfg1.win 6).blk t).view.emb (ix2 r k)) 0) d) :=
    funext fun d => protoBlk_apply V c t (ix2 r d) _ hrow rfl
  rw [hrows, hcol]

/-! ## The blocks fill the array -/

theorem mem_blk1 (t : Fin cfg1.N) (i : S8192x257.Idx) :
    i ∈ ((cfg1.win 6).blk t).view.set ↔ ∀ a : Fin 2, win1_6.index t a * S512x257.size a ≤ (i a).val ∧ (i a).val < win1_6.index t a * S512x257.size a + S512x257.size a := by
  show i ∈ ((View.whole main_v23).slice (win1_6.rect t)).set ↔ _
  rw [View.set_slice_whole, Rect.mem_set_unit]
  exact Iff.rfl

/-- Row i of the output lies in the block of point i / 512, and every point writes its block back. -/
theorem cover1 (i : S8192x257.Idx) :
    ∃ t : Fin cfg1.N, (cfg1.win 6).flush t = true ∧ i ∈ ((cfg1.win 6).blk t).view.set := by
  have hi0 : (i 0).val < 8192 := (i 0).isLt
  have hi1 : (i 1).val < 257 := (i 1).isLt
  obtain ⟨t, ht⟩ : ∃ t : Fin cfg1.N, t.val = (i 0).val / 512 :=
    ⟨⟨(i 0).val / 512, by rw [show cfg1.N = 16 from by decide]; omega⟩, rfl⟩
  obtain ⟨-, -, -, -, -, -, -, -, -, -, e0, e1⟩ := idx_facts1 t
  refine ⟨t, flush1_6 t, ?_⟩
  rw [mem_blk1]
  intro a
  match a with
  | ⟨0, _⟩ => show win1_6.index t (0 : Fin 2) * 512 ≤ (i 0).val ∧ (i 0).val < win1_6.index t (0 : Fin 2) * 512 + 512; omega
  | ⟨1, _⟩ => show win1_6.index t (1 : Fin 2) * 257 ≤ (i 1).val ∧ (i 1).val < win1_6.index t (1 : Fin 2) * 257 + 257; omega

/-! ## The array after the region -/

theorem final1 (c : Dev nD) : (dat1 (F := Ideal) V c).arrAt 6 cfg1.N
    = WB (V c main_v21 : Vec Ideal S8192x256 .f32) (V c main_v22 : Vec Ideal S512x256 .f32) (V c main_arg5 : Vec Ideal S512x256 .f32)
        (V c main_arg6 : Vec Ideal S512 .f32) (V c main_arg7 : Vec Ideal S257x512 .f32) (V c main_arg8 : Vec Ideal S257 .f32) :=
  (dat1 V c).arrAt_eq_of_cover 6 (updArr V c) (fun t _ => flushed1_eq V c t) (cover1)

end Region1Value

end Cert.KernelIdeal.Hand

end
-- ==== Proof.K2Val.lean ====
/- What region 2 of the program leaves in its output array (4096 x 8192), from what each grid point writes back.
   At the point (bi, ci) the body's tile is the 1024 x 256 block bi of the batch rows against the 1024 x 256 block ci
   of the weight rows, contracted over the 256 columns, plus block ci of the bias; the point writes that tile to block
   (bi, ci) of the array, and the 4 x 8 blocks tile the array. So entry (b, c) of the array ends as the sum over d of
   z (b, d) * W (c, d), plus the bias at c: each tile is the restriction of that one function to its block. -/
import proofs.«418715_j4389456576871_1_alg».proof.Proof.R2Frame
import proofs.«418715_j4389456576871_1_alg».proof.Proof.Pay02
import proofs.«418715_j4389456576871_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Spec Idealize.ShloMosaic.ValueIdx

section Region2Value

variable (V : (c : Dev nD) → (b : Ref sig .tc) → Buf (Elt Ideal) ((c : Thread nD τ).loc b))

/-- The three arrays the region reads, each under its literal type: the batch rows, the weight rows, the bias. -/
abbrev zArr2 (c : Dev nD) : Vec Ideal S4096x256 .f32 := V c main_arg0
abbrev wArr2 (c : Dev nD) : Vec Ideal S8192x256 .f32 := V c main_v24
abbrev bArr2 (c : Dev nD) : Vec Ideal S8192 .f32 := V c main_v26

/-- The logits as one function of the three arrays: row b against row c over the 256 columns, plus the bias at c. -/
def logitsOf (z : Vec Ideal S4096x256 .f32) (w : Vec Ideal S8192x256 .f32) (b : Vec Ideal S8192 .f32) :
    Vec Ideal S4096x8192 .f32 :=
  fun i => (∑ d : Fin 256, z (ix2 (i 0) d) * w (ix2 (i 1) d)) + b (ix1 (i 1))

theorem zeros2 : (![0, 0] : Fin 2 → Nat) = fun _ => 0 := funext fun a => by fin_cases a <;> rfl
theorem zeros1 : (![0] : Fin 1 → Nat) = fun _ => 0 := funext fun a => by fin_cases a <;> rfl

/-- The block indices over the grid: the batch block follows the output's row block, the weight and bias blocks its
    column block, and point t's output block is (t / 8, t % 8). -/
theorem blockIdx2 : ∀ t : Fin cfg2.N,
    win2_0.index t (0 : Fin 2) = win2_3.index t (0 : Fin 2) ∧ win2_0.index t (1 : Fin 2) = 0
    ∧ win2_1.index t (0 : Fin 2) = win2_3.index t (1 : Fin 2) ∧ win2_1.index t (1 : Fin 2) = 0
    ∧ win2_2.index t (0 : Fin 1) = win2_3.index t (1 : Fin 2)
    ∧ win2_3.index t (0 : Fin 2) = t.val / 8 ∧ win2_3.index t (1 : Fin 2) = t.val % 8 :=
  (by decide +kernel : ∀ t : Fin grid2.N, _)

/-- A tile is the restriction of the one function: when the three blocks are the arrays read at row block bi and
    column block ci, the tile's entry j is the function's entry at (bi * 1024 + j 0, ci * 1024 + j 1). -/
theorem tile_eq (zb wb : Vec Ideal S1024x256 .f32) (bb : Vec Ideal S1024 .f32)
    (z : Vec Ideal S4096x256 .f32) (w : Vec Ideal S8192x256 .f32) (b : Vec Ideal S8192 .f32)
    (j : S1024x1024.Idx) (i : S4096x8192.Idx)
    (hz : ∀ d : Fin 256, zb (ix2 (j 0) d) = z (ix2 (i 0) d))
    (hw : ∀ d : Fin 256, wb (ix2 (j 1) d) = w (ix2 (i 1) d))
    (hb : bb (ix1 (j 1)) = b (ix1 (i 1))) :
    k2_pay1 (F := Ideal) zb wb bb j = logitsOf z w b i := by
  obtain ⟨r, q, rfl⟩ : ∃ (r q : Fin 1024), j = ix2 r q := ⟨j 0, j 1, eq_ix2 j⟩
  rw [PayVal.k2_pay1_apply]
  unfold logitsOf
  rw [← hb]
  refine congrArg (· + bb (ix1 q)) (Finset.sum_congr rfl fun d _ => ?_)
  rw [← hz d, ← hw d]

/-- The batch block at point t read at (r, d) is the batch rows read at the row the block index names. -/
theorem zblk2_apply (c : Dev nD) (t : Fin cfg2.N) (r : Fin 1024) (d : Fin 256) (k : S4096x256.Idx)
    (hk0 : (k 0).val = win2_0.index t (0 : Fin 2) * 1024 + r.val) (hk1 : (k 1).val = win2_0.index t (1 : Fin 2) * 256 + d.val) :
    (iblk2 V c 0 t : Vec Ideal S1024x256 .f32) (ix2 r d) = zArr2 V c k := by
  unfold iblk2
  rw [View.read_apply]
  show V c main_arg0 _ = V c main_arg0 _
  congr 1
  funext a
  apply Fin.ext
  match a with
  | ⟨0, _⟩ => show win2_0.index t (0 : Fin 2) * 1024 + 1 * r.val = (k 0).val; omega
  | ⟨1, _⟩ => show win2_0.index t (1 : Fin 2) * 256 + 1 * d.val = (k 1).val; omega

/-- The weight block at point t read at (q, d). -/
theorem wblk2_apply (c : Dev nD) (t : Fin cfg2.N) (q : Fin 1024) (d : Fin 256) (k : S8192x256.Idx)
    (hk0 : (k 0).val = win2_1.index t (0 : Fin 2) * 1024 + q.val) (hk1 : (k 1).val = win2_1.index t (1 : Fin 2) * 256 + d.val) :
    (iblk2 V c 1 t : Vec Ideal S1024x256 .f32) (ix2 q d) = wArr2 V c k := by
  unfold iblk2
  rw [View.read_apply]
  show V c main_v24 _ = V c main_v24 _
  congr 1
  funext a
  apply Fin.ext
  match a with
  | ⟨0, _⟩ => show win2_1.index t (0 : Fin 2) * 1024 + 1 * q.val = (k 0).val; omega
  | ⟨1, _⟩ => show win2_1.index t (1 : Fin 2) * 256 + 1 * d.val = (k 1).val; omega

/-- The bias block at point t read at q. -/
theorem bblk2_apply (c : Dev nD) (t : Fin cfg2.N) (q : Fin 1024) (k : S8192.Idx)
    (hk0 : (k 0).val = win2_2.index t (0 : Fin 1) * 1024 + q.val) :
    (iblk2 V c 2 t : Vec Ideal S1024 .f32) (ix1 q) = bArr2 V c k := by
  unfold iblk2
  rw [View.read_apply]
  show V c main_v26 _ = V c main_v26 _
  congr 1
  funext a
  apply Fin.ext
  match a with
  | ⟨0, _⟩ => show win2_2.index t (0 : Fin 1) * 1024 + 1 * q.val = (k 0).val; omega

/-- What point t writes back is block t of the one function of the three arrays. -/
theorem flushed2_3_eq (c : Dev nD) (t : Fin cfg2.N) :
    (dat2 V c).flushed 3 t
      = ((cfg2.win 3).blk t).view.read (Elt Ideal) (logitsOf (zArr2 V c) (wArr2 V c) (bArr2 V c)) := by
  show (cfg2.win 3).cut (grid2.coords t) ((dat2 V c).after 3 t) = _
  rw [after2_3]
  unfold out2_3
  rw [View.canon_unit_zero zeros2]
  simp only [View.ld_unit_zero (S := S1024x256) zeros2, View.ld_unit_zero (S := S1024) zeros1]
  obtain ⟨e0, e1, e2, e3, e4, -, -⟩ := blockIdx2 t
  funext j
  show k2_pay1 (F := Ideal) (iblk2 V c 0 t) (iblk2 V c 1 t) (iblk2 V c 2 t) j
    = logitsOf (zArr2 V c) (wArr2 V c) (bArr2 V c) (((cfg2.win 3).blk t).view.emb j)
  have h0 : ((((cfg2.win 3).blk t).view.emb j) 0).val = win2_3.index t (0 : Fin 2) * 1024 + (j 0).val := by
    show win2_3.index t (0 : Fin 2) * 1024 + 1 * (j 0).val = _; omega
  have h1 : ((((cfg2.win 3).blk t).view.emb j) 1).val = win2_3.index t (1 : Fin 2) * 1024 + (j 1).val := by
    show win2_3.index t (1 : Fin 2) * 1024 + 1 * (j 1).val = _; omega
  refine tile_eq _ _ _ _ _ _ j _ (fun d => ?_) (fun d => ?_) ?_
  · exact zblk2_apply V c t _ d _ (by rw [e0]; exact h0) (by rw [e1]; show d.val = 0 * 256 + d.val; omega)
  · exact wblk2_apply V c t _ d _ (by rw [e2]; exact h1) (by rw [e3]; show d.val = 0 * 256 + d.val; omega)
  · exact bblk2_apply V c t _ _ (by rw [e4]; exact h1)

/-- An index of the array is in point t's block iff each coordinate is in the block's range on its axis. -/
theorem mem_blk2_3 (t : Fin cfg2.N) (i : S4096x8192.Idx) :
    i ∈ ((cfg2.win 3).blk t).view.set ↔ ∀ a : Fin 2, win2_3.index t a * S1024x1024.size a ≤ (i a).val
      ∧ (i a).val < win2_3.index t a * S1024x1024.size a + S1024x1024.size a := by
  show i ∈ ((View.whole main_v27).slice (win2_3.rect t)).set ↔ _
  rw [View.set_slice_whole, Rect.mem_set_unit]
  exact Iff.rfl

/-- The blocks tile the array: entry (b, c) is in the block of the point (b / 1024) * 8 + c / 1024. -/
theorem cover2_3_arr (i : S4096x8192.Idx) :
    ∃ t : Fin cfg2.N, (cfg2.win 3).flush t = true ∧ i ∈ ((cfg2.win 3).blk t).view.set := by
  have hi0 : (i 0).val < 4096 := (i 0).isLt
  have hi1 : (i 1).val < 8192 := (i 1).isLt
  have hN : cfg2.N = 32 := rfl
  let t : Fin cfg2.N := ⟨(i 0).val / 1024 * 8 + (i 1).val / 1024, by rw [hN]; omega⟩
  obtain ⟨-, -, -, -, -, q0, q1⟩ := blockIdx2 t
  have ht : t.val = (i 0).val / 1024 * 8 + (i 1).val / 1024 := rfl
  refine ⟨t, flush2_3 t, ?_⟩
  rw [mem_blk2_3]
  intro a
  match a with
  | ⟨0, _⟩ =>
    show win2_3.index t (0 : Fin 2) * 1024 ≤ (i 0).val ∧ (i 0).val < win2_3.index t (0 : Fin 2) * 1024 + 1024
    omega
  | ⟨1, _⟩ =>
    show win2_3.index t (1 : Fin 2) * 1024 ≤ (i 1).val ∧ (i 1).val < win2_3.index t (1 : Fin 2) * 1024 + 1024
    omega

/-- The output array after the region: entry (b, c) is the sum over d of z (b, d) * W (c, d), plus the bias at c. -/
theorem final2 (c : Dev nD) : (dat2 (F := Ideal) V c).arrAt 3 cfg2.N
    = (fun i => (∑ d : Fin 256, zArr2 V c (ix2 (i 0) d) * wArr2 V c (ix2 (i 1) d)) + bArr2 V c (ix1 (i 1))) :=
  (dat2 V c).arrAt_eq_of_cover 3 (logitsOf (zArr2 V c) (wArr2 V c) (bArr2 V c)) (fun t _ => flushed2_3_eq V c t) cover2_3_arr

end Region2Value

end Cert.KernelIdeal.Hand

end
-- ==== Proof.RefRun.lean ====
/- The reference program's run and its stage-by-stage reading at an index, gathered under one name so that
   every module that speaks of the reference's value imports one file. -/
import proofs.«418715_j4389456576871_1_alg».proof.Proof.RefRunP
import proofs.«418715_j4389456576871_1_alg».proof.Proof.RefReadP
-- ==== Proof.RefEnds.lean ====
/- The two ends of the reference program at the ideal instance, read at an index: the per-class segment sums and
   counts of the masked batch rows (its first stages), and the logits as the batch rows against the first 256 columns
   of the updated prototypes plus their last column (its last stages). -/
import proofs.«418715_j4389456576871_1_alg».proof.Proof.RefRun
import proofs.«418715_j4389456576871_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefEnds

open Cert.ReferenceIdeal Cert.ReferenceIdeal.ReadP Cert.Spec Idealize.ShloMosaic Idealize.ShloMosaic.ValueIdx

/-- The mask stage at an index: the comparison of the label against one half, its bit read as a number. -/
theorem maskR_apply (x1 : FVec Ideal S4096x8192 .f32) (i : S4096x8192.Idx) :
    val_main_v2 (F := Ideal) x1 i = mk (x1 i) := by
  rw [val_main_v2_apply, val_main_v1_apply, val_main_v0_apply, val_main_cst_apply]
  rfl

/-- The segment sums: entry (c, d) sums, over the batch, the mask of label (b, c) times entry (b, d) of the batch rows. -/
theorem sumsR_apply (x0 : FVec Ideal S4096x256 .f32) (x1 : FVec Ideal S4096x8192 .f32) (c : Fin 8192) (d : Fin 256) :
    val_main_v5 (F := Ideal) x0 x1 (ix2 c d) = ∑ b : Fin 4096, mk (x1 (ix2 b c)) * x0 (ix2 b d) := by
  rw [val_main_v5_apply]
  refine Finset.sum_congr rfl fun b _ => ?_
  have e1 : idx_main_v4 (lidx_main_v5 (ix2 c d) b) = ix2 b c :=
    funext fun a => Fin.ext (by match a with | ⟨0, _⟩ => rfl | ⟨1, _⟩ => rfl)
  have e2 : ridx_main_v5 (ix2 c d) b = ix2 b d :=
    funext fun a => Fin.ext (by match a with | ⟨0, _⟩ => rfl | ⟨1, _⟩ => rfl)
  rw [val_main_v4_apply, e1, e2, maskR_apply]

/-- The segment counts: entry c sums the mask of label (b, c) over the batch. -/
theorem countsR_apply (x1 : FVec Ideal S4096x8192 .f32) (c : Fin 8192) :
    val_main_v3 (F := Ideal) x1 (ix1 c) = ∑ b : Fin 4096, mk (x1 (ix2 b c)) := by
  rw [val_main_v3_apply, val_main_cst_0_apply, Ideal.ofBits_def, Ideal.ofBits_zero_f32, zero_add]
  refine Finset.sum_congr rfl fun b _ => ?_
  have e1 : idx_main_v3 (ix1 c) b = ix2 b c :=
    funext fun a => Fin.ext (by match a with | ⟨0, _⟩ => rfl | ⟨1, _⟩ => rfl)
  rw [e1, maskR_apply]

/-- The logits: batch row b against the first 256 columns of row c of the updated prototypes, plus that row's last column. -/
theorem logitsR_eq (x0 : (⟨S4096x256, .f32⟩ : BufTy).Contents (Elt Ideal)) (x1 : (⟨S4096x8192, .f32⟩ : BufTy).Contents (Elt Ideal))
    (x2 : (⟨S8192x256, .f32⟩ : BufTy).Contents (Elt Ideal)) (x3 : (⟨S8192, .i1⟩ : BufTy).Contents (Elt Ideal))
    (x4 : (⟨S512, .i32⟩ : BufTy).Contents (Elt Ideal)) (x5 : (⟨S512x256, .f32⟩ : BufTy).Contents (Elt Ideal))
    (x6 : (⟨S512, .f32⟩ : BufTy).Contents (Elt Ideal)) (x7 : (⟨S257x512, .f32⟩ : BufTy).Contents (Elt Ideal))
    (x8 : (⟨S257, .f32⟩ : BufTy).Contents (Elt Ideal)) :
    val_main_v65 (F := Ideal) x0 x1 x2 x3 x4 x5 x6 x7 x8 = LOGITS x0 (val_main_v57 (F := Ideal) x0 x1 x2 x3 x4 x5 x6 x7 x8) := by
  funext i
  obtain ⟨b, c, rfl⟩ : ∃ (b : Fin 4096) (c : Fin 8192), i = ix2 b c := ⟨i 0, i 1, eq_ix2 i⟩
  rw [val_main_v65_apply, val_main_v62_apply, val_main_v64_apply, val_main_v63_apply, val_main_v60_apply,
    val_main_v59_apply]
  simp only [val_main_v61_apply, val_main_v58_apply]
  generalize val_main_v57 (F := Ideal) x0 x1 x2 x3 x4 x5 x6 x7 x8 = wb
  have e1 : ∀ k : Fin 256, lidx_main_v62 (ix2 b c) k = ix2 b k := fun k =>
    funext fun a => Fin.ext (by match a with | ⟨0, _⟩ => rfl | ⟨1, _⟩ => rfl)
  have e2 : ∀ k : Fin 256, idx_main_v58 (idx_main_v61 (ridx_main_v62 (ix2 b c) k)) = ix2 c (Fin.castLE (by decide) k) := fun k =>
    funext fun a => Fin.ext (by match a with | ⟨0, _⟩ => rfl | ⟨1, _⟩ => rfl)
  have e3 : idx_main_v59 (idx_main_v60 (idx_main_v63 (idx_main_v64 (ix2 b c)))) = ix2 c (256 : Fin 257) :=
    funext fun a => Fin.ext (by match a with | ⟨0, _⟩ => exact Nat.div_one _ | ⟨1, _⟩ => rfl)
  simp only [e1, e2, e3, Ideal.addf_def]
  rfl

end Cert.ReferenceIdeal.RefEnds

end
-- ==== Proof.KHost.lean ====
/- The kernel program's host-side layout operations, read index by index at the extended reals: the batch rows
   augmented by a column of ones, and the first 256 columns and the last column of a 257-column array. With them the
   segment sums and counts the kernel takes from one product are the reference's two arrays, and a product against
   the first 256 columns plus the last column as a bias is the specification's logits. -/
import proofs.«418715_j4389456576871_1_alg».proof.Proof.Gen.KernelIdeal
import proofs.«418715_j4389456576871_1_alg».proof.Proof.RefEnds
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KHost

open Cert.KernelIdeal Cert.KernelIdeal.Facts₀ Cert.Spec Idealize.ShloMosaic Idealize.ShloMosaic.ValueIdx

/-- The pattern 0x3F800000 denotes one. -/
theorem ofBits_one : Ideal.ofBits .f32 0x3F800000#32 = 1 := by
  simp [Ideal.ofBits, Ideal.ieee, -EReal.coe_mul]; norm_num

/-! ## The three layout functions -/

/-- The batch rows augmented by a column of ones. -/
def zaug (z : FVec Ideal S4096x256 .f32) : FVec Ideal S4096x257 .f32 :=
  concatenate S4096x257 1 [⟨S4096x256, z⟩, ⟨S4096x1, broadcastInDim S4096x1 ![] bcast_S_S4096x1 (constant (F := Ideal) S_ .f32 0x3F800000#32)⟩] concatenates_S4096x256_S4096x1_S4096x257_d1

/-- The first 256 columns of a 257-column array. -/
def cols256 (x : FVec Ideal S8192x257 .f32) : FVec Ideal S8192x256 .f32 :=
  extractStridedSlice S8192x256 ![0, 0] x slices_S8192x257_S8192x256_0_0

/-- The last column of a 257-column array, as a vector. -/
def col256 (x : FVec Ideal S8192x257 .f32) : FVec Ideal S8192 .f32 :=
  shapeCast S8192 (extractStridedSlice S8192x1 ![0, 256] x slices_S8192x257_S8192x1_0_256) shapeCasts_S8192x1_S8192

/-! ## Read at an index -/

theorem cols256_apply (x : FVec Ideal S8192x257 .f32) (c : Fin 8192) (d : Fin 256) :
    cols256 x (ix2 c d) = x (ix2 c (Fin.castLE (by decide) d)) := by
  unfold cols256
  exact extractStridedSlice_apply ![0, 0] x slices_S8192x257_S8192x256_0_0 (ix2 c d) (ix2 c (Fin.castLE (by decide) d))
    (fun a => match a with
      | ⟨0, _⟩ => by show c.val = 0 + c.val; omega
      | ⟨1, _⟩ => by show d.val = 0 + d.val; omega)

theorem col256_apply (x : FVec Ideal S8192x257 .f32) (c : Fin 8192) :
    col256 x (ix1 c) = x (ix2 c (256 : Fin 257)) := by
  unfold col256
  rw [shapeCast_apply _ shapeCasts_S8192x1_S8192 (ix1 c) (ix2 c (0 : Fin 1))
    (by rewrite [Shape.rowMajor_val_two, Shape.rowMajor_val_one]; show c.val * 1 + 0 = c.val; omega)]
  exact extractStridedSlice_apply ![0, 256] x slices_S8192x257_S8192x1_0_256 (ix2 c (0 : Fin 1)) (ix2 c (256 : Fin 257))
    (fun a => match a with
      | ⟨0, _⟩ => by show c.val = 0 + c.val; omega
      | ⟨1, _⟩ => rfl)

theorem zaug_apply_lt (z : FVec Ideal S4096x256 .f32) (b : Fin 4096) (d : Fin 256) :
    zaug z (ix2 b (Fin.castLE (by decide) d)) = z (ix2 b d) := by
  unfold zaug
  exact concatenate_pair_apply_left 1 z _ concatenates_S4096x256_S4096x1_S4096x257_d1 (ix2 b (Fin.castLE (by decide) d)) rfl (ix2 b d)
    (fun a => match a with
      | ⟨0, _⟩ => rfl
      | ⟨1, _⟩ => rfl)

theorem zaug_apply_last (z : FVec Ideal S4096x256 .f32) (b : Fin 4096) :
    zaug z (ix2 b (256 : Fin 257)) = 1 := by
  unfold zaug
  rw [concatenate_pair_apply_right 1 z _ concatenates_S4096x256_S4096x1_S4096x257_d1 (ix2 b (256 : Fin 257)) rfl rfl (ix2 b (0 : Fin 1))
    (fun a => match a with
      | ⟨0, _⟩ => fun _ => rfl
      | ⟨1, _⟩ => fun h => absurd rfl h)
    rfl]
  rw [broadcastInDim_apply _ bcast_S_S4096x1 _ (ix2 b (0 : Fin 1)) ix0 (fun a => a.elim0)]
  exact ofBits_one

/-! ## The kernel's glue against the reference's stages -/

/-- The first 256 columns of the one product are the reference's segment sums. -/
theorem sumsK_eq (labels : FVec Ideal S4096x8192 .f32) (z : FVec Ideal S4096x256 .f32) :
    cols256 (SC labels (zaug z)) = Cert.ReferenceIdeal.ReadP.val_main_v5 (F := Ideal) z labels := by
  funext i
  obtain ⟨c, d, rfl⟩ : ∃ (c : Fin 8192) (d : Fin 256), i = ix2 c d := ⟨i 0, i 1, eq_ix2 i⟩
  rw [cols256_apply, Cert.ReferenceIdeal.RefEnds.sumsR_apply]
  unfold SC
  refine Finset.sum_congr rfl fun b _ => ?_
  show mk (labels (ix2 b c)) * zaug z (ix2 b (Fin.castLE (by decide) d)) = _
  rw [zaug_apply_lt]

/-- Its last column is the reference's segment counts: the augmenting column is all ones. -/
theorem countsK_eq (labels : FVec Ideal S4096x8192 .f32) (z : FVec Ideal S4096x256 .f32) :
    col256 (SC labels (zaug z)) = Cert.ReferenceIdeal.ReadP.val_main_v3 (F := Ideal) labels := by
  funext i
  obtain ⟨c, rfl⟩ : ∃ c : Fin 8192, i = ix1 c := ⟨i 0, eq_ix1 i⟩
  rw [col256_apply, Cert.ReferenceIdeal.RefEnds.countsR_apply]
  unfold SC
  refine Finset.sum_congr rfl fun b _ => ?_
  show mk (labels (ix2 b c)) * zaug z (ix2 b (256 : Fin 257)) = _
  rw [zaug_apply_last, mul_one]

/-- A product against the first 256 columns plus the last column is the specification's logits. -/
theorem logitsK_eq (z : FVec Ideal S4096x256 .f32) (wb : FVec Ideal S8192x257 .f32) :
    (fun i : S4096x8192.Idx => (∑ d : Fin 256, z (ix2 (i 0) d) * cols256 wb (ix2 (i 1) d)) + col256 wb (ix1 (i 1))) = LOGITS z wb := by
  funext i
  exact congrArg₂ (· + ·)
    (Finset.sum_congr rfl fun d _ => congrArg (z (ix2 (i 0) d) * ·) (cols256_apply wb (i 1) d))
    (col256_apply wb (i 1))

end Cert.KernelIdeal.KHost

end
-- ==== Proof.RefWB.lean ====
/- The reference's prototype update, read index by index at the extended reals: for every row p of the prototypes
   and every output column, the value the reference computes is the row specification `rowF` of that row.
   The stages follow the reference's order: the scores of a row against the head rows (a product divided by the
   square root of 256, which is the product times one sixteenth), the row maximum started at minus infinity, the
   shifted exponentials, their sum and the quotients, the attended head rows added to the row, and two linear layers
   with a rectifier between them. Each stage is one lemma over the prototypes array and the head rows taken as given. -/
import proofs.«418715_j4389456576871_1_alg».proof.Proof.RefRun
import proofs.«418715_j4389456576871_1_alg».proof.Proof.Spec
import Idealize.ShloMosaic.Lib.ValueIdx
import Idealize.ShloMosaic.Lib.ValueLayout
import Idealize.ShloMosaic.Lib.Pipeline.Value
import Idealize.ShloMosaic.PureOps.Ideal.Laws
import Mathlib.Analysis.Real.Sqrt
import Mathlib.Data.EReal.Inv

noncomputable section

namespace Cert.ReferenceIdeal.RefValue

open Cert.ReferenceIdeal Cert.ReferenceIdeal.ReadP Cert.Spec Idealize.ShloMosaic Idealize.ShloMosaic.ValueIdx

/-! ## The constants -/

/-- The pattern 0x43800000 denotes 256. -/
theorem ofBits_256 : Ideal.ofBits .f32 0x43800000#32 = ((256 : ℝ) : EReal) := by
  simp [Ideal.ofBits, Ideal.ieee, -EReal.coe_mul]; norm_num

/-- The square root of 256 is 16. -/
theorem sqrt_256 : Ideal.sqrt (Ideal.ofBits .f32 0x43800000#32) = ((16 : ℝ) : EReal) := by
  rw [ofBits_256, Ideal.sqrt_coe, if_neg (by norm_num)]
  have h : Real.sqrt 256 = 16 := by
    rw [show (256 : ℝ) = 16 ^ 2 by norm_num]
    exact Real.sqrt_sq (by norm_num)
  rw [h]

/-- The pattern 0x3D800000 denotes one sixteenth. -/
theorem c16_eq : c16 = ((1 / 16 : ℝ) : EReal) := by
  unfold c16
  simp [Ideal.ofBits, Ideal.ieee, -EReal.coe_mul]; norm_num

/-- Dividing by the square root of 256 is multiplying by one sixteenth, for every extended real. -/
theorem div_sqrt_256 (x : EReal) : Ideal.div x (Ideal.sqrt (Ideal.ofBits .f32 0x43800000#32)) = x * c16 := by
  rw [sqrt_256, c16_eq]
  exact Ideal.div_coe (by norm_num) x

section Stages

variable (x0 : FVec Ideal S4096x256 .f32) (x1 : FVec Ideal S4096x8192 .f32) (x2 : FVec Ideal S8192x256 .f32)
  (x3 : IVec S8192 1) (x4 : IVec S512 32) (x5 : FVec Ideal S512x256 .f32) (x6 : FVec Ideal S512 .f32)
  (x7 : FVec Ideal S257x512 .f32) (x8 : FVec Ideal S257 .f32)

/-! ## The scores -/

/-- The reference's scaled product of row p with head row h is the specification's score. -/
theorem v33_eq (p : Fin 8192) (h : Fin 512) :
    val_main_v33 (F := Ideal) x0 x1 x2 x3 x4 (ix2 p h)
      = score (fun d => val_main_v21 (F := Ideal) x0 x1 x2 x3 (ix2 p d)) (val_main_v28 (F := Ideal) x0 x1 x2 x3 x4) h := by
  have e1 : ∀ k : Fin 256, lidx_main_v30 (ix2 p h) k = ix2 p k := fun k =>
    funext fun a => Fin.ext (by match a with | ⟨0, _⟩ => rfl | ⟨1, _⟩ => rfl)
  have e2 : ∀ k : Fin 256, idx_main_v29 (ridx_main_v30 (ix2 p h) k) = ix2 h k := fun k =>
    funext fun a => Fin.ext (by match a with | ⟨0, _⟩ => rfl | ⟨1, _⟩ => rfl)
  rw [val_main_v33_apply, val_main_v30_apply, val_main_v32_apply, val_main_v31_apply, val_main_cst_6_apply]
  simp only [val_main_v29_apply, e1, e2, Ideal.hostDivf_def, Ideal.hostUnary_sqrt_def, Ideal.ofBits_def, div_sqrt_256]
  rfl

/-! ## The row maximum -/

/-- The reduced index p with column k put back is (p, k). -/
theorem lift_row (hr : S8192x512.Reduces [1] S8192) (p : Fin 8192) (k : Fin (S8192x512.size 1)) :
    hr.lift (ix1 p) k = ix2 p (⟨k.val, k.isLt⟩ : Fin 512) := by
  funext c; apply Fin.ext
  fin_cases c <;> rfl

/-- The reference's running maximum over the head rows, started at minus infinity, is the fold of the scores. -/
theorem v34_eq (p : Fin 8192) :
    val_main_v34 (F := Ideal) x0 x1 x2 x3 x4 (ix1 p)
      = (Finset.univ : Finset (Fin 512)).fold max negInf
          (score (fun d => val_main_v21 (F := Ideal) x0 x1 x2 x3 (ix2 p d)) (val_main_v28 (F := Ideal) x0 x1 x2 x3 x4)) := by
  have hr : S8192x512.Reduces [1] S8192 := by decide
  unfold val_main_v34
  rw [Host.reduce_eq_fold_single FloatOps.maximumf _ _ Gen.reducesTo_S8192x512_S8192_d1 hr Gen.h_S_]
  have hf : (val_main_v33 (F := Ideal) x0 x1 x2 x3 x4 ∘ hr.lift (ix1 p))
      = score (fun d => val_main_v21 (F := Ideal) x0 x1 x2 x3 (ix2 p d)) (val_main_v28 (F := Ideal) x0 x1 x2 x3 x4) :=
    funext fun k => by
      show val_main_v33 (F := Ideal) x0 x1 x2 x3 x4 (hr.lift (ix1 p) k) = _
      rw [lift_row hr p k, v33_eq]
      rfl
  rw [hf]
  rfl

/-- Broadcast back over the columns, after the maximum with minus infinity, it is the specification's row maximum. -/
theorem v38_eq (p : Fin 8192) (h : Fin 512) :
    val_main_v38 (F := Ideal) x0 x1 x2 x3 x4 (ix2 p h)
      = rmax (fun d => val_main_v21 (F := Ideal) x0 x1 x2 x3 (ix2 p d)) (val_main_v28 (F := Ideal) x0 x1 x2 x3 x4) := by
  have e1 : idx_main_v37 (idx_main_v38 (ix2 p h)) = ix1 p :=
    funext fun a => Fin.ext (by match a with | ⟨0, _⟩ => rfl)
  rw [val_main_v38_apply, val_main_v37_apply, val_main_v36_apply, val_main_v35_apply, val_main_cst_8_apply, e1, v34_eq]
  rfl

/-! ## The softmax -/

/-- The exponential of the shifted score. -/
theorem v40_eq (p : Fin 8192) (h : Fin 512) :
    val_main_v40 (F := Ideal) x0 x1 x2 x3 x4 (ix2 p h)
      = ex (fun d => val_main_v21 (F := Ideal) x0 x1 x2 x3 (ix2 p d)) (val_main_v28 (F := Ideal) x0 x1 x2 x3 x4) h := by
  rw [val_main_v40_apply, val_main_v39_apply, v33_eq, v38_eq]
  rfl

/-- The exponential over the row's sum of exponentials (a sum started at zero). -/
theorem v44_eq (p : Fin 8192) (h : Fin 512) :
    val_main_v44 (F := Ideal) x0 x1 x2 x3 x4 (ix2 p h)
      = alpha (fun d => val_main_v21 (F := Ideal) x0 x1 x2 x3 (ix2 p d)) (val_main_v28 (F := Ideal) x0 x1 x2 x3 x4) h := by
  have e1 : ∀ k : Fin 512, idx_main_v41 (idx_main_v42 (idx_main_v43 (ix2 p h))) k = ix2 p k := fun k =>
    funext fun a => Fin.ext (by match a with | ⟨0, _⟩ => rfl | ⟨1, _⟩ => rfl)
  rw [val_main_v44_apply, val_main_v43_apply, val_main_v42_apply, val_main_v41_apply, val_main_cst_9_apply, v40_eq]
  simp only [e1, v40_eq, Ideal.ofBits_def, Ideal.ofBits_zero_f32, zero_add, Ideal.hostDivf_def]
  rfl

/-! ## The attended row -/

/-- The row plus the softmax-weighted head rows. -/
theorem v46_eq (p : Fin 8192) (d : Fin 256) :
    val_main_v46 (F := Ideal) x0 x1 x2 x3 x4 (ix2 p d)
      = peff (fun d => val_main_v21 (F := Ideal) x0 x1 x2 x3 (ix2 p d)) (val_main_v28 (F := Ideal) x0 x1 x2 x3 x4) d := by
  have e1 : ∀ k : Fin 512, lidx_main_v45 (ix2 p d) k = ix2 p k := fun k =>
    funext fun a => Fin.ext (by match a with | ⟨0, _⟩ => rfl | ⟨1, _⟩ => rfl)
  have e2 : ∀ k : Fin 512, ridx_main_v45 (ix2 p d) k = ix2 k d := fun k =>
    funext fun a => Fin.ext (by match a with | ⟨0, _⟩ => rfl | ⟨1, _⟩ => rfl)
  rw [val_main_v46_apply, val_main_v45_apply]
  simp only [e1, e2, v44_eq, Ideal.addf_def]
  rfl

/-! ## The two linear layers -/

/-- The hidden layer: the first linear map, its bias, and the maximum with zero. -/
theorem v52_eq (p : Fin 8192) (j : Fin 512) :
    val_main_v52 (F := Ideal) x0 x1 x2 x3 x4 x5 x6 (ix2 p j)
      = hid (fun d => val_main_v21 (F := Ideal) x0 x1 x2 x3 (ix2 p d)) (val_main_v28 (F := Ideal) x0 x1 x2 x3 x4) x5 x6 j := by
  have e1 : ∀ k : Fin 256, lidx_main_v48 (ix2 p j) k = ix2 p k := fun k =>
    funext fun a => Fin.ext (by match a with | ⟨0, _⟩ => rfl | ⟨1, _⟩ => rfl)
  have e2 : ∀ k : Fin 256, idx_main_v47 (ridx_main_v48 (ix2 p j) k) = ix2 j k := fun k =>
    funext fun a => Fin.ext (by match a with | ⟨0, _⟩ => rfl | ⟨1, _⟩ => rfl)
  have e3 : idx_main_v49 (idx_main_v50 (ix2 p j)) = ix1 j :=
    funext fun a => Fin.ext (by match a with | ⟨0, _⟩ => rfl)
  rw [val_main_v52_apply, val_main_v51_apply, val_main_v48_apply, val_main_v50_apply, val_main_v49_apply,
    val_main_call2_v0_apply, val_main_call2_cst_apply]
  simp only [val_main_v47_apply, e1, e2, e3, v46_eq, Ideal.ofBits_def, Ideal.ofBits_zero_f32, Ideal.addf_def,
    Ideal.maximumf_def]
  rfl

/-- The 257 outputs of a row: the second linear map and its bias. -/
theorem v57_eq (p : Fin 8192) (k : Fin 257) :
    val_main_v57 (F := Ideal) x0 x1 x2 x3 x4 x5 x6 x7 x8 (ix2 p k)
      = rowF (fun d => val_main_v21 (F := Ideal) x0 x1 x2 x3 (ix2 p d)) (val_main_v28 (F := Ideal) x0 x1 x2 x3 x4) x5 x6 x7 x8 k := by
  have e1 : ∀ j : Fin 512, lidx_main_v54 (ix2 p k) j = ix2 p j := fun j =>
    funext fun a => Fin.ext (by match a with | ⟨0, _⟩ => rfl | ⟨1, _⟩ => rfl)
  have e2 : ∀ j : Fin 512, idx_main_v53 (ridx_main_v54 (ix2 p k) j) = ix2 k j := fun j =>
    funext fun a => Fin.ext (by match a with | ⟨0, _⟩ => rfl | ⟨1, _⟩ => rfl)
  have e3 : idx_main_v55 (idx_main_v56 (ix2 p k)) = ix1 k :=
    funext fun a => Fin.ext (by match a with | ⟨0, _⟩ => rfl)
  rw [val_main_v57_apply, val_main_v54_apply, val_main_v56_apply, val_main_v55_apply]
  simp only [val_main_v53_apply, e1, e2, e3, v52_eq, Ideal.addf_def]
  rfl

end Stages

/-! ## The whole stage -/

/-- The reference's prototype update is the row specification applied to every row of its prototypes, with its head rows. -/
theorem wbR_eq (x0 : FVec Ideal S4096x256 .f32) (x1 : FVec Ideal S4096x8192 .f32) (x2 : FVec Ideal S8192x256 .f32) (x3 : IVec S8192 1) (x4 : IVec S512 32) (x5 : FVec Ideal S512x256 .f32) (x6 : FVec Ideal S512 .f32) (x7 : FVec Ideal S257x512 .f32) (x8 : FVec Ideal S257 .f32) :
    val_main_v57 (F := Ideal) x0 x1 x2 x3 x4 x5 x6 x7 x8 = WB (val_main_v21 (F := Ideal) x0 x1 x2 x3) (val_main_v28 (F := Ideal) x0 x1 x2 x3 x4) x5 x6 x7 x8 := by
  funext i
  obtain ⟨p, k, rfl⟩ : ∃ (p : Fin 8192) (k : Fin 257), i = ix2 p k := ⟨i 0, i 1, eq_ix2 i⟩
  rw [v57_eq]
  rfl

end Cert.ReferenceIdeal.RefValue

end
-- ==== Proof.KVal.lean ====
/- The value of the kernel program's result array at the ideal instance, as a function of the launch memory: it is the
   reference program's last stage evaluated at the same nine argument arrays.  The chain: region 0 leaves the segment
   sums and counts (one array, the counts its last column); the host glue makes the updated prototypes of them, which
   is the reference's own chain applied to the reference's own sums and counts; under the index-range hypothesis the
   take of the head rows is the plain gather the reference does; region 1 applies the row function of the specification
   to every row, as the reference's stages do; region 2 multiplies the batch rows by the weight columns and adds the
   bias column, as the reference's last stages do. -/
import proofs.«418715_j4389456576871_1_alg».proof.Proof.Gen.KernelIdeal.Launch
import proofs.«418715_j4389456576871_1_alg».proof.Proof.Gen.KernelIdeal.Skeleton
import proofs.«418715_j4389456576871_1_alg».proof.Proof.Gen.KernelIdeal.Points
import proofs.«418715_j4389456576871_1_alg».proof.Proof.HostVal
import proofs.«418715_j4389456576871_1_alg».proof.Proof.K0Val
import proofs.«418715_j4389456576871_1_alg».proof.Proof.K1Val
import proofs.«418715_j4389456576871_1_alg».proof.Proof.K2Val
import proofs.«418715_j4389456576871_1_alg».proof.Proof.KHost
import proofs.«418715_j4389456576871_1_alg».proof.Proof.RefWB
import proofs.«418715_j4389456576871_1_alg».proof.Proof.RefEnds
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Spec Cert.KernelIdeal.KHost Cert.KernelIdeal.TakeVal
open Cert.ReferenceIdeal.ReadP Cert.ReferenceIdeal.RefValue Cert.ReferenceIdeal.RefEnds

variable (m : (ℓ : Loc nD τ sig) → Buf (Elt Ideal) ℓ)

/-- The nine argument arrays at launch, each under its literal type. -/
abbrev a0 (c : Dev nD) : FVec Ideal S4096x256 .f32 := m ((c : Thread nD τ).loc main_arg0)
abbrev a1 (c : Dev nD) : FVec Ideal S4096x8192 .f32 := m ((c : Thread nD τ).loc main_arg1)
abbrev a2 (c : Dev nD) : FVec Ideal S8192x256 .f32 := m ((c : Thread nD τ).loc main_arg2)
abbrev a3 (c : Dev nD) : IVec S8192 1 := m ((c : Thread nD τ).loc main_arg3)
abbrev a4 (c : Dev nD) : IVec S512 32 := m ((c : Thread nD τ).loc main_arg4)
abbrev a5 (c : Dev nD) : FVec Ideal S512x256 .f32 := m ((c : Thread nD τ).loc main_arg5)
abbrev a6 (c : Dev nD) : FVec Ideal S512 .f32 := m ((c : Thread nD τ).loc main_arg6)
abbrev a7 (c : Dev nD) : FVec Ideal S257x512 .f32 := m ((c : Thread nD τ).loc main_arg7)
abbrev a8 (c : Dev nD) : FVec Ideal S257 .f32 := m ((c : Thread nD τ).loc main_arg8)

/-- Region 0's output array: the segment sums and counts of the labels and the augmented batch rows. -/
theorem sc_eq (c : Dev nD) : (U2 m c main_v2 : FVec Ideal S8192x257 .f32) = SC (a1 m c) (zaug (a0 m c)) := by
  refine (W2_arr m c 2).trans ?_
  rw [final0 (U1 m) c]
  exact congrArg₂ SC (U1_arg1 m c) (U1_v1 m c)

/-- The updated prototypes region 1 is entered with are the reference's. -/
theorem P_eq (c : Dev nD) : (U6 m c main_v21 : FVec Ideal S8192x256 .f32)
    = val_main_v21 (F := Ideal) (a0 m c) (a1 m c) (a2 m c) (a3 m c) := by
  refine (U6_v21 m c).trans ?_
  have h5 : colsOf (F := Ideal) (U2 m c main_v2 : FVec Ideal S8192x257 .f32) = (val_main_v5 (F := Ideal) (a0 m c) (a1 m c) : FVec Ideal S8192x256 .f32) := by
    rw [sc_eq]; exact sumsK_eq (a1 m c) (a0 m c)
  have h3 : colOf (F := Ideal) (U2 m c main_v2 : FVec Ideal S8192x257 .f32) = (val_main_v3 (F := Ideal) (a1 m c) : FVec Ideal S8192 .f32) := by
    rw [sc_eq]; exact countsK_eq (a1 m c) (a0 m c)
  rw [h5, h3]
  rfl

/-- Under the index-range hypothesis the head rows region 1 is entered with are the reference's. -/
theorem Ph_eq (c : Dev nD) (hr : ∀ j : S512.Idx, -8192 ≤ (a4 m c j).toInt ∧ (a4 m c j).toInt < 8192) :
    (U6 m c main_v22 : FVec Ideal S512x256 .f32) = val_main_v28 (F := Ideal) (a0 m c) (a1 m c) (a2 m c) (a3 m c) (a4 m c) := by
  refine (U6_v22 m c).trans ?_
  rw [P_eq]
  exact (takeK_eq_gather _ (a4 m c) hr).trans rfl

/-- Region 1's output array is the reference's prototype-update stage. -/
theorem wb_eq (c : Dev nD) (hr : ∀ j : S512.Idx, -8192 ≤ (a4 m c j).toInt ∧ (a4 m c j).toInt < 8192) :
    (U7 m c main_v23 : FVec Ideal S8192x257 .f32)
      = val_main_v57 (F := Ideal) (a0 m c) (a1 m c) (a2 m c) (a3 m c) (a4 m c) (a5 m c) (a6 m c) (a7 m c) (a8 m c) := by
  refine (W7_arr m c 6).trans ?_
  rw [final1 (U6 m) c, wbR_eq]
  have e5 : (U6 m c main_arg5 : Vec Ideal S512x256 .f32) = a5 m c := U6_arg5 m c
  have e6 : (U6 m c main_arg6 : Vec Ideal S512 .f32) = a6 m c := U6_arg6 m c
  have e7 : (U6 m c main_arg7 : Vec Ideal S257x512 .f32) = a7 m c := U6_arg7 m c
  have e8 : (U6 m c main_arg8 : Vec Ideal S257 .f32) = a8 m c := U6_arg8 m c
  rw [e5, e6, e7, e8, P_eq m c, Ph_eq m c hr]

/-- THE KERNEL PROGRAM'S RESULT: what region 2's write-backs leave in the result array is the reference's last stage at
    the launch arguments. -/
theorem kernel_value (c : Dev nD) (hr : ∀ j : S512.Idx, -8192 ≤ (a4 m c j).toInt ∧ (a4 m c j).toInt < 8192) :
    (dat2 (F := Ideal) (U8 m) c).arrAt 3 cfg2.N
      = val_main_v65 (F := Ideal) (a0 m c) (a1 m c) (a2 m c) (a3 m c) (a4 m c) (a5 m c) (a6 m c) (a7 m c) (a8 m c) := by
  rw [final2 (U8 m) c, logitsR_eq, ← wb_eq m c hr]
  have ez : zArr2 (U8 m) c = a0 m c := U8_arg0 m c
  have ew : wArr2 (U8 m) c = cols256 (U7 m c main_v23 : FVec Ideal S8192x257 .f32) := U8_v24 m c
  have eb : bArr2 (U8 m) c = col256 (U7 m c main_v23 : FVec Ideal S8192x257 .f32) := U8_v26 m c
  rw [ez, ew, eb]
  exact logitsK_eq (a0 m c) _

end Cert.KernelIdeal.Hand
end
-- ==== Proof.RefFinal.lean ====
/- The reference program's run, re-posted: every weakly fair execution of it terminates with its result array at the
   last stage's function of the nine argument arrays as the run found them, and the argument arrays unchanged; and
   from the same run, its frame claim (it terminates and the arguments end unchanged). -/
import proofs.«418715_j4389456576871_1_alg».proof.Defs
import proofs.«418715_j4389456576871_1_alg».proof.Proof.RefRun
import proofs.«418715_j4389456576871_1_alg».proof.Proof.Gen.ReferenceIdeal
import proofs.«418715_j4389456576871_1_alg».proof.Proof.Gen.Pre_finite_inputs

noncomputable section

namespace Cert.ReferenceIdeal.RefFinal

open Cert.ReferenceIdeal Cert.ReferenceIdeal.ReadP Idealize.ShloMosaic Idealize.ShloMosaic.TcCoe Idealize.SL.Sem

/-- The run, with the result array named by the last stage's function of the arguments. -/
theorem ref_run (m' : (ℓ : Loc nD τ sig) → Buf (Elt Ideal) ℓ) (ρ' : Dev nD → PrngReg) :
    θ_run (Cert.ReferenceIdeal.defs (F := Ideal)) (onTc (τ := τ) (Cert.ReferenceIdeal.main (F := Ideal))) ⟨m', fun _ => 0, ρ'⟩ (fun r => ∀ c : Dev nD,
      r.2.mem ((c.tc : Thread nD τ).loc main_v65) = val_main_v65 (F := Ideal) (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8))
        ∧ r.2.mem ((c.tc : Thread nD τ).loc main_arg0) = m' ((c.tc : Thread nD τ).loc main_arg0)
        ∧ r.2.mem ((c.tc : Thread nD τ).loc main_arg1) = m' ((c.tc : Thread nD τ).loc main_arg1)
        ∧ r.2.mem ((c.tc : Thread nD τ).loc main_arg2) = m' ((c.tc : Thread nD τ).loc main_arg2)
        ∧ r.2.mem ((c.tc : Thread nD τ).loc main_arg3) = m' ((c.tc : Thread nD τ).loc main_arg3)
        ∧ r.2.mem ((c.tc : Thread nD τ).loc main_arg4) = m' ((c.tc : Thread nD τ).loc main_arg4)
        ∧ r.2.mem ((c.tc : Thread nD τ).loc main_arg5) = m' ((c.tc : Thread nD τ).loc main_arg5)
        ∧ r.2.mem ((c.tc : Thread nD τ).loc main_arg6) = m' ((c.tc : Thread nD τ).loc main_arg6)
        ∧ r.2.mem ((c.tc : Thread nD τ).loc main_arg7) = m' ((c.tc : Thread nD τ).loc main_arg7)
        ∧ r.2.mem ((c.tc : Thread nD τ).loc main_arg8) = m' ((c.tc : Thread nD τ).loc main_arg8)) :=
  (θ_run (Cert.ReferenceIdeal.defs (F := Ideal)) _ _).mono
    (fun _ h c => ⟨(h c).1.trans (val_main_v65_eq m' c), (h c).2⟩)
    (Cert.ReferenceIdeal.ValueP.run (F := Ideal) m' ρ')

/-- The reference terminates and leaves its nine argument arrays as it found them. -/
theorem frame_ri : Cert.frame_ReferenceIdeal (hReferenceIdeal := Cert.ReferenceIdeal.Gen.facts)
    (hPre_finite_inputs := Cert.Pre_finite_inputs.Gen.facts) := fun m ρ _ =>
  (θ_run (Cert.ReferenceIdeal.defs (F := Ideal)) _ _).mono (fun _ h c => (h c).2)
    (Cert.ReferenceIdeal.ValueP.run (F := Ideal) m ρ)

end Cert.ReferenceIdeal.RefFinal

end
-- ==== Proof.lean ====
/- The proof of `Cert.Claim`: the kernel program (segment sums and counts by one masked product accumulated over the
   batch; the prototypes' update on the host; attention over the head rows and a two-layer perceptron per prototype;
   the logits) against its reference, over the extended reals, under finite float inputs and head ids that index the
   8192 prototypes in range (-8192 ≤ id < 8192: a negative id counts from the end, as both programs read it).

   * The three frames.  The kernel program, at the word level and at the ideal instance, is three pipelined kernel
     regions among host operations; each region's body is run once symbolically (region 0 in its two control cases,
     with the accumulator it carries between grid points named point by point), and the launch theorem for a list of
     segments gives termination without fault and the argument arrays unchanged.  The reference is host operations
     only; its frame is its run with the result dropped.
   * `preserves` has no conjunct: the idealized program is the printed program read at the ideal instance.
   * `algebraic`.  The kernel program's result array is followed through the run: region 2's output is the batch rows
     times the weight columns plus the bias column of region 1's output; region 1's output applies one row function
     (scores against the head rows scaled by 1/16, softmax, attended rows added, linear, rectifier, linear) to every
     prototype; the prototypes come from region 0's sums and counts through the same host operations the reference
     applies to its own sums and counts, and the two pairs of sums and counts are the same sums over the batch; the
     head rows are taken with out-of-range rows filled, which under the index range is the reference's plain gather.
     The reference's stages, read at an index, are the same functions (its division by the square root of 256 is the
     kernel's multiplication by 1/16 on every extended real).  So both runs end at one function of the arguments. -/
import proofs.«418715_j4389456576871_1_alg».proof.Defs
import proofs.«418715_j4389456576871_1_alg».proof.Proof.Gen.Kernel
import proofs.«418715_j4389456576871_1_alg».proof.Proof.Gen.KernelIdeal
import proofs.«418715_j4389456576871_1_alg».proof.Proof.Gen.ReferenceIdeal
import proofs.«418715_j4389456576871_1_alg».proof.Proof.Gen.Pre_finite_inputs
import proofs.«418715_j4389456576871_1_alg».proof.Proof.WdRun
import proofs.«418715_j4389456576871_1_alg».proof.Proof.Run
import proofs.«418715_j4389456576871_1_alg».proof.Proof.KVal
import proofs.«418715_j4389456576871_1_alg».proof.Proof.RefFinal
import proofs.«418715_j4389456576871_1_alg».proof.Proof.Take
import Idealize.ShloMosaic.Adequacy
import Idealize.ShloMosaic.Init

noncomputable section

namespace Cert.Proof

open Idealize.ShloMosaic Idealize.SL.Sem

/-- The word-level program runs to its end, faulting nowhere, its arguments unchanged. -/
theorem frame_p : Cert.frame_Kernel := fun m ρ _ => Cert.Kernel.Hand.frame (F := Bits) m ρ

/-- So does the program read at the ideal instance. -/
theorem frame_pi : Cert.frame_KernelIdeal := fun m ρ _ => Cert.KernelIdeal.Hand.frame (F := Ideal) m ρ

/-- And the reference. -/
theorem frame_ri : Cert.frame_ReferenceIdeal := Cert.ReferenceIdeal.RefFinal.frame_ri

/-- The ideal pass rewrote nothing. -/
theorem preserves : Cert.preserves_Kernel_KernelIdeal := trivial

/-- From memories agreeing on the arguments both programs end with the result array at the reference's last stage of
    those arguments. -/
theorem algebraic : Cert.algebraic_KernelIdeal_ReferenceIdeal := by
  intro m g m' g' hpre hagree
  refine ⟨fun c => Cert.ReferenceIdeal.ReadP.val_main_v65 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run (Cert.KernelIdeal.defs (F := Ideal)) _ _).mono
      (fun r h c => ⟨(h c).1.trans (Cert.KernelIdeal.Hand.kernel_value m c
          (Cert.KernelIdeal.TakeVal.ids_in_range _ _ _ _ _ _ _ _ _ (hpre c))), (h c).2⟩)
      (Cert.KernelIdeal.Hand.run_main (F := Ideal) m g)
  · refine (θ_run (Cert.ReferenceIdeal.defs (F := Ideal)) _ _).mono (fun r h c => ⟨(h c).1.trans ?_, (h c).2⟩)
      (Cert.ReferenceIdeal.RefFinal.ref_run m' g')
    obtain ⟨e0, e1, e2, e3, e4, e5, e6, e7, e8⟩ := hagree c
    rw [e0, e1, e2, e3, e4, e5, e6, e7, e8]

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
